-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048 : Shape := ⟨1, ![2048]⟩
abbrev S50000x512 : Shape := ⟨2, ![50000, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2048x512 .f32) (main_arg1 : IVec S2048 32) (main_arg2 : FVec F S50000x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S50000x512 .f32 := Host.absf main_arg2
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg1 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v8 main_v11
  let main_c_4 : IVec S_ 32 := constantI S_ 32 50000#32
  let main_v13 : IVec S2048 32 := broadcastInDim S2048 ![] bcast_S_S2048 main_c_4
  let main_v14 : IVec S2048 1 := cmpi .slt main_arg1 main_v13
  let main_c_5 : IVec S_ 1 := constantI S_ 1 1#1
  let main_v15 : IVec S_ 1 := (fun x v => Host.reduce IntOp.andi x v reducesTo_S2048_S_d0 h_S_) main_v14 main_c_5
  fn_part1 (F := F) main_v12 main_v15
-- ==== Kernel.lean ====
abbrev S2048x512 : Shape := ⟨2, ![2048, 512]⟩
abbrev S2048 : Shape := ⟨1, ![2048]⟩
abbrev S50000x512 : Shape := ⟨2, ![50000, 512]⟩
abbrev S2048x1 : Shape := ⟨2, ![2048, 1]⟩
abbrev S1024x512 : Shape := ⟨2, ![1024, 512]⟩
abbrev S1280x512 : Shape := ⟨2, ![1280, 512]⟩
abbrev S1024x1 : Shape := ⟨2, ![1024, 1]⟩
abbrev S1024 : Shape := ⟨1, ![1024]⟩
abbrev S1280 : Shape := ⟨1, ![1280]⟩
abbrev S1280x1 : Shape := ⟨2, ![1280, 1]⟩
abbrev S1024x1280 : Shape := ⟨2, ![1024, 1280]⟩
abbrev S_ : Shape := ⟨0, ![]⟩

abbrev nBuf : Space → Nat
  | .hbm => 10
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S50000x512, .f32⟩
  | .hbm, ⟨3, _⟩ => ⟨S2048x1, .i32⟩
  | .hbm, ⟨4, _⟩ => ⟨S2048x1, .f32⟩
  | .hbm, ⟨5, _⟩ => ⟨S2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1280x512, .f32⟩
  | .local _ .vmem, ⟨3, _⟩ => ⟨S1280x512, .f32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 40], ![false, false]⟩

def k0_cond2 (i : grid0.Coords) : BitVec 1 :=
  let arg1 : BitVec 32 := BitVec.ofNat 32 (i 1).val
  let c39_i32 : BitVec 32 := 39#32
  let v64 : BitVec 1 := Scalar.cmpi .eq arg1 c39_i32
  let v65 : BitVec 32 := Scalar.extui v64
  let c0_i32_30 : BitVec 32 := 0#32
  let v66 : BitVec 1 := Scalar.cmpi .ne v65 c0_i32_30
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2048_S2048x1 : S2048.ShapeCasts S2048x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S1280x512_S1280x512_0_0 : ∀ a, (![0, 0] : Fin 2 → Nat) a + S1280x512.size a ≤ S1280x512.size a
  h_S1280x512 : 0 < S1280x512.numel
  reduces_S1280x512_S1280 : S1280x512.Reduces [1] S1280
  shapeCasts_S1280_S1280x1 : S1280.ShapeCasts S1280x1
  broadcasts_S1280x1_S1280x512 : S1280x1.Broadcasts S1280x512
  iota_S1024x1280_d1_w32 : S1024x1280.Iotas .tc 32 [1]
  broadcasts_S1024x1_S1024x1280 : S1024x1.Broadcasts S1024x1280
  reduces_S1024x1280_S1024 : S1024x1280.Reduces [1] S1024
  shapeCasts_S2048x1_S2048 : S2048x1.ShapeCasts S2048
  reducesTo_S2048_S_d0 : S2048.ReducesTo [0] S_
  h_S_ : 0 < S_.numel
  dot_S1024x512_S1280x512_S1024x1280_1_1_0_0_n_n_wf : DotDims.WF S1024x512 S1280x512 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x512.size a
  hwx0_0 : ∀ i : grid0.Coords, EltTy.bits .f32 = 32 ∨ (Rect.block (s := S2048x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1280x512.size a < S50000x512.size a
  hwx0_1 : ∀ i : grid0.Coords, EltTy.bits .f32 = 32 ∨ (Rect.unit (s := S50000x512) (fun a => cc0_transform_1 i a * S1280x512.size a) (fun a => (Pipeline.Clip.of (cc0_transform_1 i a) (S1280x512.size a) (S50000x512.size a)).extent (S1280x512.size a)) fun a => Pipeline.Clip.inb (Pipeline.Clip.ok_of (hstart0_1 i a))).WholeWords (EltTy.packing .f32)
  hwxs0_1 : ∀ i : grid0.Coords, EltTy.bits .f32 = 32 ∨ (Rect.unit (s := S1280x512) (fun _ => 0) (fun a => (Pipeline.Clip.of (cc0_transform_1 i a) (S1280x512.size a) (S50000x512.size a)).extent (S1280x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .i32 = 32 ∨ (Rect.block (s := S2048x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)

variable [Facts₀]

def dot_S1024x512_S1280x512_S1024x1280_1_1_0_0_n_n : DotDims S1024x512 S1280x512 S1024x1280 where
  lhsContracting := [1]
  rhsContracting := [1]
  lhsNonContracting := [0]
  rhsNonContracting := [0]
  lhsBatch := []
  rhsBatch := []
  wf := dot_S1024x512_S1280x512_S1024x1280_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S1280x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x512 : Shape := ⟨2, ![2048, 512]⟩
abbrev S2048 : Shape := ⟨1, ![2048]⟩
abbrev S50000x512 : Shape := ⟨2, ![50000, 512]⟩
abbrev S_ : Shape := ⟨0, ![]⟩
abbrev S2048x1 : Shape := ⟨2, ![2048, 1]⟩
abbrev S50000 : Shape := ⟨1, ![50000]⟩
abbrev S50000x1 : Shape := ⟨2, ![50000, 1]⟩
abbrev S2048x50000 : Shape := ⟨2, ![2048, 50000]⟩
abbrev S2048x2 : Shape := ⟨2, ![2048, 2]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S50000x512, .f32⟩
  | .hbm, ⟨3, _⟩ => ⟨S2048x512, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x512, .f32⟩
  | .hbm, ⟨12, _⟩ => ⟨S2048x512, .f32⟩
  | .hbm, ⟨13, _⟩ => ⟨S50000x512, .f32⟩
  | .hbm, ⟨14, _⟩ => ⟨S_, .f32⟩
  | .hbm, ⟨15, _⟩ => ⟨S50000, .f32⟩
  | .hbm, ⟨16, _⟩ => ⟨S50000x1, .f32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S50000x512, .f32⟩
  | .hbm, ⟨22, _⟩ => ⟨S50000x512, .f32⟩
  | .hbm, ⟨23, _⟩ => ⟨S2048x50000, .f32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S2048x1, .i32⟩
  | .hbm, ⟨40, _⟩ => ⟨S2048x1, .i32⟩
  | .hbm, ⟨41, _⟩ => ⟨S2048x2, .i32⟩
  | .hbm, ⟨42, _⟩ => ⟨S_, .f32⟩
  | .hbm, ⟨43, _⟩ => ⟨S2048, .f32⟩
  | .hbm, ⟨44, _⟩ => ⟨S2048x50000, .f32⟩
  | .hbm, ⟨45, _⟩ => ⟨S_, .f32⟩
  | .hbm, ⟨46, _⟩ => ⟨S2048x50000, .f32⟩
  | .hbm, ⟨47, _⟩ => ⟨S2048x50000, .f32⟩
  | .hbm, ⟨48, _⟩ => ⟨S_, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S2048x1, .f32⟩
  | .hbm, ⟨54, _⟩ => ⟨S2048x50000, .f32⟩
  | .hbm, ⟨55, _⟩ => ⟨S2048x50000, .f32⟩
  | .hbm, ⟨56, _⟩ => ⟨S2048x50000, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x1, .f32⟩
  | .hbm, ⟨61, _⟩ => ⟨S2048x50000, .f32⟩
  | .hbm, ⟨62, _⟩ => ⟨S2048x50000, .f32⟩
  | .hbm, ⟨63, _⟩ => ⟨S2048x1, .i32⟩
  | .hbm, ⟨64, _⟩ => ⟨S_, .i32⟩
  | .hbm, ⟨65, _⟩ => ⟨S2048x1, .i32⟩
  | .hbm, ⟨66, _⟩ => ⟨S2048x1, .i1⟩
  | .hbm, ⟨67, _⟩ => ⟨S_, .i32⟩
  | .hbm, ⟨68, _⟩ => ⟨S2048x1, .i32⟩
  | .hbm, ⟨69, _⟩ => ⟨S2048x1, .i32⟩
  | .hbm, ⟨70, _⟩ => ⟨S2048x1, .i32⟩
  | .hbm, ⟨71, _⟩ => ⟨S2048x1x1, .i32⟩
  | .hbm, ⟨72, _⟩ => ⟨S1, .i32⟩
  | .hbm, ⟨73, _⟩ => ⟨S_, .i32⟩
  | .hbm, ⟨74, _⟩ => ⟨S2048x1x1, .i32⟩
  | .hbm, ⟨75, _⟩ => ⟨S2048x1x1, .i1⟩
  | .hbm, ⟨76, _⟩ => ⟨S1x1x1, .i32⟩
  | .hbm, ⟨77, _⟩ => ⟨S2048x1x1, .i32⟩
  | .hbm, ⟨78, _⟩ => ⟨S2048x1x1, .i1⟩
  | .hbm, ⟨79, _⟩ => ⟨S2048x1x1, .i1⟩
  | .hbm, ⟨80, _⟩ => ⟨S_, .i1⟩
  | .hbm, ⟨81, _⟩ => ⟨S2048x1, .i1⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S2048, .f32⟩
  | .hbm, ⟨87, _⟩ => ⟨S2048, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_call0_cst : Ref sig .tc := ⟨.hbm, 48, rfl⟩
abbrev main_call0_v0 : Ref sig .tc := ⟨.hbm, 49, rfl⟩
abbrev main_call0_cst_0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_cst_1 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_v35 : Ref sig .tc := ⟨.hbm, 62, rfl⟩
abbrev main_v36 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_cst : Ref sig .tc := ⟨.hbm, 83, rfl⟩
abbrev main_call1_v14 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_8 : Ref sig .tc := ⟨.hbm, 88, rfl⟩
abbrev main_v40 : Ref sig .tc := ⟨.hbm, 89, rfl⟩
abbrev main_cst_9 : Ref sig .tc := ⟨.hbm, 90, rfl⟩
abbrev main_v41 : Ref sig .tc := ⟨.hbm, 91, rfl⟩

abbrev nD : Nat := 1
abbrev τ : Topo := Topo.v7x

variable {F : FTy → Type} [FloatOps F]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  reducesTo_S50000x512_S50000_d1 : S50000x512.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  bcast_S_S2048 : S_.BroadcastsInDim S2048 (![] : Fin 0 → Fin S2048.rank)
  concatenates_S2048x1_S2048x1_S2048x2_d1 : Shape.Concatenates [S2048x1, S2048x1] S2048x2 1
  bcast_S_S2048x50000 : S_.BroadcastsInDim S2048x50000 (![] : Fin 0 → Fin S2048x50000.rank)
  reducesTo_S2048x50000_S2048_d1 : S2048x50000.ReducesTo [1] S2048
  bcast_S2048x1_S2048x50000_0_1 : S2048x1.BroadcastsInDim S2048x50000 (![0, 1] : Fin 2 → Fin S2048x50000.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  dot_S2048x512_S50000x512_S2048x50000_1_1_0_0_n_n_wf : DotDims.WF S2048x512 S50000x512 S2048x50000 [1] [1] [0] [0] [] []
  scatter_S2048x50000_S2048x2_S2048_n_01_01_1_wf : ScatterDims.WF S2048x50000 S2048x2 S2048 [] [0, 1] [0, 1] 1
  gather_S2048x50000_S2048x1x1_S2048x1_n_1_0_0_1_2_11_wf : GatherDims.WF S2048x50000 S2048x1x1 S2048x1 [] [1] [0] [1] [0] 2 ![1, 1]

variable [Facts₀]

def dot_S2048x512_S50000x512_S2048x50000_1_1_0_0_n_n : DotDims S2048x512 S50000x512 S2048x50000 where
  lhsContracting := [1]
  rhsContracting := [1]
  lhsNonContracting := [0]
  rhsNonContracting := [0]
  lhsBatch := []
  rhsBatch := []
  wf := dot_S2048x512_S50000x512_S2048x50000_1_1_0_0_n_n_wf
def scatter_S2048x50000_S2048x2_S2048_n_01_01_1 : ScatterDims S2048x50000 S2048x2 S2048 where
  updateWindowDims := []
  insertedWindowDims := [0, 1]
  scatterDimsToOperandDims := [0, 1]
  indexVectorDim := 1
  wf := scatter_S2048x50000_S2048x2_S2048_n_01_01_1_wf
def gather_S2048x50000_S2048x1x1_S2048x1_n_1_0_0_1_2_11 : GatherDims S2048x50000 S2048x1x1 S2048x1 where
  offsetDims := []
  collapsedSliceDims := [1]
  operandBatchingDims := [0]
  startIndicesBatchingDims := [0]
  startIndexMap := [1]
  indexVectorDim := 2
  sliceSizes := ![1, 1]
  wf := gather_S2048x50000_S2048x1x1_S2048x1_n_1_0_0_1_2_11_wf

class Facts : Prop extends Facts₀ where

variable [Facts]
-- ==== Proof.KBodyK.lean ====
/-
  The kernel body run on whole staging buffers, case by case.

  The body branches twice on the class-tile coordinate: at class tile 0 it resets the four scratch arrays, at class
  tile 39 it writes the output block. Three cases are met on the grid: the first tile (reset, no output), a middle
  tile (neither), the last tile (output, no reset). In each case the run ends with every input buffer as it was and
  each stored buffer holding the pieces its stores left.
-/
import proofs.«401782_j48017734369761_2_alg».proof.Proof.Gen.Kernel.Frame
import proofs.«401782_j48017734369761_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "The class tile is 0", the body's first branch condition. -/
abbrev cond0_0 (i : grid0.Coords) : Prop := (Scalar.cmpi .ne (Scalar.extui (Scalar.cmpi .eq (BitVec.ofNat 32 (i 1).val) 0#32)) 0#32) = 1#1
/-- "The class tile is 39", the body's second branch condition. -/
abbrev cond0_1 (i : grid0.Coords) : Prop := k0_cond2 i = 1#1

set_option maxHeartbeats 4000000 in
/-- A middle tile: the three running arrays are read and stored back updated; the cached embeddings are only read. -/
noncomputable def kernelRun0_B (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : ¬cond0_0 i) (hc1 : ¬cond0_1 i)
    (x0 : Vec F S1024x512 .f32) (x1 : Vec F S1280x512 .f32) (x2 : Vec F S1024x1 .i32)
    (xm xl xll : Vec F S1024x1 .f32) (xe : Vec F S1024x512 .bf16) :
    Σ' (LS6 : List (View.Piece (Elt F) S1024x1 .f32)) (LS7 : List (View.Piece (Elt F) S1024x1 .f32)), { LS8 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi5
            ∗ owns (c : Thread nD τ) arg6 fullShare xm ∗ owns (c : Thread nD τ) arg7 fullShare xl ∗ owns (c : Thread nD τ) arg8 fullShare xll
            ∗ owns (c : Thread nD τ) arg9 fullShare xe
            ∗ (iprop(owns (c : Thread nD τ) arg2 fullShare x0 ∗ owns (c : Thread nD τ) arg3 fullShare x1 ∗ owns (c : Thread nD τ) arg4 fullShare x2
                ∗ owns (c : Thread nD τ) arg5 fullShare xi5
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)
                ∗ owns (c : Thread nD τ) arg9 fullShare xe) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, fun xi5 E K => ?run⟩
  case run =>
    simp only [cc0__arcface_kernel_eq_skeleton]; unfold cc0__arcface_kernel_skel
    simp only [k0_part1_eq_skeleton]; unfold k0_part1_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7
    obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; iexact H6
    isplitl [H7]
    · iexists _; iexact H7
    isplitl [H8]
    · iexists _; iexact H8
    · iexists _; isplitr; · ipureintro; exact harg9.read_unread _
      iexact H9

set_option maxHeartbeats 4000000 in
/-- The first tile: the four scratch arrays are reset (stored whole before anything reads them), then the class tile
    is folded in; the output block is not touched. -/
noncomputable def kernelRun0_A (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : cond0_0 i) (hc1 : ¬cond0_1 i)
    (x0 : Vec F S1024x512 .f32) (x1 : Vec F S1280x512 .f32) (x2 : Vec F S1024x1 .i32) :
    Σ' (LS6 : List (View.Piece (Elt F) S1024x1 .f32)) (LS7 : List (View.Piece (Elt F) S1024x1 .f32)) (LS8 : List (View.Piece (Elt F) S1024x1 .f32)), { LS9 : List (View.Piece (Elt F) S1024x512 .bf16) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi5
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi5
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, ?_, fun xi5 E K => ?run⟩
  case run =>
    simp only [cc0__arcface_kernel_eq_skeleton]; unfold cc0__arcface_kernel_skel
    simp only [k0_part1_eq_skeleton]; unfold k0_part1_skel
    unfold owns
    iintro ⟨⟨%f0, %hf0, H0⟩, ⟨%f1, %hf1, H1⟩, ⟨%f2, %hf2, H2⟩, ⟨%f5, %hf5, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2
    obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; iexact H6
    isplitl [H7]
    · iexists _; iexact H7
    isplitl [H8]
    · iexists _; iexact H8
    · iexists _; iexact H9

set_option maxHeartbeats 4000000 in
/-- The last tile: as a middle tile, and then the output block is stored whole from the three running arrays. -/
noncomputable def kernelRun0_C (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : ¬cond0_0 i) (hc1 : cond0_1 i)
    (x0 : Vec F S1024x512 .f32) (x1 : Vec F S1280x512 .f32) (x2 : Vec F S1024x1 .i32)
    (xm xl xll : Vec F S1024x1 .f32) (xe : Vec F S1024x512 .bf16) :
    Σ' (L5 : List (View.Piece (Elt F) S1024x1 .f32)) (LS6 : List (View.Piece (Elt F) S1024x1 .f32)) (LS7 : List (View.Piece (Elt F) S1024x1 .f32)), { LS8 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xm ∗ owns (c : Thread nD τ) arg7 fullShare xl ∗ owns (c : Thread nD τ) arg8 fullShare xll
            ∗ owns (c : Thread nD τ) arg9 fullShare xe
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)
                ∗ owns (c : Thread nD τ) arg9 fullShare xe) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, ?_, fun E K => ?run⟩
  case run =>
    simp only [cc0__arcface_kernel_eq_skeleton]; unfold cc0__arcface_kernel_skel
    simp only [k0_part1_eq_skeleton]; unfold k0_part1_skel
    unfold owns
    iintro ⟨⟨%f0, %hf0, H0⟩, ⟨%f1, %hf1, H1⟩, ⟨%f2, %hf2, H2⟩, ⟨%d5, %f5, -, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg6.eq_unread hf6; obtain rfl := harg7.eq_unread hf7
    obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexact H6
    isplitl [H7]
    · iexists _; iexact H7
    isplitl [H8]
    · iexists _; iexact H8
    · iexists _; isplitr; · ipureintro; exact harg9.read_unread _
      iexact H9

end Cert.Kernel.Body

end
-- ==== Proof.KFrameK.lean ====
/-
  The frame of the program: it runs to the end, faults nowhere and leaves its three argument arrays unchanged —
  at any float instance, with nothing said of the values the kernel computes.

  The proof data name only what the inputs' staging buffers hold (each its block of the array; the weight block on
  its rows inside the array, the last class tile overhanging it); the four scratch arrays are held at some contents
  between points and the output window's buffer is forgotten. At each grid point the body is one of its three
  cases (first, middle, last class tile), decided from the point's number modulo 40.
-/
import proofs.«401782_j48017734369761_2_alg».proof.Proof.KBodyK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class tile is 0 exactly at the points ≡ 0 (mod 40). -/
theorem hcond0_0 : ∀ t : Fin cfg0.N, cond0_0 (grid0.coords t) ↔ t.val % 40 = 0 :=
  (by decide +kernel : ∀ t : Fin grid0.N, cond0_0 (grid0.coords t) ↔ t.val % 40 = 0)
/-- The class tile is 39 exactly at the points ≡ 39 (mod 40). -/
theorem hcond0_1 : ∀ t : Fin cfg0.N, cond0_1 (grid0.coords t) ↔ t.val % 40 = 39 :=
  (by decide +kernel : ∀ t : Fin grid0.N, cond0_1 (grid0.coords t) ↔ t.val % 40 = 39)

/-- Each window's current staging memref at a point, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The four scratch operands: running maximum, running sum, running label logit, cached embeddings. -/
abbrev scM6 : Memref sig .tc .vmem S1024x1 .f32 := Memref.whole cc0_scratch0
abbrev scM7 : Memref sig .tc .vmem S1024x1 .f32 := Memref.whole cc0_scratch1
abbrev scM8 : Memref sig .tc .vmem S1024x1 .f32 := Memref.whole cc0_scratch2
abbrev scM9 : Memref sig .tc .vmem S1024x512 .bf16 := Memref.whole cc0_scratch3

/-- The class invariant with the scratch operands as memrefs owned at some contents. -/
theorem PhiA0_eq (c : Dev nD) :
    (Pipeline.ΦA spec0 c : sProp 𝕄)
      = iprop(iprop((∃ d, owns (c : Thread nD τ) scM6 fullShare d) ∗ (∃ d, owns (c : Thread nD τ) scM7 fullShare d)
          ∗ (∃ d, owns (c : Thread nD τ) scM8 fullShare d) ∗ (∃ d, owns (c : Thread nD τ) scM9 fullShare d)) ∗ (∃ r, prngReg c r)) := by
  unfold Pipeline.ΦA; rw [scopedRest0_eq]; simp only [scM6, scM7, scM8, scM9, owns_whole]; try rfl

/-- Which windows the frame forgets: the output's. -/
abbrev fgt3 : Fin 4 → Bool := fun | 0 => false | 1 => false | 2 => false | 3 => true | ⟨_ + 4, h⟩ => absurd h (Nat.not_lt.2 (Nat.le_add_left _ _))

/-- The frame's proof data on core `c`: the arrays as the region finds them; after the body each input's buffer at
    its block (the weight block filled out past the array's end by a word nothing reads); the output's buffer
    unnamed; the class invariant; nothing owed; full shares. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Scalar.ofBits .f32 0#32) (iblk m c 1 t)
    | ⟨2, _⟩ => iblk m c 2 t
    | ⟨3, _⟩ => fun _ => Scalar.ofBits .f32 0#32
  Φ _ := Pipeline.ΦA spec0 c
  q _ := fullShare
  owed _ := 0

theorem A_eqF (c : Dev nD) (w : Fin cfg0.W) : (datsF m 0 c).A w = V m c (Pipeline.arrRef spec0 w) := by
  dsimp only [datsF]
theorem afterF_0 (c : Dev nD) (t : Fin cfg0.N) : (datsF m 0 c).after 0 t = iblk m c 0 t := by dsimp only [datsF]
theorem afterF_1 (c : Dev nD) (t : Fin cfg0.N) :
    (datsF m 0 c).after 1 t = (cfg0.win 1).fill (cfg0.grid.coords t) (fun _ => Scalar.ofBits .f32 0#32) (iblk m c 1 t) := by dsimp only [datsF]
theorem afterF_2 (c : Dev nD) (t : Fin cfg0.N) : (datsF m 0 c).after 2 t = iblk m c 2 t := by dsimp only [datsF]

theorem beforeF_0 (c : Dev nD) (t : Fin cfg0.N) (d) : (datsF m 0 c).before 0 t d = iblk m c 0 t :=
  before0_0_of m (datsF m 0 c) (A_eqF m c 0) (afterF_0 m c) t d
theorem beforeF_2 (c : Dev nD) (t : Fin cfg0.N) (d) : (datsF m 0 c).before 2 t d = iblk m c 2 t :=
  before0_2_of m (datsF m 0 c) (A_eqF m c 2) (afterF_2 m c) t d
/-- The weight window is fetched at every point: its buffer holds the block on the rows inside the array, `d` past them. -/
theorem beforeF_1 (c : Dev nD) (t : Fin cfg0.N) (d) :
    (datsF m 0 c).before 1 t d = (cfg0.win 1).fill (cfg0.grid.coords t) d (iblk m c 1 t) := by
  unfold Dat.before; rw [if_pos (fetch0_1 t)]
  unfold Dat.fetched Dat.blockOf iblk; rw [A_eqF]

/-- What the body is called with at point `t`, -/
def bodyPreF (c : Dev nD) (t : Fin cfg0.N) : sProp 𝕄 :=
  iprop((datsF m 0 c).Φ t.castSucc ∗ (datsF m 0 c).owesAt () t.castSucc
    ∗ (∃ d, owns (c : Thread nD τ) (ms0_0 t) fullShare ((datsF m 0 c).before 0 t d))
    ∗ (∃ d, owns (c : Thread nD τ) (ms0_1 t) fullShare ((datsF m 0 c).before 1 t d))
    ∗ (∃ d, owns (c : Thread nD τ) (ms0_2 t) fullShare ((datsF m 0 c).before 2 t d))
    ∗ (∃ X, owns (c : Thread nD τ) (ms0_3 t) fullShare X))

/-- and what it returns. -/
def bodyPostF (c : Dev nD) (t : Fin cfg0.N) : sProp 𝕄 :=
  iprop((datsF m 0 c).Φ t.succ ∗ (datsF m 0 c).owesAt () t.succ
    ∗ owns (c : Thread nD τ) (ms0_0 t) fullShare ((datsF m 0 c).after 0 t)
    ∗ (∃ d, owns (c : Thread nD τ) (ms0_1 t) fullShare ((cfg0.win 1).fill (cfg0.grid.coords t) d ((cfg0.win 1).cut (cfg0.grid.coords t) ((datsF m 0 c).after 1 t))))
    ∗ owns (c : Thread nD τ) (ms0_2 t) fullShare ((datsF m 0 c).after 2 t)
    ∗ (∃ X, owns (c : Thread nD τ) (ms0_3 t) fullShare X))

set_option maxHeartbeats 4000000 in
/-- The body at any point: the inputs' buffers hold their blocks, the scratch arrays and the output's buffer hold
    something; the point's number modulo 40 says which case runs; afterwards the inputs' buffers are as they were
    and the stored buffers hold something again. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, afterF_0, afterF_1, afterF_2]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA0_eq]
  have hcut : ∀ d, (cfg0.win 1).fill (cfg0.grid.coords t) d ((cfg0.win 1).cut (cfg0.grid.coords t) ((cfg0.win 1).fill (cfg0.grid.coords t) (fun _ => Scalar.ofBits .f32 0#32) (iblk m c 1 t)))
      = (cfg0.win 1).fill (cfg0.grid.coords t) d (iblk m c 1 t) := fun d => by rw [(cfg0.win 1).cut_fill]
  by_cases h0 : t.val % 40 = 0
  · have hc0 : cond0_0 (grid0.coords t) := (hcond0_0 t).mpr h0
    have hc1 : ¬cond0_1 (grid0.coords t) := fun h => by have := (hcond0_1 t).mp h; omega
    iintro ⟨⟨⟨HS6, HS7, HS8, HS9⟩, Hg⟩, Ho, ⟨%d0, H0⟩, ⟨%d1, H1⟩, ⟨%d2, H2⟩, ⟨%X3, H3⟩⟩
    iapply ((kernelRun0_A c (grid0.coords t) _ _ _ _ _ _ _ _ _ _ _ _ _ _ _ _ hc0 hc1 (iblk m c 0 t) ((cfg0.win 1).fill (cfg0.grid.coords t) d1 (iblk m c 1 t)) (iblk m c 2 t)).2.2.2.2 X3 Set.univ _)
    isplitl [H0]; · iexact H0
    isplitl [H1]; · iexact H1
    isplitl [H2]; · iexact H2
    isplitl [H3]; · iexact H3
    isplitl [HS6]; · iexact HS6
    isplitl [HS7]; · iexact HS7
    isplitl [HS8]; · iexact HS8
    isplitl [HS9]; · iexact HS9
    iintro ⟨H0, H1, H2, H3, ⟨%e6, HS6⟩, ⟨%e7, HS7⟩, ⟨%e8, HS8⟩, ⟨%e9, HS9⟩⟩
    isplitl [HS6 HS7 HS8 HS9 Hg]
    · isplitl [HS6 HS7 HS8 HS9]
      · isplitl [HS6]; · iexists _; iapply (owns_intro (c : Thread nD τ) scM6 fullShare _); iexact HS6
        isplitl [HS7]; · iexists _; iapply (owns_intro (c : Thread nD τ) scM7 fullShare _); iexact HS7
        isplitl [HS8]; · iexists _; iapply (owns_intro (c : Thread nD τ) scM8 fullShare _); iexact HS8
        iexists _; iapply (owns_intro (c : Thread nD τ) scM9 fullShare _); iexact HS9
      iexact Hg
    isplitl [Ho]; · iexact Ho
    isplitl [H0]; · iexact H0
    isplitl [H1]; · iexists d1; rw [hcut]; iexact H1
    isplitl [H2]; · iexact H2
    iexists _; iexact H3
  · by_cases h1 : t.val % 40 = 39
    · have hc0 : ¬cond0_0 (grid0.coords t) := fun h => h0 ((hcond0_0 t).mp h)
      have hc1 : cond0_1 (grid0.coords t) := (hcond0_1 t).mpr h1
      iintro ⟨⟨⟨⟨%xm, HS6⟩, ⟨%xl, HS7⟩, ⟨%xll, HS8⟩, ⟨%xe, HS9⟩⟩, Hg⟩, Ho, ⟨%d0, H0⟩, ⟨%d1, H1⟩, ⟨%d2, H2⟩, H3⟩
      iapply ((kernelRun0_C c (grid0.coords t) _ _ _ _ _ _ _ _ _ _ _ _ _ _ _ _ hc0 hc1 (iblk m c 0 t) ((cfg0.win 1).fill (cfg0.grid.coords t) d1 (iblk m c 1 t)) (iblk m c 2 t) xm xl xll xe).2.2.2.2 Set.univ _)
      isplitl [H0]; · iexact H0
      isplitl [H1]; · iexact H1
      isplitl [H2]; · iexact H2
      isplitl [H3]; · iexact H3
      isplitl [HS6]; · iexact HS6
      isplitl [HS7]; · iexact HS7
      isplitl [HS8]; · iexact HS8
      isplitl [HS9]; · iexact HS9
      iintro ⟨H0, H1, H2, ⟨%e5, H3⟩, ⟨%e6, HS6⟩, ⟨%e7, HS7⟩, ⟨%e8, HS8⟩, HS9⟩
      isplitl [HS6 HS7 HS8 HS9 Hg]
      · isplitl [HS6 HS7 HS8 HS9]
        · isplitl [HS6]; · iexists _; iapply (owns_intro (c : Thread nD τ) scM6 fullShare _); iexact HS6
          isplitl [HS7]; · iexists _; iapply (owns_intro (c : Thread nD τ) scM7 fullShare _); iexact HS7
          isplitl [HS8]; · iexists _; iapply (owns_intro (c : Thread nD τ) scM8 fullShare _); iexact HS8
          iexists _; iexact HS9
        iexact Hg
      isplitl [Ho]; · iexact Ho
      isplitl [H0]; · iexact H0
      isplitl [H1]; · iexists d1; rw [hcut]; iexact H1
      isplitl [H2]; · iexact H2
      iexists _; iapply (owns_intro (c : Thread nD τ) (ms0_3 t) fullShare _); iexact H3
    · have hc0 : ¬cond0_0 (grid0.coords t) := fun h => h0 ((hcond0_0 t).mp h)
      have hc1 : ¬cond0_1 (grid0.coords t) := fun h => h1 ((hcond0_1 t).mp h)
      iintro ⟨⟨⟨⟨%xm, HS6⟩, ⟨%xl, HS7⟩, ⟨%xll, HS8⟩, ⟨%xe, HS9⟩⟩, Hg⟩, Ho, ⟨%d0, H0⟩, ⟨%d1, H1⟩, ⟨%d2, H2⟩, ⟨%X3, H3⟩⟩
      iapply ((kernelRun0_B c (grid0.coords t) _ _ _ _ _ _ _ _ _ _ _ _ _ _ _ _ hc0 hc1 (iblk m c 0 t) ((cfg0.win 1).fill (cfg0.grid.coords t) d1 (iblk m c 1 t)) (iblk m c 2 t) xm xl xll xe).2.2.2 X3 Set.univ _)
      isplitl [H0]; · iexact H0
      isplitl [H1]; · iexact H1
      isplitl [H2]; · iexact H2
      isplitl [H3]; · iexact H3
      isplitl [HS6]; · iexact HS6
      isplitl [HS7]; · iexact HS7
      isplitl [HS8]; · iexact HS8
      isplitl [HS9]; · iexact HS9
      iintro ⟨H0, H1, H2, H3, ⟨%e6, HS6⟩, ⟨%e7, HS7⟩, ⟨%e8, HS8⟩, HS9⟩
      isplitl [HS6 HS7 HS8 HS9 Hg]
      · isplitl [HS6 HS7 HS8 HS9]
        · isplitl [HS6]; · iexists _; iapply (owns_intro (c : Thread nD τ) scM6 fullShare _); iexact HS6
          isplitl [HS7]; · iexists _; iapply (owns_intro (c : Thread nD τ) scM7 fullShare _); iexact HS7
          isplitl [HS8]; · iexists _; iapply (owns_intro (c : Thread nD τ) scM8 fullShare _); iexact HS8
          iexists _; iexact HS9
        iexact Hg
      isplitl [Ho]; · iexact Ho
      isplitl [H0]; · iexact H0
      isplitl [H1]; · iexists d1; rw [hcut]; iexact H1
      isplitl [H2]; · iexact H2
      iexists _; iexact H3

/-- The library's body obligation (the output window forgotten), at every point. -/
theorem body_obligationF (c : Dev nD) : Pipeline.BodyObligationLoose (datsF (F := F) m 0 c) (defs₀ (F := F)) Variants.none () Set.univ fgt3 := fun t => by
  rw [bigSep_W0, bigSep_W0]
  exact sound_bodyF m c t

/-- The host operations after the region write none of the argument arrays: every buffer they write is another. -/
theorem tail_T : ∀ ops ∈ ([hostOps1] : List (List (HloOp τ sig (Elt F)))), ∀ op ∈ ops, ∀ b : Ref sig .tc,
    Proc.devRef .tc b ∈ op.writes → b ∈ (Finset.univ.erase main_arg1 : Finset (Ref sig .tc)) := by
  intro ops hops op hop b hb
  simp only [List.mem_cons, List.mem_nil_iff, or_false] at hops
  rcases hops with rfl
  refine Finset.mem_erase.mpr ⟨?_, Finset.mem_univ _⟩
  rintro rfl
  revert hb
  simp only [hostOps1, List.mem_cons, List.mem_nil_iff, or_false] at hop
  rcases hop with rfl | rfl | rfl | rfl | rfl
  all_goals simp only [StableHlo.nullary_writes, StableHlo.unary_writes, StableHlo.binary_writes, StableHlo.reshape_writes, Finset.mem_singleton] <;> exact StableHlo.devRef_ne_of_ne (by decide)

set_option backward.isDefEq.respectTransparency.types false in
/-- From any memory with zero counters every weakly fair execution of @main terminates; the windows' arrays end at
    contents the proof data allow and every other buffer the tail does not write at what it held at the region's entry. -/
theorem run_mainF : θ_run defs (onTc (τ := τ) (main (F := F))) (s₀ m ρ)
    (Pipeline.RDat.FramePostR cfg0 (fun c => (datsF m 0 c).toRForget fgt3) (Finset.univ.erase main_arg1) (fun c b => V0 m c (Proc.devRef .tc b))) :=
  Pipeline.RDat.θ_run_frame_around_T_track cfgs (0 : Fin 1) launch0 defs₀ Variants.none (fun c => (datsF m 0 c).toRForget fgt3) (Finset.univ.erase main_arg1) m ρ main
    (hbody := fun c => (body_obligationF m c).toRForget) (hshare := fun c w => by unfold Pipeline.RDat.share; split <;> rfl)
    (howed := fun _ _ => rfl) (V₀ := V0 m) (opss := [hostOps1]) (hsub := sfx_sub) (hfresh := sfx_fresh) (hkeep := sfx_keeps) (hT := tail_T)
    (hmain := hmain m Variants.none) (hA := fun c w => A_eqF m c w) (hin := fun _ => .rfl) (hout := fun _ => .rfl)

/-- THE FRAME, at any float instance. -/
theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.arr_in c 0 rfl).trans ((A_eqF m c 0).trans (V_main_arg0 m c)),
      ((h c).2 main_arg1 (Finset.mem_sdiff.mpr ⟨Pipeline.mem_restRefs_of main_arg1 (by decide) (by decide), by simp⟩)).trans (V_main_arg1 m c),
      (h.arr_in c 1 rfl).trans ((A_eqF m c 1).trans (V_main_arg2 m c))⟩) (run_mainF m ρ)

end Cert.Kernel.Body

end
-- ==== Proof.KBody.lean ====
/-
  The kernel body run on whole staging buffers, case by case.

  The body branches twice on the class-tile coordinate: at class tile 0 it resets the four scratch arrays, at class
  tile 39 it writes the output block. Three cases are met on the grid: the first tile (reset, no output), a middle
  tile (neither), the last tile (output, no reset). In each case the run ends with every input buffer as it was and
  each stored buffer holding the pieces its stores left.
-/
import proofs.«401782_j48017734369761_2_alg».proof.Proof.Gen.KernelIdeal.Frame
import proofs.«401782_j48017734369761_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "The class tile is 0", the body's first branch condition. -/
abbrev cond0_0 (i : grid0.Coords) : Prop := (Scalar.cmpi .ne (Scalar.extui (Scalar.cmpi .eq (BitVec.ofNat 32 (i 1).val) 0#32)) 0#32) = 1#1
/-- "The class tile is 39", the body's second branch condition. -/
abbrev cond0_1 (i : grid0.Coords) : Prop := k0_cond2 i = 1#1

set_option maxHeartbeats 4000000 in
/-- A middle tile: the three running arrays are read and stored back updated; the cached embeddings are only read. -/
noncomputable def kernelRun0_B (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : ¬cond0_0 i) (hc1 : ¬cond0_1 i)
    (x0 : Vec F S1024x512 .f32) (x1 : Vec F S1280x512 .f32) (x2 : Vec F S1024x1 .i32)
    (xm xl xll : Vec F S1024x1 .f32) (xe : Vec F S1024x512 .bf16) :
    Σ' (LS6 : List (View.Piece (Elt F) S1024x1 .f32)) (LS7 : List (View.Piece (Elt F) S1024x1 .f32)), { LS8 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi5
            ∗ owns (c : Thread nD τ) arg6 fullShare xm ∗ owns (c : Thread nD τ) arg7 fullShare xl ∗ owns (c : Thread nD τ) arg8 fullShare xll
            ∗ owns (c : Thread nD τ) arg9 fullShare xe
            ∗ (iprop(owns (c : Thread nD τ) arg2 fullShare x0 ∗ owns (c : Thread nD τ) arg3 fullShare x1 ∗ owns (c : Thread nD τ) arg4 fullShare x2
                ∗ owns (c : Thread nD τ) arg5 fullShare xi5
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)
                ∗ owns (c : Thread nD τ) arg9 fullShare xe) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, fun xi5 E K => ?run⟩
  case run =>
    simp only [cc0__arcface_kernel_eq_skeleton]; unfold cc0__arcface_kernel_skel
    simp only [k0_part1_eq_skeleton]; unfold k0_part1_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7
    obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; iexact H6
    isplitl [H7]
    · iexists _; iexact H7
    isplitl [H8]
    · iexists _; iexact H8
    · iexists _; isplitr; · ipureintro; exact harg9.read_unread _
      iexact H9

set_option maxHeartbeats 4000000 in
/-- The first tile: the four scratch arrays are reset (stored whole before anything reads them), then the class tile
    is folded in; the output block is not touched. -/
noncomputable def kernelRun0_A (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : cond0_0 i) (hc1 : ¬cond0_1 i)
    (x0 : Vec F S1024x512 .f32) (x1 : Vec F S1280x512 .f32) (x2 : Vec F S1024x1 .i32) :
    Σ' (LS6 : List (View.Piece (Elt F) S1024x1 .f32)) (LS7 : List (View.Piece (Elt F) S1024x1 .f32)) (LS8 : List (View.Piece (Elt F) S1024x1 .f32)), { LS9 : List (View.Piece (Elt F) S1024x512 .bf16) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi5
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi5
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, ?_, fun xi5 E K => ?run⟩
  case run =>
    simp only [cc0__arcface_kernel_eq_skeleton]; unfold cc0__arcface_kernel_skel
    simp only [k0_part1_eq_skeleton]; unfold k0_part1_skel
    unfold owns
    iintro ⟨⟨%f0, %hf0, H0⟩, ⟨%f1, %hf1, H1⟩, ⟨%f2, %hf2, H2⟩, ⟨%f5, %hf5, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2
    obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; iexact H6
    isplitl [H7]
    · iexists _; iexact H7
    isplitl [H8]
    · iexists _; iexact H8
    · iexists _; iexact H9

set_option maxHeartbeats 4000000 in
/-- The last tile: as a middle tile, and then the output block is stored whole from the three running arrays. -/
noncomputable def kernelRun0_C (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : ¬cond0_0 i) (hc1 : cond0_1 i)
    (x0 : Vec F S1024x512 .f32) (x1 : Vec F S1280x512 .f32) (x2 : Vec F S1024x1 .i32)
    (xm xl xll : Vec F S1024x1 .f32) (xe : Vec F S1024x512 .bf16) :
    Σ' (L5 : List (View.Piece (Elt F) S1024x1 .f32)) (LS6 : List (View.Piece (Elt F) S1024x1 .f32)) (LS7 : List (View.Piece (Elt F) S1024x1 .f32)), { LS8 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xm ∗ owns (c : Thread nD τ) arg7 fullShare xl ∗ owns (c : Thread nD τ) arg8 fullShare xll
            ∗ owns (c : Thread nD τ) arg9 fullShare xe
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)
                ∗ owns (c : Thread nD τ) arg9 fullShare xe) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9) K } := by
  refine ⟨?_, ?_, ?_, ?_, fun E K => ?run⟩
  case run =>
    simp only [cc0__arcface_kernel_eq_skeleton]; unfold cc0__arcface_kernel_skel
    simp only [k0_part1_eq_skeleton]; unfold k0_part1_skel
    unfold owns
    iintro ⟨⟨%f0, %hf0, H0⟩, ⟨%f1, %hf1, H1⟩, ⟨%f2, %hf2, H2⟩, ⟨%d5, %f5, -, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg6.eq_unread hf6; obtain rfl := harg7.eq_unread hf7
    obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexact H6
    isplitl [H7]
    · iexists _; iexact H7
    isplitl [H8]
    · iexists _; iexact H8
    · iexists _; isplitr; · ipureintro; exact harg9.read_unread _
      iexact H9

end Cert.KernelIdeal.Body

end
-- ==== Proof.KFrame.lean ====
/-
  The frame of the program: it runs to the end, faults nowhere and leaves its three argument arrays unchanged —
  at any float instance, with nothing said of the values the kernel computes.

  The proof data name only what the inputs' staging buffers hold (each its block of the array; the weight block on
  its rows inside the array, the last class tile overhanging it); the four scratch arrays are held at some contents
  between points and the output window's buffer is forgotten. At each grid point the body is one of its three
  cases (first, middle, last class tile), decided from the point's number modulo 40.
-/
import proofs.«401782_j48017734369761_2_alg».proof.Proof.KBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class tile is 0 exactly at the points ≡ 0 (mod 40). -/
theorem hcond0_0 : ∀ t : Fin cfg0.N, cond0_0 (grid0.coords t) ↔ t.val % 40 = 0 :=
  (by decide +kernel : ∀ t : Fin grid0.N, cond0_0 (grid0.coords t) ↔ t.val % 40 = 0)
/-- The class tile is 39 exactly at the points ≡ 39 (mod 40). -/
theorem hcond0_1 : ∀ t : Fin cfg0.N, cond0_1 (grid0.coords t) ↔ t.val % 40 = 39 :=
  (by decide +kernel : ∀ t : Fin grid0.N, cond0_1 (grid0.coords t) ↔ t.val % 40 = 39)

/-- Each window's current staging memref at a point, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The four scratch operands: running maximum, running sum, running label logit, cached embeddings. -/
abbrev scM6 : Memref sig .tc .vmem S1024x1 .f32 := Memref.whole cc0_scratch0
abbrev scM7 : Memref sig .tc .vmem S1024x1 .f32 := Memref.whole cc0_scratch1
abbrev scM8 : Memref sig .tc .vmem S1024x1 .f32 := Memref.whole cc0_scratch2
abbrev scM9 : Memref sig .tc .vmem S1024x512 .bf16 := Memref.whole cc0_scratch3

/-- The class invariant with the scratch operands as memrefs owned at some contents. -/
theorem PhiA0_eq (c : Dev nD) :
    (Pipeline.ΦA spec0 c : sProp 𝕄)
      = iprop(iprop((∃ d, owns (c : Thread nD τ) scM6 fullShare d) ∗ (∃ d, owns (c : Thread nD τ) scM7 fullShare d)
          ∗ (∃ d, owns (c : Thread nD τ) scM8 fullShare d) ∗ (∃ d, owns (c : Thread nD τ) scM9 fullShare d)) ∗ (∃ r, prngReg c r)) := by
  unfold Pipeline.ΦA; rw [scopedRest0_eq]; simp only [scM6, scM7, scM8, scM9, owns_whole]; try rfl

/-- Which windows the frame forgets: the output's. -/
abbrev fgt3 : Fin 4 → Bool := fun | 0 => false | 1 => false | 2 => false | 3 => true | ⟨_ + 4, h⟩ => absurd h (Nat.not_lt.2 (Nat.le_add_left _ _))

/-- The frame's proof data on core `c`: the arrays as the region finds them; after the body each input's buffer at
    its block (the weight block filled out past the array's end by a word nothing reads); the output's buffer
    unnamed; the class invariant; nothing owed; full shares. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Scalar.ofBits .f32 0#32) (iblk m c 1 t)
    | ⟨2, _⟩ => iblk m c 2 t
    | ⟨3, _⟩ => fun _ => Scalar.ofBits .f32 0#32
  Φ _ := Pipeline.ΦA spec0 c
  q _ := fullShare
  owed _ := 0

theorem A_eqF (c : Dev nD) (w : Fin cfg0.W) : (datsF m 0 c).A w = V m c (Pipeline.arrRef spec0 w) := by
  dsimp only [datsF]
theorem afterF_0 (c : Dev nD) (t : Fin cfg0.N) : (datsF m 0 c).after 0 t = iblk m c 0 t := by dsimp only [datsF]
theorem afterF_1 (c : Dev nD) (t : Fin cfg0.N) :
    (datsF m 0 c).after 1 t = (cfg0.win 1).fill (cfg0.grid.coords t) (fun _ => Scalar.ofBits .f32 0#32) (iblk m c 1 t) := by dsimp only [datsF]
theorem afterF_2 (c : Dev nD) (t : Fin cfg0.N) : (datsF m 0 c).after 2 t = iblk m c 2 t := by dsimp only [datsF]

theorem beforeF_0 (c : Dev nD) (t : Fin cfg0.N) (d) : (datsF m 0 c).before 0 t d = iblk m c 0 t :=
  before0_0_of m (datsF m 0 c) (A_eqF m c 0) (afterF_0 m c) t d
theorem beforeF_2 (c : Dev nD) (t : Fin cfg0.N) (d) : (datsF m 0 c).before 2 t d = iblk m c 2 t :=
  before0_2_of m (datsF m 0 c) (A_eqF m c 2) (afterF_2 m c) t d
/-- The weight window is fetched at every point: its buffer holds the block on the rows inside the array, `d` past them. -/
theorem beforeF_1 (c : Dev nD) (t : Fin cfg0.N) (d) :
    (datsF m 0 c).before 1 t d = (cfg0.win 1).fill (cfg0.grid.coords t) d (iblk m c 1 t) := by
  unfold Dat.before; rw [if_pos (fetch0_1 t)]
  unfold Dat.fetched Dat.blockOf iblk; rw [A_eqF]

/-- What the body is called with at point `t`, -/
def bodyPreF (c : Dev nD) (t : Fin cfg0.N) : sProp 𝕄 :=
  iprop((datsF m 0 c).Φ t.castSucc ∗ (datsF m 0 c).owesAt () t.castSucc
    ∗ (∃ d, owns (c : Thread nD τ) (ms0_0 t) fullShare ((datsF m 0 c).before 0 t d))
    ∗ (∃ d, owns (c : Thread nD τ) (ms0_1 t) fullShare ((datsF m 0 c).before 1 t d))
    ∗ (∃ d, owns (c : Thread nD τ) (ms0_2 t) fullShare ((datsF m 0 c).before 2 t d))
    ∗ (∃ X, owns (c : Thread nD τ) (ms0_3 t) fullShare X))

/-- and what it returns. -/
def bodyPostF (c : Dev nD) (t : Fin cfg0.N) : sProp 𝕄 :=
  iprop((datsF m 0 c).Φ t.succ ∗ (datsF m 0 c).owesAt () t.succ
    ∗ owns (c : Thread nD τ) (ms0_0 t) fullShare ((datsF m 0 c).after 0 t)
    ∗ (∃ d, owns (c : Thread nD τ) (ms0_1 t) fullShare ((cfg0.win 1).fill (cfg0.grid.coords t) d ((cfg0.win 1).cut (cfg0.grid.coords t) ((datsF m 0 c).after 1 t))))
    ∗ owns (c : Thread nD τ) (ms0_2 t) fullShare ((datsF m 0 c).after 2 t)
    ∗ (∃ X, owns (c : Thread nD τ) (ms0_3 t) fullShare X))

set_option maxHeartbeats 4000000 in
/-- The body at any point: the inputs' buffers hold their blocks, the scratch arrays and the output's buffer hold
    something; the point's number modulo 40 says which case runs; afterwards the inputs' buffers are as they were
    and the stored buffers hold something again. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, afterF_0, afterF_1, afterF_2]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA0_eq]
  have hcut : ∀ d, (cfg0.win 1).fill (cfg0.grid.coords t) d ((cfg0.win 1).cut (cfg0.grid.coords t) ((cfg0.win 1).fill (cfg0.grid.coords t) (fun _ => Scalar.ofBits .f32 0#32) (iblk m c 1 t)))
      = (cfg0.win 1).fill (cfg0.grid.coords t) d (iblk m c 1 t) := fun d => by rw [(cfg0.win 1).cut_fill]
  by_cases h0 : t.val % 40 = 0
  · have hc0 : cond0_0 (grid0.coords t) := (hcond0_0 t).mpr h0
    have hc1 : ¬cond0_1 (grid0.coords t) := fun h => by have := (hcond0_1 t).mp h; omega
    iintro ⟨⟨⟨HS6, HS7, HS8, HS9⟩, Hg⟩, Ho, ⟨%d0, H0⟩, ⟨%d1, H1⟩, ⟨%d2, H2⟩, ⟨%X3, H3⟩⟩
    iapply ((kernelRun0_A c (grid0.coords t) _ _ _ _ _ _ _ _ _ _ _ _ _ _ _ _ hc0 hc1 (iblk m c 0 t) ((cfg0.win 1).fill (cfg0.grid.coords t) d1 (iblk m c 1 t)) (iblk m c 2 t)).2.2.2.2 X3 Set.univ _)
    isplitl [H0]; · iexact H0
    isplitl [H1]; · iexact H1
    isplitl [H2]; · iexact H2
    isplitl [H3]; · iexact H3
    isplitl [HS6]; · iexact HS6
    isplitl [HS7]; · iexact HS7
    isplitl [HS8]; · iexact HS8
    isplitl [HS9]; · iexact HS9
    iintro ⟨H0, H1, H2, H3, ⟨%e6, HS6⟩, ⟨%e7, HS7⟩, ⟨%e8, HS8⟩, ⟨%e9, HS9⟩⟩
    isplitl [HS6 HS7 HS8 HS9 Hg]
    · isplitl [HS6 HS7 HS8 HS9]
      · isplitl [HS6]; · iexists _; iapply (owns_intro (c : Thread nD τ) scM6 fullShare _); iexact HS6
        isplitl [HS7]; · iexists _; iapply (owns_intro (c : Thread nD τ) scM7 fullShare _); iexact HS7
        isplitl [HS8]; · iexists _; iapply (owns_intro (c : Thread nD τ) scM8 fullShare _); iexact HS8
        iexists _; iapply (owns_intro (c : Thread nD τ) scM9 fullShare _); iexact HS9
      iexact Hg
    isplitl [Ho]; · iexact Ho
    isplitl [H0]; · iexact H0
    isplitl [H1]; · iexists d1; rw [hcut]; iexact H1
    isplitl [H2]; · iexact H2
    iexists _; iexact H3
  · by_cases h1 : t.val % 40 = 39
    · have hc0 : ¬cond0_0 (grid0.coords t) := fun h => h0 ((hcond0_0 t).mp h)
      have hc1 : cond0_1 (grid0.coords t) := (hcond0_1 t).mpr h1
      iintro ⟨⟨⟨⟨%xm, HS6⟩, ⟨%xl, HS7⟩, ⟨%xll, HS8⟩, ⟨%xe, HS9⟩⟩, Hg⟩, Ho, ⟨%d0, H0⟩, ⟨%d1, H1⟩, ⟨%d2, H2⟩, H3⟩
      iapply ((kernelRun0_C c (grid0.coords t) _ _ _ _ _ _ _ _ _ _ _ _ _ _ _ _ hc0 hc1 (iblk m c 0 t) ((cfg0.win 1).fill (cfg0.grid.coords t) d1 (iblk m c 1 t)) (iblk m c 2 t) xm xl xll xe).2.2.2.2 Set.univ _)
      isplitl [H0]; · iexact H0
      isplitl [H1]; · iexact H1
      isplitl [H2]; · iexact H2
      isplitl [H3]; · iexact H3
      isplitl [HS6]; · iexact HS6
      isplitl [HS7]; · iexact HS7
      isplitl [HS8]; · iexact HS8
      isplitl [HS9]; · iexact HS9
      iintro ⟨H0, H1, H2, ⟨%e5, H3⟩, ⟨%e6, HS6⟩, ⟨%e7, HS7⟩, ⟨%e8, HS8⟩, HS9⟩
      isplitl [HS6 HS7 HS8 HS9 Hg]
      · isplitl [HS6 HS7 HS8 HS9]
        · isplitl [HS6]; · iexists _; iapply (owns_intro (c : Thread nD τ) scM6 fullShare _); iexact HS6
          isplitl [HS7]; · iexists _; iapply (owns_intro (c : Thread nD τ) scM7 fullShare _); iexact HS7
          isplitl [HS8]; · iexists _; iapply (owns_intro (c : Thread nD τ) scM8 fullShare _); iexact HS8
          iexists _; iexact HS9
        iexact Hg
      isplitl [Ho]; · iexact Ho
      isplitl [H0]; · iexact H0
      isplitl [H1]; · iexists d1; rw [hcut]; iexact H1
      isplitl [H2]; · iexact H2
      iexists _; iapply (owns_intro (c : Thread nD τ) (ms0_3 t) fullShare _); iexact H3
    · have hc0 : ¬cond0_0 (grid0.coords t) := fun h => h0 ((hcond0_0 t).mp h)
      have hc1 : ¬cond0_1 (grid0.coords t) := fun h => h1 ((hcond0_1 t).mp h)
      iintro ⟨⟨⟨⟨%xm, HS6⟩, ⟨%xl, HS7⟩, ⟨%xll, HS8⟩, ⟨%xe, HS9⟩⟩, Hg⟩, Ho, ⟨%d0, H0⟩, ⟨%d1, H1⟩, ⟨%d2, H2⟩, ⟨%X3, H3⟩⟩
      iapply ((kernelRun0_B c (grid0.coords t) _ _ _ _ _ _ _ _ _ _ _ _ _ _ _ _ hc0 hc1 (iblk m c 0 t) ((cfg0.win 1).fill (cfg0.grid.coords t) d1 (iblk m c 1 t)) (iblk m c 2 t) xm xl xll xe).2.2.2 X3 Set.univ _)
      isplitl [H0]; · iexact H0
      isplitl [H1]; · iexact H1
      isplitl [H2]; · iexact H2
      isplitl [H3]; · iexact H3
      isplitl [HS6]; · iexact HS6
      isplitl [HS7]; · iexact HS7
      isplitl [HS8]; · iexact HS8
      isplitl [HS9]; · iexact HS9
      iintro ⟨H0, H1, H2, H3, ⟨%e6, HS6⟩, ⟨%e7, HS7⟩, ⟨%e8, HS8⟩, HS9⟩
      isplitl [HS6 HS7 HS8 HS9 Hg]
      · isplitl [HS6 HS7 HS8 HS9]
        · isplitl [HS6]; · iexists _; iapply (owns_intro (c : Thread nD τ) scM6 fullShare _); iexact HS6
          isplitl [HS7]; · iexists _; iapply (owns_intro (c : Thread nD τ) scM7 fullShare _); iexact HS7
          isplitl [HS8]; · iexists _; iapply (owns_intro (c : Thread nD τ) scM8 fullShare _); iexact HS8
          iexists _; iexact HS9
        iexact Hg
      isplitl [Ho]; · iexact Ho
      isplitl [H0]; · iexact H0
      isplitl [H1]; · iexists d1; rw [hcut]; iexact H1
      isplitl [H2]; · iexact H2
      iexists _; iexact H3

/-- The library's body obligation (the output window forgotten), at every point. -/
theorem body_obligationF (c : Dev nD) : Pipeline.BodyObligationLoose (datsF (F := F) m 0 c) (defs₀ (F := F)) Variants.none () Set.univ fgt3 := fun t => by
  rw [bigSep_W0, bigSep_W0]
  exact sound_bodyF m c t

/-- The host operations after the region write none of the argument arrays: every buffer they write is another. -/
theorem tail_T : ∀ ops ∈ ([hostOps1] : List (List (HloOp τ sig (Elt F)))), ∀ op ∈ ops, ∀ b : Ref sig .tc,
    Proc.devRef .tc b ∈ op.writes → b ∈ (Finset.univ.erase main_arg1 : Finset (Ref sig .tc)) := by
  intro ops hops op hop b hb
  simp only [List.mem_cons, List.mem_nil_iff, or_false] at hops
  rcases hops with rfl
  refine Finset.mem_erase.mpr ⟨?_, Finset.mem_univ _⟩
  rintro rfl
  revert hb
  simp only [hostOps1, List.mem_cons, List.mem_nil_iff, or_false] at hop
  rcases hop with rfl | rfl | rfl | rfl | rfl
  all_goals simp only [StableHlo.nullary_writes, StableHlo.unary_writes, StableHlo.binary_writes, StableHlo.reshape_writes, Finset.mem_singleton] <;> exact StableHlo.devRef_ne_of_ne (by decide)

set_option backward.isDefEq.respectTransparency.types false in
/-- From any memory with zero counters every weakly fair execution of @main terminates; the windows' arrays end at
    contents the proof data allow and every other buffer the tail does not write at what it held at the region's entry. -/
theorem run_mainF : θ_run defs (onTc (τ := τ) (main (F := F))) (s₀ m ρ)
    (Pipeline.RDat.FramePostR cfg0 (fun c => (datsF m 0 c).toRForget fgt3) (Finset.univ.erase main_arg1) (fun c b => V0 m c (Proc.devRef .tc b))) :=
  Pipeline.RDat.θ_run_frame_around_T_track cfgs (0 : Fin 1) launch0 defs₀ Variants.none (fun c => (datsF m 0 c).toRForget fgt3) (Finset.univ.erase main_arg1) m ρ main
    (hbody := fun c => (body_obligationF m c).toRForget) (hshare := fun c w => by unfold Pipeline.RDat.share; split <;> rfl)
    (howed := fun _ _ => rfl) (V₀ := V0 m) (opss := [hostOps1]) (hsub := sfx_sub) (hfresh := sfx_fresh) (hkeep := sfx_keeps) (hT := tail_T)
    (hmain := hmain m Variants.none) (hA := fun c w => A_eqF m c w) (hin := fun _ => .rfl) (hout := fun _ => .rfl)

/-- THE FRAME, at any float instance. -/
theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.arr_in c 0 rfl).trans ((A_eqF m c 0).trans (V_main_arg0 m c)),
      ((h c).2 main_arg1 (Finset.mem_sdiff.mpr ⟨Pipeline.mem_restRefs_of main_arg1 (by decide) (by decide), by simp⟩)).trans (V_main_arg1 m c),
      (h.arr_in c 1 rfl).trans ((A_eqF m c 1).trans (V_main_arg2 m c))⟩) (run_mainF m ρ)

end Cert.KernelIdeal.Body

end
-- ==== Proof.KState.lean ====
/-
  The kernel's carried state and one grid point's effect on it, as pure functions of what the body loads.

  Between grid points the kernel keeps four scratch arrays for its tile of 1024 rows: the running maximum `m`,
  the running sum of exponentials `l`, the running label logit `ll`, and the normalized embeddings `eb`.
  At a point `i = (row tile, class tile)` the body first resets the state when the class tile is 0 (`m := -∞`,
  `l := 0`, `ll := 0`, `eb :=` the normalized embedding block), then folds the class tile in; at class tile 39 it
  also writes `m + log l - ll` to the output block. `step` is that transition and `outv` the written value, over the
  generated payload names.
-/
import proofs.«401782_j48017734369761_2_alg».proof.Proof.Gen.KernelIdeal.Skeleton

noncomputable section

namespace Cert.KernelIdeal.St

open Idealize.ShloMosaic Cert.KernelIdeal Cert.KernelIdeal.Gen

variable {F : FTy → Type} [FloatOps F]

/-- The four carried scratch arrays. -/
structure Scr (F : FTy → Type) where
  m : Vec F S1024x1 .f32
  l : Vec F S1024x1 .f32
  ll : Vec F S1024x1 .f32
  eb : Vec F S1024x512 .bf16

/-- "The class tile is 0", as the body computes it. -/
def cond1 (i : grid0.Coords) : BitVec 1 :=
  Scalar.cmpi .ne (Scalar.extui (Scalar.cmpi .eq (BitVec.ofNat 32 (i 1).val) 0#32)) 0#32

/-- The state after the reset the body makes when the class tile is 0. -/
def reset (i : grid0.Coords) (X0 : Vec F S1024x512 .f32) (s : Scr F) : Scr F :=
  if cond1 i = 1#1 then ⟨k0_pay5, k0_pay6, k0_pay7, k0_pay8 X0⟩ else s

/-- One grid point: reset if the class tile is 0, then fold the class tile in. `X0`, `X1`, `X2` are what the
    embedding, weight and label staging buffers hold. -/
def step (i : grid0.Coords) (X0 : Vec F S1024x512 .f32) (X1 : Vec F S1280x512 .f32) (X2 : Vec F S1024x1 .i32) (s : Scr F) : Scr F :=
  let s0 := reset i X0 s
  let v31 := k0_pay12 i X1 s0.eb X2
  let v35 := k0_pay13 i X1 s0.eb X2 s0.m
  ⟨k0_pay3 v35, k0_pay1 (k0_pay10 i) v31 v35 s0.m s0.l, k0_pay2 (k0_pay11 i X2) v31 s0.ll, s0.eb⟩

/-- What the body writes to the output block at class tile 39, from the state it has just stored. -/
def outv (s : Scr F) : Vec F S1024x1 .f32 := k0_pay4 s.m s.l s.ll

end Cert.KernelIdeal.St

end
-- ==== Proof.KPieces.lean ====
/-
  What the body's stores leave, read back as values.

  In each of the body's three cases the run ends with each stored buffer holding the pieces its stores left. Every
  store is of a whole buffer, so the last piece alone decides what is read back: the running maximum, sum and label
  logit buffers read back as the three running arrays of one step of the state; the cached embeddings are left as
  they were in the middle and last cases and reset in the first; the output block of the last case reads back as
  the value written from the stepped state.
-/
import proofs.«401782_j48017734369761_2_alg».proof.Proof.KBody
import proofs.«401782_j48017734369761_2_alg».proof.Proof.KState
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a whole-buffer rectangle. -/
private theorem hz : (![0, 0] : Fin 2 → Nat) = fun _ => 0 := funext fun a => by fin_cases a <;> rfl

/-! ### The pieces of each stored buffer cover it (each store is of the whole buffer) -/

theorem scoverB6 (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : ¬cond0_0 i) (hc1 : ¬cond0_1 i)
    (x0 : Vec F S1024x512 .f32) (x1 : Vec F S1280x512 .f32) (x2 : Vec F S1024x1 .i32)
    (xm xl xll : Vec F S1024x1 .f32) (xe : Vec F S1024x512 .bf16) (y : S1024x1.Idx) :
    ∃ pc ∈ (kernelRun0_B c i arg2 harg2 arg3 harg3 arg4 harg4 arg5 harg5 arg6 harg6 arg7 harg7 arg8 harg8 arg9 harg9 hc0 hc1 x0 x1 x2 xm xl xll xe).1, y ∈ pc.1.set :=
  View.cover_of_tiledL (kernelRun0_B c i arg2 harg2 arg3 harg3 arg4 harg4 arg5 harg5 arg6 harg6 arg7 harg7 arg8 harg8 arg9 harg9 hc0 hc1 x0 x1 x2 xm xl xll xe).1 S1024x1.size (by sl_kernel_rfl) y
theorem scoverB7 (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : ¬cond0_0 i) (hc1 : ¬cond0_1 i)
    (x0 : Vec F S1024x512 .f32) (x1 : Vec F S1280x512 .f32) (x2 : Vec F S1024x1 .i32)
    (xm xl xll : Vec F S1024x1 .f32) (xe : Vec F S1024x512 .bf16) (y : S1024x1.Idx) :
    ∃ pc ∈ (kernelRun0_B c i arg2 harg2 arg3 harg3 arg4 harg4 arg5 harg5 arg6 harg6 arg7 harg7 arg8 harg8 arg9 harg9 hc0 hc1 x0 x1 x2 xm xl xll xe).2.1, y ∈ pc.1.set :=
  View.cover_of_tiledL (kernelRun0_B c i arg2 harg2 arg3 harg3 arg4 harg4 arg5 harg5 arg6 harg6 arg7 harg7 arg8 harg8 arg9 harg9 hc0 hc1 x0 x1 x2 xm xl xll xe).2.1 S1024x1.size (by sl_kernel_rfl) y
theorem scoverB8 (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : ¬cond0_0 i) (hc1 : ¬cond0_1 i)
    (x0 : Vec F S1024x512 .f32) (x1 : Vec F S1280x512 .f32) (x2 : Vec F S1024x1 .i32)
    (xm xl xll : Vec F S1024x1 .f32) (xe : Vec F S1024x512 .bf16) (y : S1024x1.Idx) :
    ∃ pc ∈ (kernelRun0_B c i arg2 harg2 arg3 harg3 arg4 harg4 arg5 harg5 arg6 harg6 arg7 harg7 arg8 harg8 arg9 harg9 hc0 hc1 x0 x1 x2 xm xl xll xe).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xm xl xll xe).2.2.1 S1024x1.size (by sl_kernel_rfl) y
theorem scoverC5 (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : ¬cond0_0 i) (hc1 : cond0_1 i)
    (x0 : Vec F S1024x512 .f32) (x1 : Vec F S1280x512 .f32) (x2 : Vec F S1024x1 .i32)
    (xm xl xll : Vec F S1024x1 .f32) (xe : Vec F S1024x512 .bf16) (y : S1024x1.Idx) :
    ∃ pc ∈ (kernelRun0_C c i arg2 harg2 arg3 harg3 arg4 harg4 arg5 harg5 arg6 harg6 arg7 harg7 arg8 harg8 arg9 harg9 hc0 hc1 x0 x1 x2 xm xl xll xe).1, y ∈ pc.1.set :=
  View.cover_of_tiledL (kernelRun0_C c i arg2 harg2 arg3 harg3 arg4 harg4 arg5 harg5 arg6 harg6 arg7 harg7 arg8 harg8 arg9 harg9 hc0 hc1 x0 x1 x2 xm xl xll xe).1 S1024x1.size (by sl_kernel_rfl) y
theorem scoverC6 (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : ¬cond0_0 i) (hc1 : cond0_1 i)
    (x0 : Vec F S1024x512 .f32) (x1 : Vec F S1280x512 .f32) (x2 : Vec F S1024x1 .i32)
    (xm xl xll : Vec F S1024x1 .f32) (xe : Vec F S1024x512 .bf16) (y : S1024x1.Idx) :
    ∃ pc ∈ (kernelRun0_C c i arg2 harg2 arg3 harg3 arg4 harg4 arg5 harg5 arg6 harg6 arg7 harg7 arg8 harg8 arg9 harg9 hc0 hc1 x0 x1 x2 xm xl xll xe).2.1, y ∈ pc.1.set :=
  View.cover_of_tiledL (kernelRun0_C c i arg2 harg2 arg3 harg3 arg4 harg4 arg5 harg5 arg6 harg6 arg7 harg7 arg8 harg8 arg9 harg9 hc0 hc1 x0 x1 x2 xm xl xll xe).2.1 S1024x1.size (by sl_kernel_rfl) y
theorem scoverC7 (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : ¬cond0_0 i) (hc1 : cond0_1 i)
    (x0 : Vec F S1024x512 .f32) (x1 : Vec F S1280x512 .f32) (x2 : Vec F S1024x1 .i32)
    (xm xl xll : Vec F S1024x1 .f32) (xe : Vec F S1024x512 .bf16) (y : S1024x1.Idx) :
    ∃ pc ∈ (kernelRun0_C c i arg2 harg2 arg3 harg3 arg4 harg4 arg5 harg5 arg6 harg6 arg7 harg7 arg8 harg8 arg9 harg9 hc0 hc1 x0 x1 x2 xm xl xll xe).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xm xl xll xe).2.2.1 S1024x1.size (by sl_kernel_rfl) y
theorem scoverC8 (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : ¬cond0_0 i) (hc1 : cond0_1 i)
    (x0 : Vec F S1024x512 .f32) (x1 : Vec F S1280x512 .f32) (x2 : Vec F S1024x1 .i32)
    (xm xl xll : Vec F S1024x1 .f32) (xe : Vec F S1024x512 .bf16) (y : S1024x1.Idx) :
    ∃ pc ∈ (kernelRun0_C c i arg2 harg2 arg3 harg3 arg4 harg4 arg5 harg5 arg6 harg6 arg7 harg7 arg8 harg8 arg9 harg9 hc0 hc1 x0 x1 x2 xm xl xll xe).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xm xl xll xe).2.2.2.1 S1024x1.size (by sl_kernel_rfl) y
theorem scoverA6 (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : cond0_0 i) (hc1 : ¬cond0_1 i)
    (x0 : Vec F S1024x512 .f32) (x1 : Vec F S1280x512 .f32) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).1, y ∈ pc.1.set :=
  View.cover_of_tiledL (kernelRun0_A c i arg2 harg2 arg3 harg3 arg4 harg4 arg5 harg5 arg6 harg6 arg7 harg7 arg8 harg8 arg9 harg9 hc0 hc1 x0 x1 x2).1 S1024x1.size (by sl_kernel_rfl) y
theorem scoverA7 (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : cond0_0 i) (hc1 : ¬cond0_1 i)
    (x0 : Vec F S1024x512 .f32) (x1 : Vec F S1280x512 .f32) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.1, y ∈ pc.1.set :=
  View.cover_of_tiledL (kernelRun0_A c i arg2 harg2 arg3 harg3 arg4 harg4 arg5 harg5 arg6 harg6 arg7 harg7 arg8 harg8 arg9 harg9 hc0 hc1 x0 x1 x2).2.1 S1024x1.size (by sl_kernel_rfl) y
theorem scoverA8 (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : cond0_0 i) (hc1 : ¬cond0_1 i)
    (x0 : Vec F S1024x512 .f32) (x1 : Vec F S1280x512 .f32) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.1 S1024x1.size (by sl_kernel_rfl) y
theorem scoverA9 (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : cond0_0 i) (hc1 : ¬cond0_1 i)
    (x0 : Vec F S1024x512 .f32) (x1 : Vec F S1280x512 .f32) (x2 : Vec F S1024x1 .i32) (y : S1024x512.Idx) :
    ∃ pc ∈ (kernelRun0_A c i arg2 harg2 arg3 harg3 arg4 harg4 arg5 harg5 arg6 harg6 arg7 harg7 arg8 harg8 arg9 harg9 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.1 S1024x512.size (by sl_kernel_rfl) y

/-! ### The pieces read back -/

/-- A middle tile: the three running buffers read back as one step of the state; the cached embeddings are kept. -/
theorem piecesB (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : ¬cond0_0 i) (hc1 : ¬cond0_1 i)
    (x0 : Vec F S1024x512 .f32) (x1 : Vec F S1280x512 .f32) (x2 : Vec F S1024x1 .i32)
    (xm xl xll : Vec F S1024x1 .f32) (xe : Vec F S1024x512 .bf16) :
    (∀ f, arg6.view.read (Elt F) (arg6.view.writes (Elt F) f (kernelRun0_B c i arg2 harg2 arg3 harg3 arg4 harg4 arg5 harg5 arg6 harg6 arg7 harg7 arg8 harg8 arg9 harg9 hc0 hc1 x0 x1 x2 xm xl xll xe).1) = (St.step i x0 x1 x2 ⟨xm, xl, xll, xe⟩).m)
  ∧ (∀ f, arg7.view.read (Elt F) (arg7.view.writes (Elt F) f (kernelRun0_B c i arg2 harg2 arg3 harg3 arg4 harg4 arg5 harg5 arg6 harg6 arg7 harg7 arg8 harg8 arg9 harg9 hc0 hc1 x0 x1 x2 xm xl xll xe).2.1) = (St.step i x0 x1 x2 ⟨xm, xl, xll, xe⟩).l)
  ∧ (∀ f, arg8.view.read (Elt F) (arg8.view.writes (Elt F) f (kernelRun0_B c i arg2 harg2 arg3 harg3 arg4 harg4 arg5 harg5 arg6 harg6 arg7 harg7 arg8 harg8 arg9 harg9 hc0 hc1 x0 x1 x2 xm xl xll xe).2.2.1) = (St.step i x0 x1 x2 ⟨xm, xl, xll, xe⟩).ll)
  ∧ (St.step i x0 x1 x2 ⟨xm, xl, xll, xe⟩).eb = xe := by
  have hc : ¬ St.cond1 i = 1#1 := hc0
  refine ⟨fun f => ?_, fun f => ?_, fun f => ?_, ?_⟩
  ·
    rw [View.read_writes_eq_canon _ _ _ (scoverB6 c i arg2 harg2 arg3 harg3 arg4 harg4 arg5 harg5 arg6 harg6 arg7 harg7 arg8 harg8 arg9 harg9 hc0 hc1 x0 x1 x2 xm xl xll xe)]
    unfold kernelRun0_B
    dsimp only
    sl_unfold_words
    try dsimp only
    rw [View.canon_cons_unit_zero (S := S1024x1) hz]
    simp only [View.readAt_eq_ld, harg2.read_unread, harg3.read_unread, harg4.read_unread, harg5.read_unread, harg6.read_unread,
      harg7.read_unread, harg8.read_unread, harg9.read_unread, View.ld_unit_zero (S := S1280x512) hz, View.ld_unit_zero (S := S1024x512) hz,
      View.ld_unit_zero (S := S1024x1) hz, View.readCov_unit_zero (S := S1024x1) _ hz, View.readCov_unit_zero (S := S1024x512) _ hz]
    simp only [St.step, St.reset, St.outv, if_neg hc]
  ·
    rw [View.read_writes_eq_canon _ _ _ (scoverB7 c i arg2 harg2 arg3 harg3 arg4 harg4 arg5 harg5 arg6 harg6 arg7 harg7 arg8 harg8 arg9 harg9 hc0 hc1 x0 x1 x2 xm xl xll xe)]
    unfold kernelRun0_B
    dsimp only
    sl_unfold_words
    try dsimp only
    rw [View.canon_cons_unit_zero (S := S1024x1) hz]
    simp only [View.readAt_eq_ld, harg2.read_unread, harg3.read_unread, harg4.read_unread, harg5.read_unread, harg6.read_unread,
      harg7.read_unread, harg8.read_unread, harg9.read_unread, View.ld_unit_zero (S := S1280x512) hz, View.ld_unit_zero (S := S1024x512) hz,
      View.ld_unit_zero (S := S1024x1) hz, View.readCov_unit_zero (S := S1024x1) _ hz, View.readCov_unit_zero (S := S1024x512) _ hz]
    simp only [St.step, St.reset, St.outv, if_neg hc]
  ·
    rw [View.read_writes_eq_canon _ _ _ (scoverB8 c i arg2 harg2 arg3 harg3 arg4 harg4 arg5 harg5 arg6 harg6 arg7 harg7 arg8 harg8 arg9 harg9 hc0 hc1 x0 x1 x2 xm xl xll xe)]
    unfold kernelRun0_B
    dsimp only
    sl_unfold_words
    try dsimp only
    rw [View.canon_cons_unit_zero (S := S1024x1) hz]
    simp only [View.readAt_eq_ld, harg2.read_unread, harg3.read_unread, harg4.read_unread, harg5.read_unread, harg6.read_unread,
      harg7.read_unread, harg8.read_unread, harg9.read_unread, View.ld_unit_zero (S := S1280x512) hz, View.ld_unit_zero (S := S1024x512) hz,
      View.ld_unit_zero (S := S1024x1) hz, View.readCov_unit_zero (S := S1024x1) _ hz, View.readCov_unit_zero (S := S1024x512) _ hz]
    simp only [St.step, St.reset, St.outv, if_neg hc]
  · simp only [St.step, St.reset, if_neg hc]

/-- The last tile: as a middle tile, and the output block reads back as the value written from the stepped state. -/
theorem piecesC (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : ¬cond0_0 i) (hc1 : cond0_1 i)
    (x0 : Vec F S1024x512 .f32) (x1 : Vec F S1280x512 .f32) (x2 : Vec F S1024x1 .i32)
    (xm xl xll : Vec F S1024x1 .f32) (xe : Vec F S1024x512 .bf16) :
    (∀ f, arg6.view.read (Elt F) (arg6.view.writes (Elt F) f (kernelRun0_C c i arg2 harg2 arg3 harg3 arg4 harg4 arg5 harg5 arg6 harg6 arg7 harg7 arg8 harg8 arg9 harg9 hc0 hc1 x0 x1 x2 xm xl xll xe).2.1) = (St.step i x0 x1 x2 ⟨xm, xl, xll, xe⟩).m)
  ∧ (∀ f, arg7.view.read (Elt F) (arg7.view.writes (Elt F) f (kernelRun0_C c i arg2 harg2 arg3 harg3 arg4 harg4 arg5 harg5 arg6 harg6 arg7 harg7 arg8 harg8 arg9 harg9 hc0 hc1 x0 x1 x2 xm xl xll xe).2.2.1) = (St.step i x0 x1 x2 ⟨xm, xl, xll, xe⟩).l)
  ∧ (∀ f, arg8.view.read (Elt F) (arg8.view.writes (Elt F) f (kernelRun0_C c i arg2 harg2 arg3 harg3 arg4 harg4 arg5 harg5 arg6 harg6 arg7 harg7 arg8 harg8 arg9 harg9 hc0 hc1 x0 x1 x2 xm xl xll xe).2.2.2.1) = (St.step i x0 x1 x2 ⟨xm, xl, xll, xe⟩).ll)
  ∧ (St.step i x0 x1 x2 ⟨xm, xl, xll, xe⟩).eb = xe
  ∧ (∀ f, arg5.view.read (Elt F) (arg5.view.writes (Elt F) f (kernelRun0_C c i arg2 harg2 arg3 harg3 arg4 harg4 arg5 harg5 arg6 harg6 arg7 harg7 arg8 harg8 arg9 harg9 hc0 hc1 x0 x1 x2 xm xl xll xe).1) = St.outv (St.step i x0 x1 x2 ⟨xm, xl, xll, xe⟩)) := by
  have hc : ¬ St.cond1 i = 1#1 := hc0
  refine ⟨fun f => ?_, fun f => ?_, fun f => ?_, ?_, fun f => ?_⟩
  ·
    rw [View.read_writes_eq_canon _ _ _ (scoverC6 c i arg2 harg2 arg3 harg3 arg4 harg4 arg5 harg5 arg6 harg6 arg7 harg7 arg8 harg8 arg9 harg9 hc0 hc1 x0 x1 x2 xm xl xll xe)]
    unfold kernelRun0_C
    dsimp only
    sl_unfold_words
    try dsimp only
    rw [View.canon_cons_unit_zero (S := S1024x1) hz]
    simp only [View.readAt_eq_ld, harg2.read_unread, harg3.read_unread, harg4.read_unread, harg5.read_unread, harg6.read_unread,
      harg7.read_unread, harg8.read_unread, harg9.read_unread, View.ld_unit_zero (S := S1280x512) hz, View.ld_unit_zero (S := S1024x512) hz,
      View.ld_unit_zero (S := S1024x1) hz, View.readCov_unit_zero (S := S1024x1) _ hz, View.readCov_unit_zero (S := S1024x512) _ hz]
    simp only [St.step, St.reset, St.outv, if_neg hc]
  ·
    rw [View.read_writes_eq_canon _ _ _ (scoverC7 c i arg2 harg2 arg3 harg3 arg4 harg4 arg5 harg5 arg6 harg6 arg7 harg7 arg8 harg8 arg9 harg9 hc0 hc1 x0 x1 x2 xm xl xll xe)]
    unfold kernelRun0_C
    dsimp only
    sl_unfold_words
    try dsimp only
    rw [View.canon_cons_unit_zero (S := S1024x1) hz]
    simp only [View.readAt_eq_ld, harg2.read_unread, harg3.read_unread, harg4.read_unread, harg5.read_unread, harg6.read_unread,
      harg7.read_unread, harg8.read_unread, harg9.read_unread, View.ld_unit_zero (S := S1280x512) hz, View.ld_unit_zero (S := S1024x512) hz,
      View.ld_unit_zero (S := S1024x1) hz, View.readCov_unit_zero (S := S1024x1) _ hz, View.readCov_unit_zero (S := S1024x512) _ hz]
    simp only [St.step, St.reset, St.outv, if_neg hc]
  ·
    rw [View.read_writes_eq_canon _ _ _ (scoverC8 c i arg2 harg2 arg3 harg3 arg4 harg4 arg5 harg5 arg6 harg6 arg7 harg7 arg8 harg8 arg9 harg9 hc0 hc1 x0 x1 x2 xm xl xll xe)]
    unfold kernelRun0_C
    dsimp only
    sl_unfold_words
    try dsimp only
    rw [View.canon_cons_unit_zero (S := S1024x1) hz]
    simp only [View.readAt_eq_ld, harg2.read_unread, harg3.read_unread, harg4.read_unread, harg5.read_unread, harg6.read_unread,
      harg7.read_unread, harg8.read_unread, harg9.read_unread, View.ld_unit_zero (S := S1280x512) hz, View.ld_unit_zero (S := S1024x512) hz,
      View.ld_unit_zero (S := S1024x1) hz, View.readCov_unit_zero (S := S1024x1) _ hz, View.readCov_unit_zero (S := S1024x512) _ hz]
    simp only [St.step, St.reset, St.outv, if_neg hc]
  · simp only [St.step, St.reset, if_neg hc]
  ·
    rw [View.read_writes_eq_canon _ _ _ (scoverC5 c i arg2 harg2 arg3 harg3 arg4 harg4 arg5 harg5 arg6 harg6 arg7 harg7 arg8 harg8 arg9 harg9 hc0 hc1 x0 x1 x2 xm xl xll xe)]
    unfold kernelRun0_C
    dsimp only
    sl_unfold_words
    try dsimp only
    rw [View.canon_cons_unit_zero (S := S1024x1) hz]
    simp only [View.readAt_eq_ld, harg2.read_unread, harg3.read_unread, harg4.read_unread, harg5.read_unread, harg6.read_unread,
      harg7.read_unread, harg8.read_unread, harg9.read_unread, View.ld_unit_zero (S := S1280x512) hz, View.ld_unit_zero (S := S1024x512) hz,
      View.ld_unit_zero (S := S1024x1) hz, View.readCov_unit_zero (S := S1024x1) _ hz, View.readCov_unit_zero (S := S1024x512) _ hz]
    simp only [St.step, St.reset, St.outv, if_neg hc]

/-- The first tile: the four scratch buffers read back as one step of the state, whatever the state was before
    (the step resets it first). -/
theorem piecesA (c : Dev nD) (i : grid0.Coords) (arg2 : Memref sig .tc .vmem S1024x512 .f32) (harg2 : arg2.IsWhole) (arg3 : Memref sig .tc .vmem S1280x512 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x512 .bf16) (harg9 : arg9.IsWhole) (hc0 : cond0_0 i) (hc1 : ¬cond0_1 i)
    (x0 : Vec F S1024x512 .f32) (x1 : Vec F S1280x512 .f32) (x2 : Vec F S1024x1 .i32) (s : St.Scr F) :
    (∀ f, arg6.view.read (Elt F) (arg6.view.writes (Elt F) f (kernelRun0_A c i arg2 harg2 arg3 harg3 arg4 harg4 arg5 harg5 arg6 harg6 arg7 harg7 arg8 harg8 arg9 harg9 hc0 hc1 x0 x1 x2).1) = (St.step i x0 x1 x2 s).m)
  ∧ (∀ f, arg7.view.read (Elt F) (arg7.view.writes (Elt F) f (kernelRun0_A c i arg2 harg2 arg3 harg3 arg4 harg4 arg5 harg5 arg6 harg6 arg7 harg7 arg8 harg8 arg9 harg9 hc0 hc1 x0 x1 x2).2.1) = (St.step i x0 x1 x2 s).l)
  ∧ (∀ f, arg8.view.read (Elt F) (arg8.view.writes (Elt F) f (kernelRun0_A c i arg2 harg2 arg3 harg3 arg4 harg4 arg5 harg5 arg6 harg6 arg7 harg7 arg8 harg8 arg9 harg9 hc0 hc1 x0 x1 x2).2.2.1) = (St.step i x0 x1 x2 s).ll)
  ∧ (∀ f, arg9.view.read (Elt F) (arg9.view.writes (Elt F) f (kernelRun0_A c i arg2 harg2 arg3 harg3 arg4 harg4 arg5 harg5 arg6 harg6 arg7 harg7 arg8 harg8 arg9 harg9 hc0 hc1 x0 x1 x2).2.2.2.1) = (St.step i x0 x1 x2 s).eb) := by
  have hc : St.cond1 i = 1#1 := hc0
  refine ⟨fun f => ?_, fun f => ?_, fun f => ?_, fun f => ?_⟩
  ·
    rw [View.read_writes_eq_canon _ _ _ (scoverA6 c i arg2 harg2 arg3 harg3 arg4 harg4 arg5 harg5 arg6 harg6 arg7 harg7 arg8 harg8 arg9 harg9 hc0 hc1 x0 x1 x2)]
    unfold kernelRun0_A
    dsimp only
    sl_unfold_words
    try dsimp only
    rw [View.canon_cons_unit_zero (S := S1024x1) hz]
    simp only [View.readAt_eq_ld, harg2.read_unread, harg3.read_unread, harg4.read_unread, harg5.read_unread, harg6.read_unread,
      harg7.read_unread, harg8.read_unread, harg9.read_unread, View.ld_unit_zero (S := S1280x512) hz, View.ld_unit_zero (S := S1024x512) hz,
      View.ld_unit_zero (S := S1024x1) hz, View.readCov_unit_zero (S := S1024x1) _ hz, View.readCov_unit_zero (S := S1024x512) _ hz]
    simp only [St.step, St.reset, St.outv, if_pos hc]
  ·
    rw [View.read_writes_eq_canon _ _ _ (scoverA7 c i arg2 harg2 arg3 harg3 arg4 harg4 arg5 harg5 arg6 harg6 arg7 harg7 arg8 harg8 arg9 harg9 hc0 hc1 x0 x1 x2)]
    unfold kernelRun0_A
    dsimp only
    sl_unfold_words
    try dsimp only
    rw [View.canon_cons_unit_zero (S := S1024x1) hz]
    simp only [View.readAt_eq_ld, harg2.read_unread, harg3.read_unread, harg4.read_unread, harg5.read_unread, harg6.read_unread,
      harg7.read_unread, harg8.read_unread, harg9.read_unread, View.ld_unit_zero (S := S1280x512) hz, View.ld_unit_zero (S := S1024x512) hz,
      View.ld_unit_zero (S := S1024x1) hz, View.readCov_unit_zero (S := S1024x1) _ hz, View.readCov_unit_zero (S := S1024x512) _ hz]
    simp only [St.step, St.reset, St.outv, if_pos hc]
  ·
    rw [View.read_writes_eq_canon _ _ _ (scoverA8 c i arg2 harg2 arg3 harg3 arg4 harg4 arg5 harg5 arg6 harg6 arg7 harg7 arg8 harg8 arg9 harg9 hc0 hc1 x0 x1 x2)]
    unfold kernelRun0_A
    dsimp only
    sl_unfold_words
    try dsimp only
    rw [View.canon_cons_unit_zero (S := S1024x1) hz]
    simp only [View.readAt_eq_ld, harg2.read_unread, harg3.read_unread, harg4.read_unread, harg5.read_unread, harg6.read_unread,
      harg7.read_unread, harg8.read_unread, harg9.read_unread, View.ld_unit_zero (S := S1280x512) hz, View.ld_unit_zero (S := S1024x512) hz,
      View.ld_unit_zero (S := S1024x1) hz, View.readCov_unit_zero (S := S1024x1) _ hz, View.readCov_unit_zero (S := S1024x512) _ hz]
    simp only [St.step, St.reset, St.outv, if_pos hc]
  ·
    rw [View.read_writes_eq_canon _ _ _ (scoverA9 c i arg2 harg2 arg3 harg3 arg4 harg4 arg5 harg5 arg6 harg6 arg7 harg7 arg8 harg8 arg9 harg9 hc0 hc1 x0 x1 x2)]
    unfold kernelRun0_A
    dsimp only
    sl_unfold_words
    try dsimp only
    rw [View.canon_cons_unit_zero (S := S1024x512) hz]
    simp only [View.readAt_eq_ld, harg2.read_unread, harg3.read_unread, harg4.read_unread, harg5.read_unread, harg6.read_unread,
      harg7.read_unread, harg8.read_unread, harg9.read_unread, View.ld_unit_zero (S := S1280x512) hz, View.ld_unit_zero (S := S1024x512) hz,
      View.ld_unit_zero (S := S1024x1) hz, View.readCov_unit_zero (S := S1024x1) _ hz, View.readCov_unit_zero (S := S1024x512) _ hz]
    simp only [St.step, St.reset, St.outv, if_pos hc]

end Cert.KernelIdeal.Body

end
-- ==== Proof.KBlocks.lean ====
/-
  Block reads: each pipeline window's block at a grid point as rows of the array it is cut from.

  The grid has 2 × 40 points; point `t` is row tile `t / 40` and class tile `t % 40`. The embedding window's block at
  `t` is rows `1024 (t / 40) …` of the embeddings; the label window's block is the same rows of the labels (the label
  column is the label vector reshaped); the weight window's block is rows `1280 (t % 40) …` of the class weights, cut at
  the array's end on the last class tile; the output column is written back at the last class tile of each row tile,
  so the final output at row `b` is what the body left at point `40 (b / 1024) + 39`, row `b % 1024`.
-/
import proofs.«401782_j48017734369761_2_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- A grid point's coordinates: the row tile and the class tile. -/
theorem coords_val (t : Fin cfg0.N) :
    ((grid0.coords t) 0).val = t.val / 40 ∧ ((grid0.coords t) 1).val = t.val % 40 := by
  exact (by decide +kernel : ∀ t : Fin grid0.N,
    ((grid0.coords t) 0).val = t.val / 40 ∧ ((grid0.coords t) 1).val = t.val % 40) t

theorem row0_lt (t : Fin cfg0.N) (r : Fin 1024) : 1024 * (t.val / 40) + r.val < 2048 := by
  have h : t.val < 80 := lt_of_lt_of_eq t.isLt (N_0 : cfg0.N = 80)
  have := r.isLt
  omega

/-- The embedding window's block at `t`: rows `1024 (t / 40) + r` of the embeddings. -/
theorem iblk0_apply (c : Dev nD) (t : Fin cfg0.N) (r : Fin 1024) (d : Fin 512) :
    (Gen.iblk m c 0 t : S1024x512.Idx → Elt F .f32) (ix2 r d)
      = (m ((c.tc : Thread nD τ).loc main_arg0) : S2048x512.Idx → Elt F .f32) (ix2 ⟨1024 * (t.val / 40) + r.val, row0_lt t r⟩ d) := by
  have hi := (by decide +kernel : ∀ t : Fin grid0.N, win0_0.index t 0 = t.val / 40 ∧ win0_0.index t 1 = 0) t
  unfold Gen.iblk
  rw [View.read_apply]
  show Gen.V m c main_arg0 _ = _
  rw [Gen.V_main_arg0]
  refine congrArg (m ((c.tc : Thread nD τ).loc main_arg0) : S2048x512.Idx → Elt F .f32) (funext fun a => Fin.ext ?_)
  match a with
  | ⟨0, _⟩ => show win0_0.index t 0 * 1024 + 1 * r.val = 1024 * (t.val / 40) + r.val; rw [hi.1]; omega
  | ⟨1, _⟩ => show win0_0.index t 1 * 512 + 1 * d.val = d.val; rw [hi.2]; omega

/-- The label window's block at `t`: entries `1024 (t / 40) + r` of the label vector. -/
theorem iblk2_apply (c : Dev nD) (t : Fin cfg0.N) (r : Fin 1024) :
    (Gen.iblk m c 2 t : S1024x1.Idx → BitVec 32) (ix2 r (0 : Fin 1))
      = (m ((c.tc : Thread nD τ).loc main_arg1) : S2048.Idx → BitVec 32) (ix1 ⟨1024 * (t.val / 40) + r.val, row0_lt t r⟩) := by
  have hi := (by decide +kernel : ∀ t : Fin grid0.N, win0_2.index t 0 = t.val / 40 ∧ win0_2.index t 1 = 0) t
  -- the label column as the region finds it: the label vector reshaped
  have e : (Gen.V m c main_v0 : S2048x1.Idx → BitVec 32)
      = shapeCast S2048x1 (m ((c.tc : Thread nD τ).loc main_arg1) : S2048.Idx → BitVec 32) shapeCasts_S2048_S2048x1 := by
    show StableHlo.after hostOps0 (fun b => m (c, b)) (Proc.devRef .tc main_v0) = _
    after_results
    rfl
  unfold Gen.iblk
  rw [View.read_apply]
  show (Gen.V m c main_v0 : S2048x1.Idx → BitVec 32) (((cfg0.win 2).blk t).view.emb (ix2 r (0 : Fin 1))) = _
  rw [e]
  refine shapeCast_apply (s := S2048) (t := S2048x1) _ _ _ _ ?_
  show (S2048.rowMajor (ix1 ⟨1024 * (t.val / 40) + r.val, row0_lt t r⟩)).val
    = (S2048x1.rowMajor (((cfg0.win 2).blk t).view.emb (ix2 r (0 : Fin 1)))).val
  rw [Shape.rowMajor_val_two, Shape.rowMajor_val_one]
  show 1024 * (t.val / 40) + r.val = (win0_2.index t 0 * 1024 + 1 * r.val) * 1 + (win0_2.index t 1 * 1 + 1 * 0)
  rw [hi.1, hi.2]; omega

/-- The weight window's buffer after the fetch at `t`, on the rows inside the array: rows `1280 (t % 40) + k` of the
    class weights, whatever filled the rest. -/
theorem iblk1_fill_apply (c : Dev nD) (t : Fin cfg0.N) (d : S1280x512.Idx → Elt F .f32) (k : Fin 1280) (dd : Fin 512)
    (h : 1280 * (t.val % 40) + k.val < 50000) :
    (win0_1.fill (grid0.coords t) d (Gen.iblk m c 1 t) : S1280x512.Idx → Elt F .f32) (ix2 k dd)
      = (m ((c.tc : Thread nD τ).loc main_arg2) : S50000x512.Idx → Elt F .f32) (ix2 ⟨1280 * (t.val % 40) + k.val, h⟩ dd) := by
  have hx := (by decide +kernel : ∀ t : Fin grid0.N,
    win0_1.xsize (grid0.coords t) 0 = (if t.val % 40 = 39 then 80 else 1280) ∧ win0_1.xsize (grid0.coords t) 1 = 512
      ∧ win0_1.index t 0 = t.val % 40 ∧ win0_1.index t 1 = 0) t
  have hmv : win0_1.moved (grid0.coords t) (ix2 k dd) = true := (win0_1.moved_iff _ _).mpr fun a => by
    match a with
    | ⟨0, _⟩ =>
      show k.val < win0_1.xsize (grid0.coords t) 0
      rw [hx.1]; have := k.isLt; split <;> omega
    | ⟨1, _⟩ =>
      show dd.val < win0_1.xsize (grid0.coords t) 1
      rw [hx.2.1]; exact dd.isLt
  unfold Pipeline.Window.fill
  rw [dif_pos hmv]
  unfold Gen.iblk
  rw [View.read_apply]
  show Gen.V m c main_arg2 _ = _
  rw [Gen.V_main_arg2]
  refine congrArg (m ((c.tc : Thread nD τ).loc main_arg2) : S50000x512.Idx → Elt F .f32) (funext fun a => Fin.ext ?_)
  match a with
  | ⟨0, _⟩ => show win0_1.index t 0 * 1280 + 1 * k.val = 1280 * (t.val % 40) + k.val; rw [hx.2.2.1]; omega
  | ⟨1, _⟩ => show win0_1.index t 1 * 512 + 1 * dd.val = dd.val; rw [hx.2.2.2]; omega

theorem flushPt_lt (b : Fin 2048) : 40 * (b.val / 1024) + 39 < cfg0.N := by
  have := b.isLt
  rw [show cfg0.N = 80 from N_0]
  omega

/-- The output column after the run: row `b` holds what the body left at the last class tile of `b`'s row tile. -/
theorem out_final {c : Dev nD} (dat : Dat τ (Elt F) Unit ℕ (UR sig nD τ) ℕ cfg0 c) (b : Fin 2048) :
    (dat.arrAt 3 cfg0.N : S2048x1.Idx → Elt F .f32) (ix2 b (0 : Fin 1))
      = (dat.after 3 ⟨40 * (b.val / 1024) + 39, flushPt_lt b⟩ : S1024x1.Idx → Elt F .f32) (ix2 ⟨b.val % 1024, Nat.mod_lt _ (by decide)⟩ (0 : Fin 1)) := by
  -- the whole column in closed form: row `i` from the last class tile of its row tile
  let G : S2048x1.Idx → Elt F .f32 := fun i =>
    dat.after 3 ⟨40 * ((i 0).val / 1024) + 39, flushPt_lt (i 0)⟩ (ix2 ⟨(i 0).val % 1024, Nat.mod_lt _ (by decide)⟩ (i 1))
  have hidx := (by decide +kernel : ∀ t : Fin grid0.N, win0_3.index t 0 = t.val / 40 ∧ win0_3.index t 1 = 0)
  have hfin : dat.arrAt 3 cfg0.N = G := by
    refine dat.arrAt_eq_of_cover 3 G (fun t hf => ?_) (fun i => ?_)
    · -- each write-back writes its block of `G`
      have h39 : t.val % 40 = 39 := (flush0_3 t).mp hf
      have hi := hidx t
      funext x
      show dat.after 3 t ((cfg0.win 3).xinj (grid0.coords t) x) = G (((cfg0.win 3).blk t).view.emb x)
      have h0 : ((((cfg0.win 3).blk t).view.emb x) 0).val = 1024 * (t.val / 40) + (x 0).val := by
        show win0_3.index t 0 * 1024 + 1 * (x 0).val = _; rw [hi.1]; omega
      have h1 : ((((cfg0.win 3).blk t).view.emb x) 1).val = (x 1).val := by
        show win0_3.index t 1 * 1 + 1 * (x 1).val = _; rw [hi.2]; omega
      have hx0 : (x 0).val < 1024 := (x 0).isLt
      refine (congrArg₂ (dat.after 3) (Fin.ext ?_) (funext fun a => Fin.ext ?_)).symm
      · show 40 * (((((cfg0.win 3).blk t).view.emb x) 0).val / 1024) + 39 = t.val
        rw [h0]; omega
      · match a with
        | ⟨0, _⟩ => show ((((cfg0.win 3).blk t).view.emb x) 0).val % 1024 = (x 0).val; rw [h0]; omega
        | ⟨1, _⟩ => exact h1
    · -- every row lies in the block written at the last class tile of its row tile
      have hi0 : (i 0).val < 2048 := (i 0).isLt
      have hi1 : (i 1).val < 1 := (i 1).isLt
      refine ⟨⟨40 * ((i 0).val / 1024) + 39, flushPt_lt (i 0)⟩, (flush0_3 _).mpr (by show (40 * ((i 0).val / 1024) + 39) % 40 = 39; omega), ?_⟩
      have hi := hidx ⟨40 * ((i 0).val / 1024) + 39, flushPt_lt (i 0)⟩
      show i ∈ ((View.whole main_v1).slice (win0_3.rect ⟨40 * ((i 0).val / 1024) + 39, flushPt_lt (i 0)⟩)).set
      rw [View.set_slice_whole, Rect.mem_set_unit]
      intro a
      match a with
      | ⟨0, _⟩ =>
        show win0_3.index _ 0 * 1024 ≤ (i 0).val ∧ (i 0).val < win0_3.index _ 0 * 1024 + 1024
        rw [hi.1]; show (40 * ((i 0).val / 1024) + 39) / 40 * 1024 ≤ _ ∧ _ < (40 * ((i 0).val / 1024) + 39) / 40 * 1024 + 1024; omega
      | ⟨1, _⟩ =>
        show win0_3.index _ 1 * 1 ≤ (i 1).val ∧ (i 1).val < win0_3.index _ 1 * 1 + 1
        rw [hi.2]; omega
  rw [hfin]

end Cert.KernelIdeal.Blocks

end
-- ==== Proof.Spec.lean ====
/-
  The loss as one real-valued function of the inputs.

  For embeddings `E` (2048 rows of 512 reals), class weights `W` (50000 rows of 512 reals) and labels `lab`:
  each row is divided by `max (‖row‖₂) ε`; `cosv b c` is the inner product of normalized embedding `b` with
  normalized weight `c`; the logit subtracts the margin `μ` at the label's column and multiplies by the scale;
  the per-row loss is the log of the sum of the exponentials of the row's logits minus the logit at the label
  (written as the sum of the logits over the columns equal to the label: exactly one column when the label is in
  range); the result is the mean over the 2048 rows.

  The four float literals the programs carry (ε, μ, the scale and the large negative fill) are named here as the
  reals their words denote.
-/
import Idealize.ShloMosaic.PureOps.Ideal

noncomputable section

open scoped BigOperators

namespace Cert.Spec

open Idealize.ShloMosaic

/-- ε, the lower bound of a row's norm: the real the word `0x2B8CBCCC` denotes. -/
def epsR : ℝ := (Ideal.ofBits .f32 0x2B8CBCCC#32).toReal
/-- μ, the margin: the real the word `0x3E99999A` denotes. -/
def muR : ℝ := (Ideal.ofBits .f32 0x3E99999A#32).toReal
/-- The scale (30): the real the word `0x41F00000` denotes. -/
def scR : ℝ := (Ideal.ofBits .f32 0x41F00000#32).toReal
/-- The large negative fill of the columns past the last class: the real the word `0xFF333332` denotes. -/
def negR : ℝ := (Ideal.ofBits .f32 0xFF333332#32).toReal

/-- A row's Euclidean norm, bounded below by ε. -/
def nrm {n : Nat} (v : Fin n → ℝ) : ℝ := max (Real.sqrt (∑ d, v d * v d)) epsR

variable (E : Fin 2048 → Fin 512 → ℝ) (W : Fin 50000 → Fin 512 → ℝ) (lab : Fin 2048 → Nat)

/-- Normalized embedding row `b`. -/
def en (b : Fin 2048) (d : Fin 512) : ℝ := E b d / nrm (E b)
/-- Normalized weight row `c`. -/
def wn (c : Fin 50000) (d : Fin 512) : ℝ := W c d / nrm (W c)
/-- The cosine of embedding `b` and class `c`. -/
def cosv (b : Fin 2048) (c : Fin 50000) : ℝ := ∑ d, en E b d * wn W c d
/-- The logit: the margin subtracted at the label's column, then the scale. -/
def logit (b : Fin 2048) (c : Fin 50000) : ℝ := (if c.val = lab b then cosv E W b c - muR else cosv E W b c) * scR
/-- Row `b`'s loss: log-sum-exp of its logits minus the logit at its label. -/
def nll (b : Fin 2048) : ℝ :=
  Real.log (∑ c, Real.exp (logit E W lab b c)) - ∑ c : Fin 50000, (if c.val = lab b then logit E W lab b c else 0)
/-- The mean of the rows' losses. -/
def loss : ℝ := (∑ b, nll E W lab b) / 2048

end Cert.Spec

end
-- ==== Proof.SpecConsts.lean ====
/-
  The float literals as the reals their words denote, and two laws of the log-sum-exp over the reals.

  Each of the words ε (`0x2B8CBCCC`), μ (`0x3E99999A`), the scale (`0x41F00000`) and the fill (`0xFF333332`) denotes a
  finite real, ε a positive one; the reference's `0xBE99999A` is `−μ` (the same word with the sign bit set), the word
  `0x45000000` is 2048 and the zero word is 0.
  `lse_shift`: `M + log ∑ exp (x − M) = log ∑ exp x` for every real `M` (the shift cancels).
  `online_step`: rescaling a partial sum from shift `m` to shift `m'` and adding the next block's terms is the
  partial sum over the union at shift `m'`.
-/
import proofs.«401782_j48017734369761_2_alg».proof.Proof.Spec

noncomputable section

open scoped BigOperators

namespace Cert.Spec

open Idealize.ShloMosaic

/-- An extended real that is the image of a real is the image of its own real part. -/
private theorem coe_toReal_of {x : EReal} {r : ℝ} (h : x = (r : EReal)) : x = ((x.toReal : ℝ) : EReal) := by
  rw [h, EReal.toReal_coe]

/-- ε's word: sign 0, exponent 87, fraction 834764, that is `9223372 · 2⁻⁶³`. -/
private theorem eps_val : Ideal.ofBits .f32 0x2B8CBCCC#32 = ((9223372 * (2 ^ 63)⁻¹ : ℝ) : EReal) := by
  simp [Ideal.ofBits, Ideal.ieee, -EReal.coe_mul]

/-- μ's word: `10066330 · 2⁻²⁵`. -/
private theorem mu_val : Ideal.ofBits .f32 0x3E99999A#32 = ((10066330 * (2 ^ 25)⁻¹ : ℝ) : EReal) := by
  simp [Ideal.ofBits, Ideal.ieee, -EReal.coe_mul]

/-- The same word with the sign bit set: `−(10066330 · 2⁻²⁵)`. -/
private theorem neg_mu_val : Ideal.ofBits .f32 0xBE99999A#32 = ((-(10066330 * (2 ^ 25)⁻¹) : ℝ) : EReal) := by
  simp [Ideal.ofBits, Ideal.ieee, -EReal.coe_mul]

/-- The scale's word: `15728640 · 2⁻¹⁹`. -/
private theorem sc_val : Ideal.ofBits .f32 0x41F00000#32 = ((15728640 * (2 ^ 19)⁻¹ : ℝ) : EReal) := by
  simp [Ideal.ofBits, Ideal.ieee, -EReal.coe_mul]

/-- The fill's word: `−(11744050 · 2¹⁰⁴)`. -/
private theorem neg_val : Ideal.ofBits .f32 0xFF333332#32 = ((-(11744050 * 2 ^ 104) : ℝ) : EReal) := by
  simp [Ideal.ofBits, Ideal.ieee, -EReal.coe_mul]

theorem eps_coe : Ideal.ofBits .f32 0x2B8CBCCC#32 = ((epsR : ℝ) : EReal) := coe_toReal_of eps_val

theorem eps_pos : 0 < epsR := by
  have h : epsR = 9223372 * (2 ^ 63)⁻¹ := by
    show (Ideal.ofBits .f32 0x2B8CBCCC#32).toReal = _
    rw [eps_val, EReal.toReal_coe]
  rw [h]; positivity

theorem mu_coe : Ideal.ofBits .f32 0x3E99999A#32 = ((muR : ℝ) : EReal) := coe_toReal_of mu_val

theorem neg_mu_coe : Ideal.ofBits .f32 0xBE99999A#32 = ((-muR : ℝ) : EReal) := by
  have h : muR = 10066330 * (2 ^ 25)⁻¹ := by
    show (Ideal.ofBits .f32 0x3E99999A#32).toReal = _
    rw [mu_val, EReal.toReal_coe]
  rw [h, neg_mu_val]

theorem sc_coe : Ideal.ofBits .f32 0x41F00000#32 = ((scR : ℝ) : EReal) := coe_toReal_of sc_val

theorem neg_coe : Ideal.ofBits .f32 0xFF333332#32 = ((negR : ℝ) : EReal) := coe_toReal_of neg_val

theorem c2048_coe : Ideal.ofBits .f32 0x45000000#32 = ((2048 : ℝ) : EReal) := by
  have h : Ideal.ofBits .f32 0x45000000#32 = ((8388608 * (2 ^ 12)⁻¹ : ℝ) : EReal) := by
    simp [Ideal.ofBits, Ideal.ieee, -EReal.coe_mul]
  rw [h]; congr 1; norm_num

theorem zero_coe : Ideal.ofBits .f32 0x00000000#32 = ((0 : ℝ) : EReal) := by
  simp [Ideal.ofBits, Ideal.ieee]

theorem ninf_bot : Ideal.ofBits .f32 0xFF800000#32 = (⊥ : EReal) := by
  simp [Ideal.ofBits, Ideal.ieee]

theorem nrm_pos {n : Nat} (v : Fin n → ℝ) : 0 < nrm v :=
  lt_of_lt_of_le eps_pos (le_max_right _ _)

theorem lse_shift {ι : Type} [Fintype ι] [Nonempty ι] (x : ι → ℝ) (M : ℝ) :
    M + Real.log (∑ c, Real.exp (x c - M)) = Real.log (∑ c, Real.exp (x c)) := by
  have hpos : 0 < ∑ c, Real.exp (x c - M) :=
    Finset.sum_pos (fun c _ => Real.exp_pos _) Finset.univ_nonempty
  have hsum : ∑ c, Real.exp (x c) = Real.exp M * ∑ c, Real.exp (x c - M) := by
    rw [Finset.mul_sum]
    refine Finset.sum_congr rfl fun c _ => ?_
    rw [← Real.exp_add]; congr 1; ring
  rw [hsum, Real.log_mul (Real.exp_pos M).ne' hpos.ne', Real.log_exp]

theorem online_step {ι : Type} [DecidableEq ι] (s t : Finset ι) (hd : Disjoint s t) (x : ι → ℝ) (m m' : ℝ) :
    Real.exp (m - m') * (∑ c ∈ s, Real.exp (x c - m)) + ∑ c ∈ t, Real.exp (x c - m')
      = ∑ c ∈ s ∪ t, Real.exp (x c - m') := by
  rw [Finset.sum_union hd, Finset.mul_sum]
  congr 1
  refine Finset.sum_congr rfl fun c _ => ?_
  rw [← Real.exp_add]; congr 1; ring

/-- A finite sum of reals, taken in the extended reals, is the real sum. -/
theorem coe_sum {ι : Type} (s : Finset ι) (f : ι → ℝ) : (∑ c ∈ s, ((f c : ℝ) : EReal)) = ((∑ c ∈ s, f c : ℝ) : EReal) := by
  classical
  induction s using Finset.induction_on with
  | empty => simp
  | insert a s ha ih => rw [Finset.sum_insert ha, Finset.sum_insert ha, ih, EReal.coe_add]

end Cert.Spec

end
-- ==== Proof.KPay.lean ====
/-
  The kernel's elementwise payloads read at an index, at the extended reals.

  `pay8_apply`: the embedding block divided row by row by `max (‖row‖₂) ε`. `pay12_apply`: the tile of logits —
  entry `(r, k)` is, for a class `1280·j + k` below 50000, the inner product of normalized embedding row `r` with
  normalized weight row `k` of the tile, minus the margin where the class is the row's label, times the scale; for
  a class past the last one it is the large negative fill, WHATEVER the weight buffer holds in that row (the
  matrix product's entry `(r, k)` reads only row `k` of the weights, and the select discards it).
  `pay10_apply` / `pay11_apply`: the two masks (class in range; class equals the label).
-/
import proofs.«401782_j48017734369761_2_alg».proof.Proof.KState
import proofs.«401782_j48017734369761_2_alg».proof.Proof.Spec
import proofs.«401782_j48017734369761_2_alg».proof.Proof.SpecConsts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Math

open Idealize.ShloMosaic Idealize.ShloMosaic.ValueIdx Cert.KernelIdeal Cert.KernelIdeal.Gen Cert.KernelIdeal.St Cert.Spec

/-! ## The keepdims column forms of the layout operations -/

section Layout
variable {α : Type}

/-- An `[a]` array cast to `[a, 1]` reads, at `(i, u)`, the operand at `i`, whatever the unit coordinate `u`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row divided by its norm -/

/-- The lane sum of an `[a, b]` array at row `r` is the sum over the row's entries. -/
private theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ d : Fin b, src (ix2 r d) := by
  refine (Ideal.multiReduction_add_single src 0x00000000#32 h hφ hacc (ix1 r)).trans ?_
  refine Finset.sum_congr rfl fun d _ => congrArg src (funext fun c => Fin.ext ?_)
  match c with
  | ⟨0, _⟩ => rfl
  | ⟨1, _⟩ => rfl

/-- The column of row norms, bounded below by ε: where row `r` of `X` holds the reals `v`, entry `(r, u)` of
    `max (√(Σ X²)) ε` is `nrm v`. -/
private theorem rowNorm_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hs : (⟨1, ![a]⟩ : Shape).ShapeCasts ⟨2, ![a, 1]⟩) (r : Fin a) (v : Fin b → ℝ)
    (hX : ∀ d : Fin b, X (ix2 r d) = ((v d : ℝ) : EReal)) (u : Fin 1) :
    maximumf (sqrt (shapeCast ⟨2, ![a, 1]⟩ (multiReduction .add [1] ⟨1, ![a]⟩ (mulf X X) 0x00000000#32 h hφ hacc) hs))
        (broadcast ⟨2, ![a, 1]⟩ (Scalar.ofBits (F := Ideal) .f32 0x2B8CBCCC#32)) (ix2 r u)
      = ((nrm v : ℝ) : EReal) := by
  have hsum : (∑ d : Fin b, mulf X X (ix2 r d)) = ((∑ d : Fin b, v d * v d : ℝ) : EReal) := by
    rw [← coe_sum]
    refine Finset.sum_congr rfl fun d _ => ?_
    rw [mulf_apply, hX d, EReal.coe_mul]
  show max (Ideal.sqrt (shapeCast ⟨2, ![a, 1]⟩ (multiReduction .add [1] ⟨1, ![a]⟩ (mulf X X) 0x00000000#32 h hφ hacc) hs (ix2 r u)))
      (Ideal.ofBits .f32 0x2B8CBCCC#32) = _
  rw [shapeCast_a_a1_apply, rowSum_apply, hsum, eps_coe, Ideal.sqrt_coe,
    if_neg (not_lt.mpr (Finset.sum_nonneg fun d _ => mul_self_nonneg (v d)))]
  exact (EReal.coe_strictMono.monotone.map_max).symm

/-- A block divided row by row by that column: entry `(r, d)` is `v d / nrm v`. -/
private theorem rowNormalize_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hs : (⟨1, ![a]⟩ : Shape).ShapeCasts ⟨2, ![a, 1]⟩) (hb : (⟨2, ![a, 1]⟩ : Shape).Broadcasts ⟨2, ![a, b]⟩)
    (r : Fin a) (v : Fin b → ℝ) (hX : ∀ d : Fin b, X (ix2 r d) = ((v d : ℝ) : EReal)) (d : Fin b) :
    divf X (broadcastTo ⟨2, ![a, b]⟩
        (maximumf (sqrt (shapeCast ⟨2, ![a, 1]⟩ (multiReduction .add [1] ⟨1, ![a]⟩ (mulf X X) 0x00000000#32 h hφ hacc) hs))
          (broadcast ⟨2, ![a, 1]⟩ (Scalar.ofBits (F := Ideal) .f32 0x2B8CBCCC#32))) hb) (ix2 r d)
      = ((v d / nrm v : ℝ) : EReal) := by
  rw [divf_apply, broadcastTo_a1_ab_apply, rowNorm_apply X h hφ hacc hs r v hX, hX d,
    Ideal.div_coe (ne_of_gt (nrm_pos v)), ← EReal.coe_mul]
  congr 1
  rw [mul_one_div]

/-! ## The class ids of a tile and the two masks -/

/-- The signed order of two small words is the order of the numbers. -/
private theorem slt_ofNat (n m : ℕ) (hn : n < 2 ^ 31) (hm : m < 2 ^ 31) :
    (BitVec.ofNat 32 n).slt (BitVec.ofNat 32 m) = decide (n < m) := by
  have e : ∀ x : ℕ, x < 2 ^ 31 → (BitVec.ofNat 32 x).toInt = (x : Int) := fun x hx => by
    have h1 : (BitVec.ofNat 32 x).toNat = x := by rw [BitVec.toNat_ofNat]; exact Nat.mod_eq_of_lt (by omega)
    rw [BitVec.toInt_eq_toNat_of_lt (by rw [h1]; omega), h1]
  rw [BitVec.slt_eq_decide, e n hn, e m hm]
  exact decide_eq_decide.mpr Int.ofNat_lt

/-- A small number's word is a given word exactly when the number is the word's value. -/
private theorem ofNat_eq_iff (n : ℕ) (hn : n < 2 ^ 32) (x : BitVec 32) : BitVec.ofNat 32 n = x ↔ n = x.toNat := by
  constructor
  · intro h
    rw [← h, BitVec.toNat_ofNat]
    exact (Nat.mod_eq_of_lt hn).symm
  · intro h
    rw [h, BitVec.ofNat_toNat, BitVec.setWidth_eq]

/-- The class id at `(r, k)` of class tile `j` is the word of `1280·j + k`. -/
private theorem pay9_apply (i : grid0.Coords) (j : Nat) (hi1 : (i 1).val = j) (r : Fin 1024) (k : Fin 1280) :
    k0_pay9 i (ix2 r k) = BitVec.ofNat 32 (1280 * j + k.val) := by
  show IntOp.addi (Scalar.muli (BitVec.ofNat 32 (i 1).val) 1280#32)
      (iota .tc S1024x1280 32 [1] iota_S1024x1280_d1_w32 (ix2 r k)) = _
  rw [iota_single_apply, hi1]
  show BitVec.ofNat 32 j * BitVec.ofNat 32 1280 + BitVec.ofNat 32 k.val = _
  rw [BitVec.ofNat_add, BitVec.ofNat_mul, BitVec.mul_comm]

/-! ## The matrix product of the tile -/

private theorem lhs_mm_0 (i : S1024x1280.Idx) (q : dot_S1024x512_S1280x512_S1024x1280_1_1_0_0_n_n.contr.Idx) :
    (dot_S1024x512_S1280x512_S1024x1280_1_1_0_0_n_n.lhsIdx i q 0).val = (i 0).val := by
  unfold DotDims.lhsIdx
  rw [dif_neg (show ¬(0 : Fin S1024x512.rank) ∈ dot_S1024x512_S1280x512_S1024x1280_1_1_0_0_n_n.lhsBatch by decide), dif_pos (show (0 : Fin S1024x512.rank) ∈ dot_S1024x512_S1280x512_S1024x1280_1_1_0_0_n_n.lhsNonContracting by decide)]
  rfl
private theorem lhs_mm_1 (i : S1024x1280.Idx) (q : dot_S1024x512_S1280x512_S1024x1280_1_1_0_0_n_n.contr.Idx) :
    (dot_S1024x512_S1280x512_S1024x1280_1_1_0_0_n_n.lhsIdx i q 1).val = (q ⟨0, by decide⟩).val :=
  dot_S1024x512_S1280x512_S1024x1280_1_1_0_0_n_n.lhsIdx_val_of_single rfl i q
private theorem rhs_mm_0 (i : S1024x1280.Idx) (q : dot_S1024x512_S1280x512_S1024x1280_1_1_0_0_n_n.contr.Idx) :
    (dot_S1024x512_S1280x512_S1024x1280_1_1_0_0_n_n.rhsIdx i q 0).val = (i 1).val := by
  unfold DotDims.rhsIdx
  rw [dif_neg (show ¬(0 : Fin S1280x512.rank) ∈ dot_S1024x512_S1280x512_S1024x1280_1_1_0_0_n_n.rhsBatch by decide), dif_pos (show (0 : Fin S1280x512.rank) ∈ dot_S1024x512_S1280x512_S1024x1280_1_1_0_0_n_n.rhsNonContracting by decide)]
  rfl
private theorem rhs_mm_1 (i : S1024x1280.Idx) (q : dot_S1024x512_S1280x512_S1024x1280_1_1_0_0_n_n.contr.Idx) :
    (dot_S1024x512_S1280x512_S1024x1280_1_1_0_0_n_n.rhsIdx i q 1).val = (q ⟨0, by decide⟩).val :=
  dot_S1024x512_S1280x512_S1024x1280_1_1_0_0_n_n.rhsIdx_val_of_single rfl i q

/-- The tile's matrix product into the zero accumulator: entry `(r, k)` is the inner product of row `r` of the left
    operand with row `k` of the right one (both contract their second axis). -/
private theorem mm_apply (A : FVec Ideal S1024x512 .bf16) (B : FVec Ideal S1280x512 .bf16) (r : Fin 1024) (k : Fin 1280) :
    matmul dot_S1024x512_S1280x512_S1024x1280_1_1_0_0_n_n none A B (constant (F := Ideal) S1024x1280 .f32 0x00000000#32) (ix2 r k)
      = ∑ d : Fin 512, A (ix2 r d) * B (ix2 k d) := by
  simp only [matmul]
  rw [Ideal.matmul_constant_zero_apply, ← Equiv.sum_comp (ValueIdx.contrEquiv1 dot_S1024x512_S1280x512_S1024x1280_1_1_0_0_n_n 512 rfl rfl).symm]
  refine Finset.sum_congr rfl fun d _ => ?_
  have hk := ValueIdx.contrEquiv1_symm_val dot_S1024x512_S1280x512_S1024x1280_1_1_0_0_n_n 512 rfl rfl d
  have el : dot_S1024x512_S1280x512_S1024x1280_1_1_0_0_n_n.lhsIdx (ix2 r k) ((ValueIdx.contrEquiv1 dot_S1024x512_S1280x512_S1024x1280_1_1_0_0_n_n 512 rfl rfl).symm d) = ix2 r d := funext fun a => Fin.ext (by
    match a with
    | ⟨0, _⟩ => exact lhs_mm_0 _ _
    | ⟨1, _⟩ => exact (lhs_mm_1 _ _).trans hk)
  have er : dot_S1024x512_S1280x512_S1024x1280_1_1_0_0_n_n.rhsIdx (ix2 r k) ((ValueIdx.contrEquiv1 dot_S1024x512_S1280x512_S1024x1280_1_1_0_0_n_n 512 rfl rfl).symm d) = ix2 k d := funext fun a => Fin.ext (by
    match a with
    | ⟨0, _⟩ => exact rhs_mm_0 _ _
    | ⟨1, _⟩ => exact (rhs_mm_1 _ _).trans hk)
  rw [el, er]

/-- The cosine entry: with the left operand's row `r` the reals `en r` and the weight block's row `k` the reals `w`,
    entry `(r, k)` of the product of the left operand with the row-normalized weight block is
    `Σ_d en r d · (w d / nrm w)`. Only row `k` of the weight block is read. -/
private theorem cos_apply (X1 : FVec Ideal S1280x512 .f32) (eb : FVec Ideal S1024x512 .bf16)
    (h : S1280x512.Reduces [1] S1280) (hφ : FKind.Formats .f32) (hacc : (0x00000000#32 : BitVec 32) = 0x00000000#32)
    (hs : S1280.ShapeCasts S1280x1) (hb : S1280x1.Broadcasts S1280x512) (hlt : FTy.bits .bf16 < FTy.bits .f32)
    (r : Fin 1024) (k : Fin 1280) (en : Fin 512 → ℝ) (w : Fin 512 → ℝ)
    (heb : ∀ d : Fin 512, eb (ix2 r d) = ((en d : ℝ) : EReal)) (hX1 : ∀ d : Fin 512, X1 (ix2 k d) = ((w d : ℝ) : EReal)) :
    matmul dot_S1024x512_S1280x512_S1024x1280_1_1_0_0_n_n none eb
        (truncf .bf16 (divf X1 (broadcastTo S1280x512
          (maximumf (sqrt (shapeCast S1280x1 (multiReduction .add [1] S1280 (mulf X1 X1) 0x00000000#32 h hφ hacc) hs))
            (broadcast S1280x1 (Scalar.ofBits (F := Ideal) .f32 0x2B8CBCCC#32))) hb)) hlt)
        (constant (F := Ideal) S1024x1280 .f32 0x00000000#32) (ix2 r k)
      = ((∑ d : Fin 512, en d * (w d / nrm w) : ℝ) : EReal) := by
  rw [mm_apply, ← coe_sum]
  refine Finset.sum_congr rfl fun d _ => ?_
  rw [heb d, truncf_apply, rowNormalize_apply X1 h hφ hacc hs hb k w hX1 d, EReal.coe_mul]

/-! ## The payloads -/

variable [Cert.KernelIdeal.Facts]

theorem pay8_apply (X0 : Vec Ideal S1024x512 .f32) (e : Fin 1024 → Fin 512 → ℝ)
    (hX0 : ∀ (r : Fin 1024) (d : Fin 512), X0 (ix2 r d) = ((e r d : ℝ) : EReal)) (r : Fin 1024) (d : Fin 512) :
    k0_pay8 (F := Ideal) X0 (ix2 r d) = ((e r d / nrm (e r) : ℝ) : EReal) := by
  unfold k0_pay8
  rw [shapeCast_self, truncf_apply]
  exact rowNormalize_apply X0 _ _ _ _ _ r (e r) (hX0 r) d

theorem pay10_apply (i : grid0.Coords) (j : Nat) (hi1 : (i 1).val = j) (hj : j < 40) (r : Fin 1024) (k : Fin 1280) :
    k0_pay10 i (ix2 r k) = if 1280 * j + k.val < 50000 then 1#1 else 0#1 := by
  have hn : 1280 * j + k.val < 2 ^ 31 := by have := k.isLt; omega
  show BitVec.ofBool ((k0_pay9 i (ix2 r k)).slt (BitVec.ofNat 32 50000)) = _
  rw [pay9_apply i j hi1 r k, slt_ofNat _ _ hn (by decide)]
  by_cases h : 1280 * j + k.val < 50000
  · rw [if_pos h, decide_eq_true h]; rfl
  · rw [if_neg h, decide_eq_false h]; rfl

theorem pay11_apply (i : grid0.Coords) (j : Nat) (hi1 : (i 1).val = j) (hj : j < 40) (X2 : Vec Ideal S1024x1 .i32)
    (r : Fin 1024) (k : Fin 1280) :
    k0_pay11 (F := Ideal) i X2 (ix2 r k) = if 1280 * j + k.val = (X2 (ix2 r (0 : Fin 1))).toNat then 1#1 else 0#1 := by
  have hn : 1280 * j + k.val < 2 ^ 32 := by have := k.isLt; omega
  unfold k0_pay11
  rw [shapeCast_self]
  show BitVec.ofBool (k0_pay9 i (ix2 r k) == broadcastTo S1024x1280 X2 broadcasts_S1024x1_S1024x1280 (ix2 r k)) = _
  rw [pay9_apply i j hi1 r k, broadcastTo_a1_ab_apply]
  by_cases h : 1280 * j + k.val = (X2 (ix2 r (0 : Fin 1))).toNat
  · rw [if_pos h, beq_iff_eq.mpr ((ofNat_eq_iff _ hn _).mpr h)]; rfl
  · rw [if_neg h, beq_eq_false_iff_ne.mpr (fun hh => h ((ofNat_eq_iff _ hn _).mp hh))]; rfl

theorem pay12_apply (i : grid0.Coords) (j : Nat) (hi1 : (i 1).val = j) (hj : j < 40)
    (X1 : Vec Ideal S1280x512 .f32) (eb : Vec Ideal S1024x512 .bf16) (X2 : Vec Ideal S1024x1 .i32)
    (en : Fin 1024 → Fin 512 → ℝ) (w : Fin 1280 → Fin 512 → ℝ)
    (heb : ∀ (r : Fin 1024) (d : Fin 512), eb (ix2 r d) = ((en r d : ℝ) : EReal))
    (hX1 : ∀ (k : Fin 1280) (d : Fin 512), 1280 * j + k.val < 50000 → X1 (ix2 k d) = ((w k d : ℝ) : EReal))
    (r : Fin 1024) (k : Fin 1280) :
    k0_pay12 (F := Ideal) i X1 eb X2 (ix2 r k)
      = if 1280 * j + k.val < 50000 then
          (((if 1280 * j + k.val = (X2 (ix2 r (0 : Fin 1))).toNat then (∑ d, en r d * (w k d / nrm (w k))) - muR
              else ∑ d, en r d * (w k d / nrm (w k))) * scR : ℝ) : EReal)
        else ((negR : ℝ) : EReal) := by
  unfold k0_pay12
  rw [select_apply, pay10_apply i j hi1 hj r k]
  by_cases hlt : 1280 * j + k.val < 50000
  · rw [if_pos hlt, if_pos hlt, select_one, mulf_apply, broadcast_apply, select_apply, pay11_apply i j hi1 hj X2 r k,
      subf_apply, broadcast_apply,
      cos_apply X1 eb _ _ _ _ _ _ r k (en r) (w k) (heb r) (fun d => hX1 k d hlt)]
    show _ * Ideal.ofBits .f32 0x41F00000#32 = _
    rw [sc_coe]
    by_cases hlab : 1280 * j + k.val = (X2 (ix2 r (0 : Fin 1))).toNat
    · rw [if_pos hlab, if_pos hlab, select_one]
      show (_ - Ideal.ofBits .f32 0x3E99999A#32) * _ = _
      rw [mu_coe, ← EReal.coe_sub, ← EReal.coe_mul]
    · rw [if_neg hlab, if_neg hlab, select_zero, ← EReal.coe_mul]
  · rw [if_neg hlt, if_neg hlt, select_zero, broadcast_apply]
    exact neg_coe

end Cert.KernelIdeal.Math

end
-- ==== Proof.KRed.lean ====
/-
  The kernel's row reductions read at a row, at the extended reals: each lane reduction is its initial value and the
  plain sum (or maximum) over the 1280 lanes.

  `pay13_apply`: the new running maximum is the old one against SOME real, when every entry of the logits tile is
  real. `pay1_apply`: the new running sum is `exp (m_old − m_new) · l_old` plus the sum over the lanes in range of
  `exp (logit − m_new)`. `pay2_apply`: the new label logit is the old one plus the sum of the logits over the lanes
  equal to the label. `pay4_apply`: the written value `m + log l − ll`. `pay5`–`pay7`: the reset values `−∞`, `0`, `0`;
  `pay3` is the identity.
-/
import proofs.«401782_j48017734369761_2_alg».proof.Proof.KState
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Math

open Idealize.ShloMosaic Idealize.ShloMosaic.ValueIdx Cert.KernelIdeal Cert.KernelIdeal.Gen Cert.KernelIdeal.St

variable [Cert.KernelIdeal.Facts]

/-! ## Layout operations of the row state read at a row -/

section Layout
variable {α : Type}

/-- A vector of `n` entries cast to a column `[n, 1]` reads, at `(r, 0)`, the entry `r`. -/
private theorem shapeCast_col_apply {n : ℕ} (x : (⟨1, ![n]⟩ : Shape).Idx → α) (h : (⟨1, ![n]⟩ : Shape).ShapeCasts ⟨2, ![n, 1]⟩)
    (r : Fin n) : shapeCast ⟨2, ![n, 1]⟩ x h (ix2 r (0 : Fin 1)) = x (ix1 r) :=
  shapeCast_apply x h _ _ (by
    rw [Shape.rowMajor_val_two, Shape.rowMajor_val_one]
    show r.val = r.val * 1 + 0
    rw [Nat.mul_one, Nat.add_zero])

/-- A column `[1024, 1]` broadcast along the lanes reads, at `(r, k)`, the column's entry at row `r`. -/
private theorem broadcastTo_col_apply (v : S1024x1.Idx → α) (h : S1024x1.Broadcasts S1024x1280) (r : Fin 1024) (k : Fin 1280) :
    broadcastTo S1024x1280 v h (ix2 r k) = v (ix2 r (0 : Fin 1)) := by
  refine broadcastTo_apply v h (ix2 r k) (ix2 r (0 : Fin 1)) fun ax => ?_
  match ax with
  | ⟨0, _⟩ => rfl
  | ⟨1, _⟩ => rfl

/-- The index a lane reduction reads: the row with the lane coordinate put back. -/
private theorem lift_row (h : S1024x1280.Reduces [1] S1024) (r : Fin 1024) (k : Fin 1280) :
    h.lift (ix1 r) k = ix2 r k :=
  funext fun c => Fin.ext <| match c with
    | ⟨0, _⟩ => rfl
    | ⟨1, _⟩ => rfl

end Layout

/-- A lane sum from the zero word, read at a row: the sum of the row's 1280 entries. -/
private theorem laneSum_apply (src : FVec Ideal S1024x1280 .f32) (h : S1024x1280.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ k : Fin 1280, src (ix2 r k) := by
  refine (Ideal.multiReduction_add_single src 0x00000000#32 h hφ hacc (ix1 r)).trans ?_
  exact Finset.sum_congr rfl fun k _ => congrArg src (lift_row h r k)

/-! ## The maximum of finitely many reals from `−∞` -/

/-- Folding `max` from `⊥` over a finite set of reals gives `⊥` or a real. -/
private theorem fold_max_bot_or_real {ι : Type} [DecidableEq ι] (f : ι → EReal) (s : Finset ι)
    (hf : ∀ k ∈ s, ∃ x : ℝ, f k = ((x : ℝ) : EReal)) :
    s.fold max (⊥ : EReal) f = ⊥ ∨ ∃ x : ℝ, s.fold max (⊥ : EReal) f = ((x : ℝ) : EReal) := by
  induction s using Finset.induction_on with
  | empty => exact Or.inl Finset.fold_empty
  | insert a s ha ih =>
    obtain ⟨x, hx⟩ := hf a (Finset.mem_insert_self a s)
    rw [Finset.fold_insert ha, hx]
    rcases ih (fun k hk => hf k (Finset.mem_insert_of_mem hk)) with h0 | ⟨y, hy⟩
    · exact Or.inr ⟨x, by rw [h0, max_eq_left bot_le]⟩
    · exact Or.inr ⟨max x y, by rw [hy]; exact (EReal.coe_strictMono.monotone.map_max).symm⟩

/-- Over a nonempty set the fold is a real. -/
private theorem fold_max_bot_real {ι : Type} [DecidableEq ι] (f : ι → EReal) (s : Finset ι) (hs : s.Nonempty)
    (hf : ∀ k ∈ s, ∃ x : ℝ, f k = ((x : ℝ) : EReal)) : ∃ x : ℝ, s.fold max (⊥ : EReal) f = ((x : ℝ) : EReal) := by
  obtain ⟨a, ha⟩ := hs
  obtain ⟨x, hx⟩ := hf a ha
  have hins : s = insert a (s.erase a) := (Finset.insert_erase ha).symm
  rw [hins, Finset.fold_insert (Finset.notMem_erase a s), hx]
  rcases fold_max_bot_or_real f (s.erase a) (fun k hk => hf k (Finset.mem_of_mem_erase hk)) with h0 | ⟨y, hy⟩
  · exact ⟨x, by rw [h0, max_eq_left bot_le]⟩
  · exact ⟨max x y, by rw [hy]; exact (EReal.coe_strictMono.monotone.map_max).symm⟩

/-- The word `0xFF800000` is `−∞`. -/
private theorem ofBits_ninf : Ideal.ofBits .f32 0xFF800000#32 = (⊥ : EReal) := by simp [Ideal.ofBits, Ideal.ieee]

/-- A lane maximum from `−∞`, read at a row all of whose entries are real: some real. -/
private theorem laneMax_apply (src : FVec Ideal S1024x1280 .f32) (h : S1024x1280.Reduces [1] S1024) (hφ : FKind.Formats .f32)
    (hacc : (0xFF800000#32 : BitVec 32) = 0xFF800000#32) (r : Fin 1024)
    (hv : ∀ k : Fin 1280, ∃ x : ℝ, src (ix2 r k) = ((x : ℝ) : EReal)) :
    ∃ x : ℝ, multiReduction (F := Ideal) .maximumf [1] S1024 src 0xFF800000#32 h hφ hacc (ix1 r) = ((x : ℝ) : EReal) := by
  have e := Ideal.multiReduction_maximumf_single src 0xFF800000#32 h hφ hacc (ix1 r)
  have e0 : (FloatOps.ofBits (F := Ideal) .f32 0xFF800000#32 : EReal) = ⊥ := ofBits_ninf
  obtain ⟨x, hx⟩ := fold_max_bot_real (src ∘ h.lift (ix1 r)) (Finset.univ : Finset (Fin 1280)) ⟨(0 : Fin 1280), Finset.mem_univ _⟩
    (fun k _ => by
      obtain ⟨y, hy⟩ := hv k
      exact ⟨y, by show src (h.lift (ix1 r) k) = _; rw [lift_row h r k, hy]⟩)
  exact ⟨x, e.trans (by rw [e0]; exact hx)⟩

/-! ## The payloads at a row -/

theorem pay13_apply (i : grid0.Coords) (X1 : Vec Ideal S1280x512 .f32) (eb : Vec Ideal S1024x512 .bf16) (X2 : Vec Ideal S1024x1 .i32)
    (M : Vec Ideal S1024x1 .f32) (g : Fin 1024 → Fin 1280 → ℝ)
    (hv : ∀ (r : Fin 1024) (k : Fin 1280), k0_pay12 (F := Ideal) i X1 eb X2 (ix2 r k) = ((g r k : ℝ) : EReal)) :
    ∃ mx : Fin 1024 → ℝ, ∀ r : Fin 1024,
      k0_pay13 (F := Ideal) i X1 eb X2 M (ix2 r (0 : Fin 1)) = max (M (ix2 r (0 : Fin 1))) ((mx r : ℝ) : EReal) := by
  have hr : ∀ r : Fin 1024, ∃ x : ℝ,
      k0_pay13 (F := Ideal) i X1 eb X2 M (ix2 r (0 : Fin 1)) = max (M (ix2 r (0 : Fin 1))) ((x : ℝ) : EReal) := by
    intro r
    obtain ⟨x, hx⟩ := laneMax_apply (k0_pay12 (F := Ideal) i X1 eb X2) reduces_S1024x1280_S1024 (.inl rfl) rfl r
      (fun k => ⟨g r k, hv r k⟩)
    refine ⟨x, ?_⟩
    unfold k0_pay13
    rw [maximumf_apply, shapeCast_col_apply, hx]
  choose mx hmx using hr
  exact ⟨mx, hmx⟩

theorem pay1_apply (v20 : IVec S1024x1280 1) (v31 : FVec Ideal S1024x1280 .f32) (v35 M L : Vec Ideal S1024x1 .f32) (r : Fin 1024) :
    k0_pay1 (F := Ideal) v20 v31 v35 M L (ix2 r (0 : Fin 1))
      = Ideal.exp (M (ix2 r (0 : Fin 1)) - v35 (ix2 r (0 : Fin 1))) * L (ix2 r (0 : Fin 1))
        + ∑ k : Fin 1280, (if v20 (ix2 r k) = 1#1 then Ideal.exp (v31 (ix2 r k) - v35 (ix2 r (0 : Fin 1))) else (0 : EReal)) := by
  unfold k0_pay1
  rw [shapeCast_self, addf_apply, shapeCast_col_apply, laneSum_apply, mulf_apply]
  refine congrArg₂ (· + ·) rfl (Finset.sum_congr rfl fun k _ => ?_)
  rw [select_apply, broadcast_apply]
  show Scalar.select (v20 (ix2 r k)) (Ideal.exp (v31 (ix2 r k) - broadcastTo S1024x1280 v35 broadcasts_S1024x1_S1024x1280 (ix2 r k)))
      (Ideal.ofBits .f32 0x00000000#32) = _
  rw [broadcastTo_col_apply, Ideal.ofBits_zero_f32]
  rfl

theorem pay2_apply (v24 : IVec S1024x1280 1) (v31 : FVec Ideal S1024x1280 .f32) (LL : Vec Ideal S1024x1 .f32) (r : Fin 1024) :
    k0_pay2 (F := Ideal) v24 v31 LL (ix2 r (0 : Fin 1))
      = LL (ix2 r (0 : Fin 1)) + ∑ k : Fin 1280, (if v24 (ix2 r k) = 1#1 then v31 (ix2 r k) else (0 : EReal)) := by
  unfold k0_pay2
  rw [shapeCast_self, addf_apply, shapeCast_col_apply, laneSum_apply]
  refine congrArg₂ (· + ·) rfl (Finset.sum_congr rfl fun k _ => ?_)
  rw [select_apply, broadcast_apply]
  show Scalar.select (v24 (ix2 r k)) (v31 (ix2 r k)) (Ideal.ofBits .f32 0x00000000#32) = _
  rw [Ideal.ofBits_zero_f32]
  rfl

theorem pay3_apply (v35 : FVec Ideal S1024x1 .f32) : k0_pay3 (F := Ideal) v35 = v35 := by
  unfold k0_pay3
  exact shapeCast_self v35 _

theorem pay4_apply (mm l ll : Vec Ideal S1024x1 .f32) (r : Fin 1024) :
    k0_pay4 (F := Ideal) mm l ll (ix2 r (0 : Fin 1))
      = mm (ix2 r (0 : Fin 1)) + Ideal.log (l (ix2 r (0 : Fin 1))) - ll (ix2 r (0 : Fin 1)) := by
  unfold k0_pay4
  rfl

theorem pay5_apply (y : S1024x1.Idx) : k0_pay5 (F := Ideal) y = (⊥ : EReal) := by
  unfold k0_pay5
  rw [shapeCast_self, broadcast_apply]
  exact ofBits_ninf
theorem pay6_apply (y : S1024x1.Idx) : k0_pay6 (F := Ideal) y = (0 : EReal) := by
  unfold k0_pay6
  rw [shapeCast_self, broadcast_apply]
  exact Ideal.ofBits_zero_f32
theorem pay7_apply (y : S1024x1.Idx) : k0_pay7 (F := Ideal) y = (0 : EReal) := by
  unfold k0_pay7
  rw [shapeCast_self, broadcast_apply]
  exact Ideal.ofBits_zero_f32

end Cert.KernelIdeal.Math

end
-- ==== Proof.KMath.lean ====
/-
  The kernel's state in closed form, at the extended reals.

  After `j` class tiles of row tile `it` (`1 ≤ j ≤ 40`), for each of the tile's 1024 rows `r` (global row
  `b = 1024·it + r`): the running maximum is SOME real `mr r`; the running sum is
  `∑_{c < 1280·j} exp (logit b c − mr r)` over the classes `c < 50000`; the running label logit is the sum of the
  logits over the classes `c < 1280·j` equal to the label; the cached block is the normalized embeddings.
  `inv_step`: one grid point carries the closed form from `j` to `j + 1` tiles (from nothing at `j = 0`, where the
  body resets the state). `inv_out`: after all 40 tiles the written value is the row's loss, because
  `m + log (∑ exp (x − m)) = log (∑ exp x)` for every real `m`.
-/
import proofs.«401782_j48017734369761_2_alg».proof.Proof.KState
import proofs.«401782_j48017734369761_2_alg».proof.Proof.Spec
import proofs.«401782_j48017734369761_2_alg».proof.Proof.SpecConsts
import proofs.«401782_j48017734369761_2_alg».proof.Proof.KPay
import proofs.«401782_j48017734369761_2_alg».proof.Proof.KRed
import Idealize.ShloMosaic.Lib.ValueIdx
import Idealize.ShloMosaic.Lib.ValueIdxRank1
import Idealize.ShloMosaic.PureOps.Ideal.Laws
import Mathlib.Algebra.BigOperators.Fin
import Mathlib.Algebra.BigOperators.Intervals

noncomputable section

open scoped BigOperators

namespace Cert.KernelIdeal.Math

open Idealize.ShloMosaic Idealize.ShloMosaic.ValueIdx Cert.KernelIdeal Cert.KernelIdeal.Gen Cert.KernelIdeal.St Cert.Spec

variable [Cert.KernelIdeal.Facts]

/-- Global row of row `r` of row tile `it`. -/
def rowOf (it : Fin 2) (r : Fin 1024) : Fin 2048 := ⟨1024 * it.val + r.val, by omega⟩

/-! ### Sums over the classes, tile by tile (over the reals) -/

/-- A function on the classes, extended by zero to all natural numbers. -/
private def ext0 (f : Fin 50000 → ℝ) (n : ℕ) : ℝ := if h : n < 50000 then f ⟨n, h⟩ else 0

/-- The sum over the 1280 lanes of class tile `j` of a function extended by zero is the sum over the classes of
    that tile. -/
private theorem tile_sum (f : Fin 50000 → ℝ) (j : ℕ) (hj : j < 40) :
    (∑ k : Fin 1280, ext0 f (1280 * j + k.val))
      = ∑ c : Fin 50000, if 1280 * j ≤ c.val ∧ c.val < 1280 * (j + 1) then f c else 0 := by
  have hR : (∑ c : Fin 50000, if 1280 * j ≤ c.val ∧ c.val < 1280 * (j + 1) then f c else 0)
      = ∑ n ∈ Finset.range 50000, if 1280 * j ≤ n ∧ n < 1280 * (j + 1) then ext0 f n else 0 := by
    rw [← Fin.sum_univ_eq_sum_range (fun n => if 1280 * j ≤ n ∧ n < 1280 * (j + 1) then ext0 f n else 0) 50000]
    refine Finset.sum_congr rfl fun c _ => ?_
    simp only [ext0, dif_pos c.isLt]
  rw [hR, Fin.sum_univ_eq_sum_range (fun k => ext0 f (1280 * j + k)) 1280]
  rw [Finset.sum_subset (Finset.range_mono (by norm_num : 50000 ≤ 51200))
      (fun n _ hn => by
        have h : ¬ n < 50000 := by simpa using hn
        simp only [ext0, dif_neg h, ite_self])]
  rw [← Finset.sum_filter]
  have hI : (Finset.range 51200).filter (fun n => 1280 * j ≤ n ∧ n < 1280 * (j + 1))
      = Finset.Ico (1280 * j) (1280 * (j + 1)) := by
    ext n; simp only [Finset.mem_filter, Finset.mem_range, Finset.mem_Ico]; omega
  rw [hI, Finset.sum_Ico_eq_sum_range]
  have hlen : 1280 * (j + 1) - 1280 * j = 1280 := by omega
  rw [hlen]

/-- The classes below tile `j + 1` are those below tile `j` and those of tile `j`. -/
private theorem split_sum (f : Fin 50000 → ℝ) (j : ℕ) :
    (∑ c : Fin 50000, if c.val < 1280 * j then f c else 0)
      + (∑ c : Fin 50000, if 1280 * j ≤ c.val ∧ c.val < 1280 * (j + 1) then f c else 0)
      = ∑ c : Fin 50000, if c.val < 1280 * (j + 1) then f c else 0 := by
  rw [← Finset.sum_add_distrib]
  refine Finset.sum_congr rfl fun c _ => ?_
  by_cases h1 : c.val < 1280 * j
  · have h2 : ¬ (1280 * j ≤ c.val ∧ c.val < 1280 * (j + 1)) := by omega
    have h3 : c.val < 1280 * (j + 1) := by omega
    rw [if_pos h1, if_neg h2, if_pos h3, add_zero]
  · by_cases h2 : c.val < 1280 * (j + 1)
    · rw [if_neg h1, if_pos ⟨by omega, h2⟩, if_pos h2, zero_add]
    · rw [if_neg h1, if_neg (by omega), if_neg h2, add_zero]

/-- The same, for the classes that satisfy `p`. -/
private theorem split_sum_and (p : Fin 50000 → Prop) [DecidablePred p] (f : Fin 50000 → ℝ) (j : ℕ) :
    (∑ c : Fin 50000, if c.val < 1280 * j ∧ p c then f c else 0)
      + (∑ c : Fin 50000, if 1280 * j ≤ c.val ∧ c.val < 1280 * (j + 1) then (if p c then f c else 0) else 0)
      = ∑ c : Fin 50000, if c.val < 1280 * (j + 1) ∧ p c then f c else 0 := by
  rw [← Finset.sum_add_distrib]
  refine Finset.sum_congr rfl fun c _ => ?_
  by_cases hp : p c
  · by_cases h1 : c.val < 1280 * j
    · have h2 : ¬ (1280 * j ≤ c.val ∧ c.val < 1280 * (j + 1)) := by omega
      have h3 : c.val < 1280 * (j + 1) := by omega
      rw [if_pos ⟨h1, hp⟩, if_neg h2, if_pos ⟨h3, hp⟩, add_zero]
    · by_cases h2 : c.val < 1280 * (j + 1)
      · rw [if_neg (fun h => h1 h.1), if_pos ⟨by omega, h2⟩, if_pos hp, if_pos ⟨h2, hp⟩, zero_add]
      · rw [if_neg (fun h => h1 h.1), if_neg (fun h => h2 h.2), if_neg (fun h => h2 h.1), add_zero]
  · have e1 : ¬ (c.val < 1280 * j ∧ p c) := fun h => hp h.2
    have e3 : ¬ (c.val < 1280 * (j + 1) ∧ p c) := fun h => hp h.2
    rw [if_neg e1, if_neg e3]
    by_cases h3 : 1280 * j ≤ c.val ∧ c.val < 1280 * (j + 1)
    · rw [if_pos h3, if_neg hp, add_zero]
    · rw [if_neg h3, add_zero]

/-- Moving a partial sum of exponentials from shift `m` to shift `m'`. -/
private theorem rescale_sum (x : Fin 50000 → ℝ) (m m' : ℝ) (j : ℕ) :
    Real.exp (m - m') * (∑ c : Fin 50000, if c.val < 1280 * j then Real.exp (x c - m) else 0)
      = ∑ c : Fin 50000, if c.val < 1280 * j then Real.exp (x c - m') else 0 := by
  rw [Finset.mul_sum]
  refine Finset.sum_congr rfl fun c _ => ?_
  by_cases h : c.val < 1280 * j
  · rw [if_pos h, if_pos h, ← Real.exp_add]; congr 1; ring
  · rw [if_neg h, if_neg h, mul_zero]

/-! ### "The class tile is 0", decided -/

private theorem cond1_zero (i : grid0.Coords) (h : (i 1).val = 0) : cond1 i = 1#1 := by
  unfold cond1; rw [h]; decide

private theorem cond1_pos (i : grid0.Coords) (j : ℕ) (h : (i 1).val = j) (h0 : 0 < j) (h40 : j < 40) : cond1 i ≠ 1#1 := by
  unfold cond1; rw [h]
  interval_cases j <;> decide

variable (E : Fin 2048 → Fin 512 → ℝ) (W : Fin 50000 → Fin 512 → ℝ) (lab : Fin 2048 → Nat)

/-- The closed form of the state after `j` class tiles of row tile `it` (nothing is said at `j = 0`). -/
def InvAt (it : Fin 2) (j : Nat) (s : Scr Ideal) : Prop :=
  j = 0 ∨ ∃ mr : Fin 1024 → ℝ, ∀ r : Fin 1024,
    s.m (ix2 r (0 : Fin 1)) = ((mr r : ℝ) : EReal)
    ∧ s.l (ix2 r (0 : Fin 1)) = ((∑ c : Fin 50000, if c.val < 1280 * j then Real.exp (logit E W lab (rowOf it r) c - mr r) else 0 : ℝ) : EReal)
    ∧ s.ll (ix2 r (0 : Fin 1)) = ((∑ c : Fin 50000, if c.val < 1280 * j ∧ c.val = lab (rowOf it r) then logit E W lab (rowOf it r) c else 0 : ℝ) : EReal)
    ∧ ∀ d : Fin 512, s.eb (ix2 r d) = ((en E (rowOf it r) d : ℝ) : EReal)

/-! ### One class tile, lane by lane -/

/-- The logits of class tile `j` on row `b`, lane by lane: the class's logit inside the array, the fill past it. -/
private def tileLogit (b : Fin 2048) (j : ℕ) (k : Fin 1280) : ℝ :=
  if h : 1280 * j + k.val < 50000 then logit E W lab b ⟨1280 * j + k.val, h⟩ else negR

private theorem max_coe (a b : ℝ) : max (a : EReal) (b : EReal) = ((max a b : ℝ) : EReal) :=
  (EReal.coe_strictMono.monotone.map_max).symm

/-- The logits tile the body computes is `tileLogit`. -/
private theorem tile_value (i : grid0.Coords) (it : Fin 2) (j : Nat) (hj : j < 40) (hi1 : (i 1).val = j)
    (X1 : Vec Ideal S1280x512 .f32) (X2 : Vec Ideal S1024x1 .i32) (eb : Vec Ideal S1024x512 .bf16)
    (hX1 : ∀ (k : Fin 1280) (d : Fin 512) (h : 1280 * j + k.val < 50000), X1 (ix2 k d) = ((W ⟨1280 * j + k.val, h⟩ d : ℝ) : EReal))
    (hX2 : ∀ r : Fin 1024, (X2 (ix2 r (0 : Fin 1))).toNat = lab (rowOf it r))
    (heb : ∀ (r : Fin 1024) (d : Fin 512), eb (ix2 r d) = ((en E (rowOf it r) d : ℝ) : EReal))
    (r : Fin 1024) (k : Fin 1280) :
    k0_pay12 (F := Ideal) i X1 eb X2 (ix2 r k) = ((tileLogit E W lab (rowOf it r) j k : ℝ) : EReal) := by
  rw [pay12_apply i j hi1 hj X1 eb X2 (fun r d => en E (rowOf it r) d)
      (fun k d => if h : 1280 * j + k.val < 50000 then W ⟨1280 * j + k.val, h⟩ d else 0) heb
      (fun k d h => by rw [hX1 k d h, dif_pos h]) r k]
  unfold tileLogit
  by_cases h : 1280 * j + k.val < 50000
  · rw [if_pos h, dif_pos h, hX2 r]
    simp only [dif_pos h, logit, cosv, wn]
  · rw [if_neg h, dif_neg h]

/-- The tile's contribution to the running sum: over the lanes in range, the exponentials of the logits minus
    the shift, that is the sum over the tile's classes. -/
private theorem tile_exp (b : Fin 2048) (j : ℕ) (hj : j < 40) (m' : ℝ)
    (v20 : IVec S1024x1280 1) (v31 : FVec Ideal S1024x1280 .f32) (r : Fin 1024)
    (h20 : ∀ k : Fin 1280, v20 (ix2 r k) = if 1280 * j + k.val < 50000 then 1#1 else 0#1)
    (h31 : ∀ k : Fin 1280, v31 (ix2 r k) = ((tileLogit E W lab b j k : ℝ) : EReal)) :
    (∑ k : Fin 1280, (if v20 (ix2 r k) = 1#1 then Ideal.exp (v31 (ix2 r k) - ((m' : ℝ) : EReal)) else (0 : EReal)))
      = ((∑ c : Fin 50000, if 1280 * j ≤ c.val ∧ c.val < 1280 * (j + 1) then Real.exp (logit E W lab b c - m') else 0 : ℝ) : EReal) := by
  rw [← tile_sum (fun c => Real.exp (logit E W lab b c - m')) j hj, ← Cert.Spec.coe_sum]
  refine Finset.sum_congr rfl fun k _ => ?_
  rw [h20 k, h31 k]
  by_cases h : 1280 * j + k.val < 50000
  · rw [if_pos h, if_pos rfl, ← EReal.coe_sub, Ideal.exp_coe]
    simp only [ext0, tileLogit, dif_pos h]
  · rw [if_neg h, if_neg (by decide)]
    simp only [ext0, dif_neg h, EReal.coe_zero]

/-- The tile's contribution to the running label logit: the logits of the tile's classes equal to the label. -/
private theorem tile_lab (b : Fin 2048) (j : ℕ) (hj : j < 40) (hlab : lab b < 50000)
    (v24 : IVec S1024x1280 1) (v31 : FVec Ideal S1024x1280 .f32) (r : Fin 1024)
    (h24 : ∀ k : Fin 1280, v24 (ix2 r k) = if 1280 * j + k.val = lab b then 1#1 else 0#1)
    (h31 : ∀ k : Fin 1280, v31 (ix2 r k) = ((tileLogit E W lab b j k : ℝ) : EReal)) :
    (∑ k : Fin 1280, (if v24 (ix2 r k) = 1#1 then v31 (ix2 r k) else (0 : EReal)))
      = ((∑ c : Fin 50000, if 1280 * j ≤ c.val ∧ c.val < 1280 * (j + 1) then
            (if c.val = lab b then logit E W lab b c else 0) else 0 : ℝ) : EReal) := by
  rw [← tile_sum (fun c => if c.val = lab b then logit E W lab b c else 0) j hj, ← Cert.Spec.coe_sum]
  refine Finset.sum_congr rfl fun k _ => ?_
  rw [h24 k, h31 k]
  by_cases h : 1280 * j + k.val < 50000
  · simp only [ext0, tileLogit, dif_pos h]
    by_cases h2 : 1280 * j + k.val = lab b
    · rw [if_pos h2, if_pos rfl, if_pos h2]
    · rw [if_neg h2, if_neg (by decide), if_neg h2, EReal.coe_zero]
  · have h2 : ¬ 1280 * j + k.val = lab b := by omega
    rw [if_neg h2, if_neg (by decide)]
    simp only [ext0, dif_neg h, EReal.coe_zero]

/-- Folding class tile `j` into a state that holds the closed form of `j` tiles — with the maximum `−∞` allowed
    when `j = 0` — gives the closed form of `j + 1` tiles. -/
private theorem fold_inv (i : grid0.Coords) (it : Fin 2) (j : Nat) (hj : j < 40) (hi1 : (i 1).val = j)
    (X1 : Vec Ideal S1280x512 .f32) (X2 : Vec Ideal S1024x1 .i32)
    (hX1 : ∀ (k : Fin 1280) (d : Fin 512) (h : 1280 * j + k.val < 50000), X1 (ix2 k d) = ((W ⟨1280 * j + k.val, h⟩ d : ℝ) : EReal))
    (hX2 : ∀ r : Fin 1024, (X2 (ix2 r (0 : Fin 1))).toNat = lab (rowOf it r))
    (hlab : ∀ b, lab b < 50000) (s0 : Scr Ideal)
    (heb : ∀ (r : Fin 1024) (d : Fin 512), s0.eb (ix2 r d) = ((en E (rowOf it r) d : ℝ) : EReal))
    (hst : ∀ r : Fin 1024, ∃ m : ℝ,
      (s0.m (ix2 r (0 : Fin 1)) = ⊥ ∧ j = 0 ∨ s0.m (ix2 r (0 : Fin 1)) = ((m : ℝ) : EReal))
      ∧ s0.l (ix2 r (0 : Fin 1)) = ((∑ c : Fin 50000, if c.val < 1280 * j then Real.exp (logit E W lab (rowOf it r) c - m) else 0 : ℝ) : EReal)
      ∧ s0.ll (ix2 r (0 : Fin 1)) = ((∑ c : Fin 50000, if c.val < 1280 * j ∧ c.val = lab (rowOf it r) then logit E W lab (rowOf it r) c else 0 : ℝ) : EReal)) :
    InvAt E W lab it (j + 1)
      ⟨k0_pay3 (k0_pay13 i X1 s0.eb X2 s0.m),
       k0_pay1 (k0_pay10 i) (k0_pay12 i X1 s0.eb X2) (k0_pay13 i X1 s0.eb X2 s0.m) s0.m s0.l,
       k0_pay2 (k0_pay11 i X2) (k0_pay12 i X1 s0.eb X2) s0.ll, s0.eb⟩ := by
  have hv := tile_value E W lab i it j hj hi1 X1 X2 s0.eb hX1 hX2 heb
  obtain ⟨mx, hmx⟩ := pay13_apply i X1 s0.eb X2 s0.m (fun r k => tileLogit E W lab (rowOf it r) j k) hv
  have hrow : ∀ r : Fin 1024, ∃ m' : ℝ,
      k0_pay3 (k0_pay13 (F := Ideal) i X1 s0.eb X2 s0.m) (ix2 r (0 : Fin 1)) = ((m' : ℝ) : EReal)
      ∧ k0_pay1 (k0_pay10 i) (k0_pay12 (F := Ideal) i X1 s0.eb X2) (k0_pay13 i X1 s0.eb X2 s0.m) s0.m s0.l (ix2 r (0 : Fin 1))
          = ((∑ c : Fin 50000, if c.val < 1280 * (j + 1) then Real.exp (logit E W lab (rowOf it r) c - m') else 0 : ℝ) : EReal)
      ∧ k0_pay2 (k0_pay11 (F := Ideal) i X2) (k0_pay12 (F := Ideal) i X1 s0.eb X2) s0.ll (ix2 r (0 : Fin 1))
          = ((∑ c : Fin 50000, if c.val < 1280 * (j + 1) ∧ c.val = lab (rowOf it r) then logit E W lab (rowOf it r) c else 0 : ℝ) : EReal) := by
    intro r
    obtain ⟨m, hm, hl, hll⟩ := hst r
    -- the new maximum is a real, and the old sum moves to it
    have hm' : ∃ m' : ℝ, k0_pay13 (F := Ideal) i X1 s0.eb X2 s0.m (ix2 r (0 : Fin 1)) = ((m' : ℝ) : EReal)
        ∧ Ideal.exp (s0.m (ix2 r (0 : Fin 1)) - ((m' : ℝ) : EReal)) * s0.l (ix2 r (0 : Fin 1))
          = ((∑ c : Fin 50000, if c.val < 1280 * j then Real.exp (logit E W lab (rowOf it r) c - m') else 0 : ℝ) : EReal) := by
      rcases hm with ⟨hbot, h0⟩ | hreal
      · refine ⟨mx r, by rw [hmx r, hbot, max_bot_left], ?_⟩
        have hn : ∀ c : Fin 50000, ¬ c.val < 1280 * j := fun c => by omega
        rw [hbot, EReal.bot_sub, Ideal.exp_bot, zero_mul]
        simp only [hn, if_false, Finset.sum_const_zero, EReal.coe_zero]
      · refine ⟨max m (mx r), by rw [hmx r, hreal, max_coe], ?_⟩
        rw [hreal, hl, ← EReal.coe_sub, Ideal.exp_coe, ← EReal.coe_mul, rescale_sum]
    obtain ⟨m', hm'1, hm'2⟩ := hm'
    refine ⟨m', by rw [pay3_apply]; exact hm'1, ?_, ?_⟩
    · rw [pay1_apply, hm'1, hm'2,
        tile_exp E W lab (rowOf it r) j hj m' (k0_pay10 i) (k0_pay12 (F := Ideal) i X1 s0.eb X2) r
          (fun k => pay10_apply i j hi1 hj r k) (fun k => hv r k),
        ← EReal.coe_add, split_sum]
    · rw [pay2_apply, hll,
        tile_lab E W lab (rowOf it r) j hj (hlab _) (k0_pay11 (F := Ideal) i X2) (k0_pay12 (F := Ideal) i X1 s0.eb X2) r
          (fun k => by rw [pay11_apply i j hi1 hj X2 r k, hX2 r]) (fun k => hv r k),
        ← EReal.coe_add,
        split_sum_and (fun c : Fin 50000 => c.val = lab (rowOf it r)) (fun c => logit E W lab (rowOf it r) c) j]
  choose mr' h using hrow
  exact Or.inr ⟨mr', fun r => ⟨(h r).1, (h r).2.1, (h r).2.2, heb r⟩⟩

/-- One grid point `i = (it, j)`: what the staging buffers hold (`X0` the embedding block, `X1` the weight block
    on its rows inside the array — nothing is assumed of the rows past class 49999 —, `X2` the labels) carries the
    closed form from `j` tiles to `j + 1`. -/
theorem inv_step (i : grid0.Coords) (it : Fin 2) (j : Nat) (hj : j < 40) (hi0 : (i 0).val = it.val) (hi1 : (i 1).val = j)
    (X0 : Vec Ideal S1024x512 .f32) (X1 : Vec Ideal S1280x512 .f32) (X2 : Vec Ideal S1024x1 .i32)
    (hX0 : ∀ (r : Fin 1024) (d : Fin 512), X0 (ix2 r d) = ((E (rowOf it r) d : ℝ) : EReal))
    (hX1 : ∀ (k : Fin 1280) (d : Fin 512) (h : 1280 * j + k.val < 50000), X1 (ix2 k d) = ((W ⟨1280 * j + k.val, h⟩ d : ℝ) : EReal))
    (hX2 : ∀ r : Fin 1024, (X2 (ix2 r (0 : Fin 1))).toNat = lab (rowOf it r))
    (hlab : ∀ b, lab b < 50000)
    (s : Scr Ideal) (hs : InvAt E W lab it j s) :
    InvAt E W lab it (j + 1) (step i X0 X1 X2 s) := by
  -- the state after the reset: the closed form of `j` tiles, the maximum `−∞` when `j = 0`
  have hreset : (∀ (r : Fin 1024) (d : Fin 512), (reset i X0 s).eb (ix2 r d) = ((en E (rowOf it r) d : ℝ) : EReal))
      ∧ ∀ r : Fin 1024, ∃ m : ℝ,
        ((reset i X0 s).m (ix2 r (0 : Fin 1)) = ⊥ ∧ j = 0 ∨ (reset i X0 s).m (ix2 r (0 : Fin 1)) = ((m : ℝ) : EReal))
        ∧ (reset i X0 s).l (ix2 r (0 : Fin 1)) = ((∑ c : Fin 50000, if c.val < 1280 * j then Real.exp (logit E W lab (rowOf it r) c - m) else 0 : ℝ) : EReal)
        ∧ (reset i X0 s).ll (ix2 r (0 : Fin 1)) = ((∑ c : Fin 50000, if c.val < 1280 * j ∧ c.val = lab (rowOf it r) then logit E W lab (rowOf it r) c else 0 : ℝ) : EReal) := by
    rcases Nat.eq_zero_or_pos j with h0 | h0
    · have hc : cond1 i = 1#1 := cond1_zero i (by rw [hi1, h0])
      have hn : ∀ c : Fin 50000, ¬ c.val < 1280 * j := fun c => by omega
      unfold reset; rw [if_pos hc]
      refine ⟨fun r d => ?_, fun r => ⟨0, Or.inl ⟨pay5_apply (ix2 r (0 : Fin 1)), h0⟩, ?_, ?_⟩⟩
      · show k0_pay8 (F := Ideal) X0 (ix2 r d) = _
        rw [pay8_apply X0 (fun r d => E (rowOf it r) d) hX0 r d]; rfl
      · show k0_pay6 (F := Ideal) (ix2 r (0 : Fin 1)) = _
        rw [pay6_apply]
        simp only [hn, if_false, Finset.sum_const_zero, EReal.coe_zero]
      · show k0_pay7 (F := Ideal) (ix2 r (0 : Fin 1)) = _
        rw [pay7_apply]
        simp only [hn, false_and, if_false, Finset.sum_const_zero, EReal.coe_zero]
    · have hc : cond1 i ≠ 1#1 := cond1_pos i j hi1 h0 hj
      unfold reset; rw [if_neg hc]
      rcases hs with h | ⟨mr, h⟩
      · omega
      · exact ⟨fun r d => (h r).2.2.2 d, fun r => ⟨mr r, Or.inr (h r).1, (h r).2.1, (h r).2.2.1⟩⟩
  exact fold_inv E W lab i it j hj hi1 X1 X2 hX1 hX2 hlab (reset i X0 s) hreset.1 hreset.2

/-- After all 40 class tiles the value the body writes is the row's loss. -/
theorem inv_out (it : Fin 2) (hlab : ∀ b, lab b < 50000) (s : Scr Ideal) (hs : InvAt E W lab it 40 s) (r : Fin 1024) :
    outv s (ix2 r (0 : Fin 1)) = ((nll E W lab (rowOf it r) : ℝ) : EReal) := by
  rcases hs with h | ⟨mr, h⟩
  · exact absurd h (by decide)
  obtain ⟨hm, hl, hll, _⟩ := h r
  have hall : ∀ c : Fin 50000, c.val < 1280 * 40 := fun c => by have := c.isLt; omega
  have hpos : 0 < ∑ c : Fin 50000, Real.exp (logit E W lab (rowOf it r) c - mr r) :=
    Finset.sum_pos (fun c _ => Real.exp_pos _) ⟨⟨0, by norm_num⟩, Finset.mem_univ _⟩
  unfold outv
  rw [pay4_apply, hm, hl, hll]
  simp only [hall, if_true, true_and]
  rw [Ideal.log_coe, if_neg (not_le.mpr hpos), ← EReal.coe_add, ← EReal.coe_sub, lse_shift]
  rfl

/-- The host operations after the region: the 2048 losses reshaped to a vector, summed from zero and divided by
    2048, are the mean loss. -/
theorem tail_value (O : Vec Ideal S2048x1 .f32) (hO : ∀ b : Fin 2048, O (ix2 b (0 : Fin 1)) = ((nll E W lab b : ℝ) : EReal)) :
    Host.divf (Host.reduceAdd (shapeCast S2048 O shapeCasts_S2048x1_S2048) (constant S_ .f32 0x00000000#32) reducesTo_S2048_S_d0 h_S_)
        (constant (F := Ideal) S_ .f32 0x45000000#32)
      = fun _ => ((loss E W lab : ℝ) : EReal) := by
  funext i0
  have hcast : ∀ b : Fin 2048, shapeCast S2048 O shapeCasts_S2048x1_S2048 (ix1 b) = ((nll E W lab b : ℝ) : EReal) := by
    intro b
    rw [shapeCast_apply O shapeCasts_S2048x1_S2048 (ix1 b) (ix2 b (0 : Fin 1)) (by
      rw [Shape.rowMajor_val_two, Shape.rowMajor_val_one]
      show b.val * 1 + 0 = b.val
      omega), hO b]
  simp only [Host.divf, Host.reduceAdd, Ideal.hostDivf_def, Ideal.hostReduceAdd_def, constant, Ideal.ofBits_def]
  have hsum : (∑ k : S2048.Idx, shapeCast S2048 O shapeCasts_S2048x1_S2048 k)
      = ∑ b : Fin 2048, ((nll E W lab b : ℝ) : EReal) := by
    rw [← Equiv.sum_comp idxEquiv1.symm]
    exact Finset.sum_congr rfl fun b _ => hcast b
  rw [Ideal.hostReduceAdd_total reducesTo_S2048_S_d0 (fun b => b.elim0) _ _ i0, hsum, zero_coe, c2048_coe, Cert.Spec.coe_sum, ← EReal.coe_add, Ideal.div_coe (by norm_num : (2048 : ℝ) ≠ 0), ← EReal.coe_mul]
  refine congrArg (fun x : ℝ => (x : EReal)) ?_
  unfold loss
  ring

end Cert.KernelIdeal.Math

end
-- ==== Proof.KRunI.lean ====
/-
  The run of the idealized kernel with its result named: at the extended reals, for real-valued inputs and labels
  in range, the program ends with its scalar result at the mean loss.

  Between grid points the four scratch arrays are held at SOME state satisfying the closed form `InvAt` for the
  class tiles folded in so far (nothing at the start of a row tile). Each grid point carries it one class tile
  further (`inv_step`); at the last class tile the output block is written at the rows' losses (`inv_out`), which
  the two write-backs place in the result array; the host operations after the region average it (`tail_value`).
-/
import proofs.«401782_j48017734369761_2_alg».proof.Proof.KFrame
import proofs.«401782_j48017734369761_2_alg».proof.Proof.KPieces
import proofs.«401782_j48017734369761_2_alg».proof.Proof.KBlocks
import proofs.«401782_j48017734369761_2_alg».proof.Proof.KMath

set_option maxRecDepth 16384

noncomputable section

namespace Cert.KernelIdeal.RunI

open Cert.KernelIdeal Cert.KernelIdeal.Gen Cert.KernelIdeal.St Cert.KernelIdeal.Body Cert.KernelIdeal.Math Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
variable (E : Fin 2048 → Fin 512 → ℝ) (W : Fin 50000 → Fin 512 → ℝ) (lab : Fin 2048 → Nat)

/-- The inputs are real-valued and the labels in range, on every core. -/
structure Hyp : Prop where
  hE : ∀ (c : Dev nD) (b : Fin 2048) (d : Fin 512), (m ((c.tc : Thread nD τ).loc main_arg0) : S2048x512.Idx → EReal) (ix2 b d) = ((E b d : ℝ) : EReal)
  hW : ∀ (c : Dev nD) (k : Fin 50000) (d : Fin 512), (m ((c.tc : Thread nD τ).loc main_arg2) : S50000x512.Idx → EReal) (ix2 k d) = ((W k d : ℝ) : EReal)
  hL : ∀ (c : Dev nD) (b : Fin 2048), ((m ((c.tc : Thread nD τ).loc main_arg1) : S2048.Idx → BitVec 32) (ix1 b)).toNat = lab b
  hlab : ∀ b, lab b < 50000

/-- The row tile of position `n` of the grid's 80 points (and of the position after the last). -/
def itOf (n : ℕ) : Fin 2 := ⟨n / 40 % 2, Nat.mod_lt _ (by decide)⟩

/-- The output block of row tile `it`: its 1024 rows' losses. -/
def outBlk (it : Fin 2) : Vec Ideal S1024x1 .f32 :=
  fun y => ((nll E W lab (rowOf it ⟨(y 0).val, idx2_lt0 y⟩) : ℝ) : EReal)

/-- The region invariant before position `n`: the scratch arrays at some state in the closed form of the class
    tiles folded in so far, and the generator register at some state. -/
def PhiI (c : Dev nD) (n : ℕ) : sProp 𝕄 :=
  iprop((∃ s : Scr Ideal, ⌜InvAt E W lab (itOf n) (n % 40) s⌝ ∗ owns (c : Thread nD τ) scM6 fullShare s.m ∗ owns (c : Thread nD τ) scM7 fullShare s.l
      ∗ owns (c : Thread nD τ) scM8 fullShare s.ll ∗ owns (c : Thread nD τ) scM9 fullShare s.eb) ∗ (∃ r, prngReg c r))

/-- The proof data: the arrays as the region finds them; each input's buffer at its block; the output's buffer, where
    the body writes it, at the row tile's losses. -/
def datsI (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => (0 : EReal)) (iblk m c 1 t)
    | ⟨2, _⟩ => iblk m c 2 t
    | ⟨3, _⟩ => outBlk E W lab (itOf t.val)
  Φ t := PhiI E W lab c t.val
  q _ := fullShare
  owed _ := 0

theorem A_eqI (c : Dev nD) (w : Fin cfg0.W) : (datsI m E W lab 0 c).A w = V m c (Pipeline.arrRef spec0 w) := by
  dsimp only [datsI]
theorem afterI_0 (c : Dev nD) (t : Fin cfg0.N) : (datsI m E W lab 0 c).after 0 t = iblk m c 0 t := by dsimp only [datsI]
theorem afterI_1 (c : Dev nD) (t : Fin cfg0.N) :
    (datsI m E W lab 0 c).after 1 t = (cfg0.win 1).fill (cfg0.grid.coords t) (fun _ => (0 : EReal)) (iblk m c 1 t) := by dsimp only [datsI]
theorem afterI_2 (c : Dev nD) (t : Fin cfg0.N) : (datsI m E W lab 0 c).after 2 t = iblk m c 2 t := by dsimp only [datsI]
theorem afterI_3 (c : Dev nD) (t : Fin cfg0.N) : (datsI m E W lab 0 c).after 3 t = outBlk E W lab (itOf t.val) := by dsimp only [datsI]

theorem beforeI_0 (c : Dev nD) (t : Fin cfg0.N) (d) : (datsI m E W lab 0 c).before 0 t d = iblk m c 0 t :=
  before0_0_of m (datsI m E W lab 0 c) (A_eqI m E W lab c 0) (afterI_0 m E W lab c) t d
theorem beforeI_2 (c : Dev nD) (t : Fin cfg0.N) (d) : (datsI m E W lab 0 c).before 2 t d = iblk m c 2 t :=
  before0_2_of m (datsI m E W lab 0 c) (A_eqI m E W lab c 2) (afterI_2 m E W lab c) t d
theorem beforeI_1 (c : Dev nD) (t : Fin cfg0.N) (d) :
    (datsI m E W lab 0 c).before 1 t d = (cfg0.win 1).fill (cfg0.grid.coords t) d (iblk m c 1 t) := by
  unfold Dat.before; rw [if_pos (fetch0_1 t)]
  unfold Dat.fetched Dat.blockOf iblk; rw [A_eqI]

/-- The output window is idle away from the last class tile, and live at it. -/
theorem idle3_of : ∀ t : Fin cfg0.N, ¬t.val % 40 = 39 → cfg0.idle 3 (cfg0.grid.coords t) = true :=
  (by decide +kernel : ∀ t : Fin grid0.N, ¬t.val % 40 = 39 → cfg0.idle 3 (grid0.coords t) = true)
theorem live3_of : ∀ t : Fin cfg0.N, t.val % 40 = 39 → cfg0.idle 3 (cfg0.grid.coords t) = false :=
  (by decide +kernel : ∀ t : Fin grid0.N, t.val % 40 = 39 → cfg0.idle 3 (grid0.coords t) = false)
theorem noflush3_of (t : Fin cfg0.N) (h : ¬t.val % 40 = 39) : (cfg0.win 3).flush t = false := by
  cases hf : (cfg0.win 3).flush t
  · rfl
  · exact absurd ((flush0_3 t).mp hf) h

/-! ## The blocks, read at an index -/

variable {m E W lab}

theorem it_eq (t : Fin cfg0.N) : (itOf t.val).val = t.val / 40 := by
  have hN : t.val < 80 := lt_of_lt_of_eq t.isLt (show cfg0.N = 80 from N_0)
  show t.val / 40 % 2 = t.val / 40
  omega

theorem hX0_of (H : Hyp m E W lab) (c : Dev nD) (t : Fin cfg0.N) (r : Fin 1024) (d : Fin 512) :
    (iblk m c 0 t : S1024x512.Idx → EReal) (ix2 r d) = ((E (rowOf (itOf t.val) r) d : ℝ) : EReal) := by
  have hr : (⟨1024 * (t.val / 40) + r.val, Blocks.row0_lt t r⟩ : Fin 2048) = rowOf (itOf t.val) r :=
    Fin.ext (by show 1024 * (t.val / 40) + r.val = 1024 * (itOf t.val).val + r.val; rw [it_eq])
  rw [Blocks.iblk0_apply m c t r d, hr, H.hE c]

theorem hX2_of (H : Hyp m E W lab) (c : Dev nD) (t : Fin cfg0.N) (r : Fin 1024) :
    ((iblk m c 2 t : S1024x1.Idx → BitVec 32) (ix2 r (0 : Fin 1))).toNat = lab (rowOf (itOf t.val) r) := by
  have hr : (⟨1024 * (t.val / 40) + r.val, Blocks.row0_lt t r⟩ : Fin 2048) = rowOf (itOf t.val) r :=
    Fin.ext (by show 1024 * (t.val / 40) + r.val = 1024 * (itOf t.val).val + r.val; rw [it_eq])
  rw [Blocks.iblk2_apply m c t r, hr, H.hL c]

theorem hX1_of (H : Hyp m E W lab) (c : Dev nD) (t : Fin cfg0.N) (d : S1280x512.Idx → EReal) (k : Fin 1280) (dd : Fin 512)
    (h : 1280 * (t.val % 40) + k.val < 50000) :
    ((cfg0.win 1).fill (cfg0.grid.coords t) d (iblk m c 1 t) : S1280x512.Idx → EReal) (ix2 k dd) = ((W ⟨1280 * (t.val % 40) + k.val, h⟩ dd : ℝ) : EReal) := by
  rw [← H.hW c]
  exact Blocks.iblk1_fill_apply m c t d k dd h

variable (m E W lab)

/-! ## The body obligation -/

/-- What the body is called with at point `t`, -/
def bodyPreI (c : Dev nD) (t : Fin cfg0.N) : sProp 𝕄 :=
  iprop((datsI m E W lab 0 c).Φ t.castSucc ∗ (datsI m E W lab 0 c).owesAt () t.castSucc
    ∗ (∃ d, owns (c : Thread nD τ) (ms0_0 t) fullShare ((datsI m E W lab 0 c).before 0 t d))
    ∗ (∃ d, owns (c : Thread nD τ) (ms0_1 t) fullShare ((datsI m E W lab 0 c).before 1 t d))
    ∗ (∃ d, owns (c : Thread nD τ) (ms0_2 t) fullShare ((datsI m E W lab 0 c).before 2 t d))
    ∗ (∃ d, owns (c : Thread nD τ) (ms0_3 t) fullShare ((datsI m E W lab 0 c).before 3 t d)))

/-- and what it returns. -/
def bodyPostI (c : Dev nD) (t : Fin cfg0.N) : sProp 𝕄 :=
  iprop((datsI m E W lab 0 c).Φ t.succ ∗ (datsI m E W lab 0 c).owesAt () t.succ
    ∗ owns (c : Thread nD τ) (ms0_0 t) fullShare ((datsI m E W lab 0 c).after 0 t)
    ∗ (∃ d, owns (c : Thread nD τ) (ms0_1 t) fullShare ((cfg0.win 1).fill (cfg0.grid.coords t) d ((cfg0.win 1).cut (cfg0.grid.coords t) ((datsI m E W lab 0 c).after 1 t))))
    ∗ owns (c : Thread nD τ) (ms0_2 t) fullShare ((datsI m E W lab 0 c).after 2 t)
    ∗ (datsI m E W lab 0 c).leaves 3 t)

/-- One point's step of the closed form, from what the staging buffers hold. -/
theorem step_inv (H : Hyp m E W lab) (c : Dev nD) (t : Fin cfg0.N) (d1 : S1280x512.Idx → EReal) (s : Scr Ideal)
    (hs : InvAt E W lab (itOf t.val) (t.val % 40) s) :
    InvAt E W lab (itOf t.val) (t.val % 40 + 1)
      (step (grid0.coords t) (iblk m c 0 t) ((cfg0.win 1).fill (cfg0.grid.coords t) d1 (iblk m c 1 t)) (iblk m c 2 t) s) :=
  inv_step E W lab (grid0.coords t) (itOf t.val) (t.val % 40) (Nat.mod_lt _ (by decide))
    ((Blocks.coords_val t).1.trans (it_eq t).symm) (Blocks.coords_val t).2
    _ _ _ (hX0_of H c t) (fun k dd h => hX1_of H c t d1 k dd h) (hX2_of H c t) H.hlab s hs

set_option maxHeartbeats 4000000 in
theorem sound_bodyI (H : Hyp m E W lab) (c : Dev nD) (t : Fin cfg0.N) :
    bodyPreI m E W lab c t ⊢ wp frame (wpE (defs₀ (F := Ideal)) Variants.none c none) Set.univ (bodyAt0 t) (fun _ => bodyPostI m E W lab c t) := by
  unfold bodyPreI bodyPostI bodyAt0
  simp only [beforeI_0, beforeI_1, beforeI_2, afterI_0, afterI_1, afterI_2]
  rw [show (datsI m E W lab 0 c).owesAt () t.succ = (datsI m E W lab 0 c).owesAt () t.castSucc from rfl]
  rw [show (datsI m E W lab 0 c).Φ t.succ = PhiI E W lab c (t.val + 1) from rfl, show (datsI m E W lab 0 c).Φ t.castSucc = PhiI E W lab c t.val from rfl]
  unfold PhiI
  have hN : t.val < 80 := lt_of_lt_of_eq t.isLt (show cfg0.N = 80 from N_0)
  have hcut : ∀ d, (cfg0.win 1).fill (cfg0.grid.coords t) d ((cfg0.win 1).cut (cfg0.grid.coords t) ((cfg0.win 1).fill (cfg0.grid.coords t) (fun _ => (0 : EReal)) (iblk m c 1 t)))
      = (cfg0.win 1).fill (cfg0.grid.coords t) d (iblk m c 1 t) := fun d => by rw [(cfg0.win 1).cut_fill]
  by_cases h0 : t.val % 40 = 0
  · have hc0 : cond0_0 (grid0.coords t) := (hcond0_0 t).mpr h0
    have hc1 : ¬cond0_1 (grid0.coords t) := fun h => by have := (hcond0_1 t).mp h; omega
    have h39 : ¬t.val % 40 = 39 := by omega
    rw [Dat.leaves_idle (datsI m E W lab 0 c) 3 t (idle3_of t h39) (noflush3_of t h39)]
    iintro ⟨⟨⟨%s, %hs, HS6, HS7, HS8, HS9⟩, Hg⟩, Ho, ⟨%d0, H0⟩, ⟨%d1, H1⟩, ⟨%d2, H2⟩, ⟨%d3, H3⟩⟩
    have hst := step_inv m E W lab H c t d1 s hs
    have hP := piecesA c (grid0.coords t) (ms0_0 t) (hs0_0 t) (ms0_1 t) (hs0_1 t) (ms0_2 t) (hs0_2 t) (ms0_3 t) (hs0_3 t) scM6 (Memref.isWhole_whole _) scM7 (Memref.isWhole_whole _) scM8 (Memref.isWhole_whole _) scM9 (Memref.isWhole_whole _) hc0 hc1
      (iblk m c 0 t) ((cfg0.win 1).fill (cfg0.grid.coords t) d1 (iblk m c 1 t)) (iblk m c 2 t) s
    iapply ((kernelRun0_A c (grid0.coords t) (ms0_0 t) (hs0_0 t) (ms0_1 t) (hs0_1 t) (ms0_2 t) (hs0_2 t) (ms0_3 t) (hs0_3 t) scM6 (Memref.isWhole_whole _) scM7 (Memref.isWhole_whole _) scM8 (Memref.isWhole_whole _) scM9 (Memref.isWhole_whole _) hc0 hc1 (iblk m c 0 t) ((cfg0.win 1).fill (cfg0.grid.coords t) d1 (iblk m c 1 t)) (iblk m c 2 t)).2.2.2.2 _ Set.univ _)
    isplitl [H0]; · iexact H0
    isplitl [H1]; · iexact H1
    isplitl [H2]; · iexact H2
    isplitl [H3]; · iexact H3
    isplitl [HS6]; · iexists _; iexact HS6
    isplitl [HS7]; · iexists _; iexact HS7
    isplitl [HS8]; · iexists _; iexact HS8
    isplitl [HS9]; · iexists _; iexact HS9
    iintro ⟨H0, H1, H2, H3, ⟨%e6, HS6⟩, ⟨%e7, HS7⟩, ⟨%e8, HS8⟩, ⟨%e9, HS9⟩⟩
    isplitl [HS6 HS7 HS8 HS9 Hg]
    · isplitl [HS6 HS7 HS8 HS9]
      · iexists (step (grid0.coords t) (iblk m c 0 t) ((cfg0.win 1).fill (cfg0.grid.coords t) d1 (iblk m c 1 t)) (iblk m c 2 t) s)
        isplitr
        · ipureintro
          have e1 : itOf (t.val + 1) = itOf t.val := Fin.ext (by show (t.val + 1) / 40 % 2 = t.val / 40 % 2; omega)
          have e2 : (t.val + 1) % 40 = t.val % 40 + 1 := by omega
          rw [e1, e2]; exact hst
        isplitl [HS6]; · rw [← hP.1 e6]; iapply (owns_intro (c : Thread nD τ) scM6 fullShare _); iexact HS6
        isplitl [HS7]; · rw [← hP.2.1 e7]; iapply (owns_intro (c : Thread nD τ) scM7 fullShare _); iexact HS7
        isplitl [HS8]; · rw [← hP.2.2.1 e8]; iapply (owns_intro (c : Thread nD τ) scM8 fullShare _); iexact HS8
        rw [← hP.2.2.2 e9]; iapply (owns_intro (c : Thread nD τ) scM9 fullShare _); iexact HS9
      iexact Hg
    isplitl [Ho]; · iexact Ho
    isplitl [H0]; · iexact H0
    isplitl [H1]; · iexists d1; rw [hcut]; iexact H1
    isplitl [H2]; · iexact H2
    iexists d3; iexact H3
  · by_cases h1 : t.val % 40 = 39
    · have hc0 : ¬cond0_0 (grid0.coords t) := fun h => h0 ((hcond0_0 t).mp h)
      have hc1 : cond0_1 (grid0.coords t) := (hcond0_1 t).mpr h1
      rw [show (datsI m E W lab 0 c).leaves 3 t = owns (c : Thread nD τ) (ms0_3 t) fullShare ((datsI m E W lab 0 c).after 3 t) from by
        unfold Dat.leaves; rw [live3_of t h1], afterI_3]
      iintro ⟨⟨⟨%s, %hs, HS6, HS7, HS8, HS9⟩, Hg⟩, Ho, ⟨%d0, H0⟩, ⟨%d1, H1⟩, ⟨%d2, H2⟩, ⟨%d3, H3⟩⟩
      have hst := step_inv m E W lab H c t d1 s hs
      have hP := piecesC c (grid0.coords t) (ms0_0 t) (hs0_0 t) (ms0_1 t) (hs0_1 t) (ms0_2 t) (hs0_2 t) (ms0_3 t) (hs0_3 t) scM6 (Memref.isWhole_whole _) scM7 (Memref.isWhole_whole _) scM8 (Memref.isWhole_whole _) scM9 (Memref.isWhole_whole _) hc0 hc1
        (iblk m c 0 t) ((cfg0.win 1).fill (cfg0.grid.coords t) d1 (iblk m c 1 t)) (iblk m c 2 t) s.m s.l s.ll s.eb
      have hout : St.outv (step (grid0.coords t) (iblk m c 0 t) ((cfg0.win 1).fill (cfg0.grid.coords t) d1 (iblk m c 1 t)) (iblk m c 2 t) s) = outBlk E W lab (itOf t.val) := by
        funext y
        obtain ⟨r, q, rfl⟩ : ∃ (r : Fin 1024) (q : Fin 1), y = ix2 r q := ⟨y 0, y 1, eq_ix2 y⟩
        obtain rfl : q = 0 := Subsingleton.elim _ _
        rw [h1] at hst
        exact inv_out E W lab (itOf t.val) H.hlab _ hst r
      iapply ((kernelRun0_C c (grid0.coords t) (ms0_0 t) (hs0_0 t) (ms0_1 t) (hs0_1 t) (ms0_2 t) (hs0_2 t) (ms0_3 t) (hs0_3 t) scM6 (Memref.isWhole_whole _) scM7 (Memref.isWhole_whole _) scM8 (Memref.isWhole_whole _) scM9 (Memref.isWhole_whole _) hc0 hc1 (iblk m c 0 t) ((cfg0.win 1).fill (cfg0.grid.coords t) d1 (iblk m c 1 t)) (iblk m c 2 t) s.m s.l s.ll s.eb).2.2.2.2 Set.univ _)
      isplitl [H0]; · iexact H0
      isplitl [H1]; · iexact H1
      isplitl [H2]; · iexact H2
      isplitl [H3]; · iexists _; iexact H3
      isplitl [HS6]; · iexact HS6
      isplitl [HS7]; · iexact HS7
      isplitl [HS8]; · iexact HS8
      isplitl [HS9]; · iexact HS9
      iintro ⟨H0, H1, H2, ⟨%e5, H3⟩, ⟨%e6, HS6⟩, ⟨%e7, HS7⟩, ⟨%e8, HS8⟩, HS9⟩
      isplitl [HS6 HS7 HS8 HS9 Hg]
      · isplitl [HS6 HS7 HS8 HS9]
        · iexists (step (grid0.coords t) (iblk m c 0 t) ((cfg0.win 1).fill (cfg0.grid.coords t) d1 (iblk m c 1 t)) (iblk m c 2 t) s)
          isplitr
          · ipureintro
            have e2 : (t.val + 1) % 40 = 0 := by omega
            rw [e2]; exact Or.inl rfl
          isplitl [HS6]; · rw [← hP.1 e6]; iapply (owns_intro (c : Thread nD τ) scM6 fullShare _); iexact HS6
          isplitl [HS7]; · rw [← hP.2.1 e7]; iapply (owns_intro (c : Thread nD τ) scM7 fullShare _); iexact HS7
          isplitl [HS8]; · rw [← hP.2.2.1 e8]; iapply (owns_intro (c : Thread nD τ) scM8 fullShare _); iexact HS8
          rw [hP.2.2.2.1]; iexact HS9
        iexact Hg
      isplitl [Ho]; · iexact Ho
      isplitl [H0]; · iexact H0
      isplitl [H1]; · iexists d1; rw [hcut]; iexact H1
      isplitl [H2]; · iexact H2
      rw [← hout, ← hP.2.2.2.2 e5]; iapply (owns_intro (c : Thread nD τ) (ms0_3 t) fullShare _); iexact H3
    · have hc0 : ¬cond0_0 (grid0.coords t) := fun h => h0 ((hcond0_0 t).mp h)
      have hc1 : ¬cond0_1 (grid0.coords t) := fun h => h1 ((hcond0_1 t).mp h)
      rw [Dat.leaves_idle (datsI m E W lab 0 c) 3 t (idle3_of t h1) (noflush3_of t h1)]
      iintro ⟨⟨⟨%s, %hs, HS6, HS7, HS8, HS9⟩, Hg⟩, Ho, ⟨%d0, H0⟩, ⟨%d1, H1⟩, ⟨%d2, H2⟩, ⟨%d3, H3⟩⟩
      have hst := step_inv m E W lab H c t d1 s hs
      have hP := piecesB c (grid0.coords t) (ms0_0 t) (hs0_0 t) (ms0_1 t) (hs0_1 t) (ms0_2 t) (hs0_2 t) (ms0_3 t) (hs0_3 t) scM6 (Memref.isWhole_whole _) scM7 (Memref.isWhole_whole _) scM8 (Memref.isWhole_whole _) scM9 (Memref.isWhole_whole _) hc0 hc1
        (iblk m c 0 t) ((cfg0.win 1).fill (cfg0.grid.coords t) d1 (iblk m c 1 t)) (iblk m c 2 t) s.m s.l s.ll s.eb
      iapply ((kernelRun0_B c (grid0.coords t) (ms0_0 t) (hs0_0 t) (ms0_1 t) (hs0_1 t) (ms0_2 t) (hs0_2 t) (ms0_3 t) (hs0_3 t) scM6 (Memref.isWhole_whole _) scM7 (Memref.isWhole_whole _) scM8 (Memref.isWhole_whole _) scM9 (Memref.isWhole_whole _) hc0 hc1 (iblk m c 0 t) ((cfg0.win 1).fill (cfg0.grid.coords t) d1 (iblk m c 1 t)) (iblk m c 2 t) s.m s.l s.ll s.eb).2.2.2 _ Set.univ _)
      isplitl [H0]; · iexact H0
      isplitl [H1]; · iexact H1
      isplitl [H2]; · iexact H2
      isplitl [H3]; · iexact H3
      isplitl [HS6]; · iexact HS6
      isplitl [HS7]; · iexact HS7
      isplitl [HS8]; · iexact HS8
      isplitl [HS9]; · iexact HS9
      iintro ⟨H0, H1, H2, H3, ⟨%e6, HS6⟩, ⟨%e7, HS7⟩, ⟨%e8, HS8⟩, HS9⟩
      isplitl [HS6 HS7 HS8 HS9 Hg]
      · isplitl [HS6 HS7 HS8 HS9]
        · iexists (step (grid0.coords t) (iblk m c 0 t) ((cfg0.win 1).fill (cfg0.grid.coords t) d1 (iblk m c 1 t)) (iblk m c 2 t) s)
          isplitr
          · ipureintro
            have e1 : itOf (t.val + 1) = itOf t.val := Fin.ext (by show (t.val + 1) / 40 % 2 = t.val / 40 % 2; omega)
            have e2 : (t.val + 1) % 40 = t.val % 40 + 1 := by omega
            rw [e1, e2]; exact hst
          isplitl [HS6]; · rw [← hP.1 e6]; iapply (owns_intro (c : Thread nD τ) scM6 fullShare _); iexact HS6
          isplitl [HS7]; · rw [← hP.2.1 e7]; iapply (owns_intro (c : Thread nD τ) scM7 fullShare _); iexact HS7
          isplitl [HS8]; · rw [← hP.2.2.1 e8]; iapply (owns_intro (c : Thread nD τ) scM8 fullShare _); iexact HS8
          rw [hP.2.2.2]; iexact HS9
        iexact Hg
      isplitl [Ho]; · iexact Ho
      isplitl [H0]; · iexact H0
      isplitl [H1]; · iexists d1; rw [hcut]; iexact H1
      isplitl [H2]; · iexact H2
      iexists d3; iexact H3

/-- The library's body obligation, at every point. -/
theorem body_obligationI (H : Hyp m E W lab) (c : Dev nD) :
    Pipeline.BodyObligationLoose (datsI m E W lab 0 c) (defs₀ (F := Ideal)) Variants.none () Set.univ := fun t => by
  rw [bigSep_W0, bigSep_W0]
  exact sound_bodyI m E W lab H c t

/-- What the launch hands the region is the invariant before the first point: any state is in the closed form of
    no tiles. -/
theorem hinI (c : Dev nD) : Pipeline.ΦA spec0 c ⊢ (datsI m E W lab 0 c).Φ 0 := by
  rw [show (datsI m E W lab 0 c).Φ 0 = PhiI E W lab c 0 from rfl, PhiA0_eq]
  unfold PhiI
  iintro ⟨⟨⟨%d6, H6⟩, ⟨%d7, H7⟩, ⟨%d8, H8⟩, ⟨%d9, H9⟩⟩, Hg⟩
  isplitl [H6 H7 H8 H9]
  · iexists (⟨d6, d7, d8, d9⟩ : Scr Ideal)
    isplitr; · ipureintro; exact Or.inl rfl
    isplitl [H6]; · iexact H6
    isplitl [H7]; · iexact H7
    isplitl [H8]; · iexact H8
    iexact H9
  iexact Hg

/-- After the last point the invariant gives the class invariant back: the state is forgotten. -/
theorem houtI (c : Dev nD) : (datsI m E W lab 0 c).Φ (Fin.last cfg0.N) ⊢ Pipeline.ΦA spec0 c := by
  rw [show (datsI m E W lab 0 c).Φ (Fin.last cfg0.N) = PhiI E W lab c (Fin.last cfg0.N).val from rfl, PhiA0_eq]
  unfold PhiI
  iintro ⟨⟨%s, %hs, H6, H7, H8, H9⟩, Hg⟩
  isplitl [H6 H7 H8 H9]
  · isplitl [H6]; · iexists _; iexact H6
    isplitl [H7]; · iexists _; iexact H7
    isplitl [H8]; · iexists _; iexact H8
    iexists _; iexact H9
  iexact Hg

set_option backward.isDefEq.respectTransparency.types false in
/-- The run: every array of the pipeline ends at what the library computes from the proof data, every other
    buffer as the host operations after the region leave it. -/
theorem run_mainI (H : Hyp m E W lab) : θ_run defs (onTc (τ := τ) (main (F := Ideal))) (s₀ m ρ)
    (Pipeline.FramePost cfgs (datsI m E W lab) 0 (Pipeline.afterTail₀ cfgs (datsI m E W lab) 0 (V0 m) [hostOps1])) :=
  Pipeline.θ_run_frame_around_track cfgs (datsI m E W lab) (0 : Fin 1) launch0 defs₀ Variants.none m ρ main
    (hbody := fun c => body_obligationI m E W lab H c) (hshare := fun c => (datsI m E W lab 0 c).share_full fun _ => rfl)
    (howed := fun _ _ => rfl) (V₀ := V0 m) (opss := [hostOps1]) (hsub := sfx_sub) (hfresh := sfx_fresh) (hkeep := sfx_keeps)
    (hmain := hmain m Variants.none) (hA := A_eqI m E W lab) (hin := hinI m E W lab) (hout := houtI m E W lab)

/-- The result array after the region: row `b` holds row `b`'s loss. -/
theorem out_rows (c : Dev nD) (b : Fin 2048) :
    ((datsI m E W lab 0 c).arrAt 3 cfg0.N : S2048x1.Idx → EReal) (ix2 b (0 : Fin 1)) = ((nll E W lab b : ℝ) : EReal) := by
  rw [Blocks.out_final (datsI m E W lab 0 c) b, afterI_3]
  show ((nll E W lab (rowOf (itOf (40 * (b.val / 1024) + 39)) ⟨b.val % 1024, _⟩) : ℝ) : EReal) = _
  congr 2
  have hb : b.val < 2048 := b.isLt
  exact Fin.ext (by show 1024 * ((40 * (b.val / 1024) + 39) / 40 % 2) + b.val % 1024 = b.val; omega)

/-- The scalar result after the host operations that follow the region: the mean loss. -/
theorem tail_result (c : Dev nD) :
    Pipeline.afterTail₀ cfgs (datsI m E W lab) 0 (V0 m) [hostOps1] c main_v4 = fun _ => ((loss E W lab : ℝ) : EReal) := by
  unfold Pipeline.afterTail₀
  show StableHlo.after hostOps1 _ (Proc.devRef .tc main_v4) = _
  after_results
  rw [Pipeline.withArrays_arr spec0 launch0.win.arr_inj c _ _ 3]
  exact tail_value E W lab _ (out_rows m E W lab c)

/-- THE VALUE RUN: the program ends with its result at the mean loss and its arguments unchanged. -/
theorem value_run (H : Hyp m E W lab) : θ_run defs (onTc (τ := τ) (main (F := Ideal))) ⟨m, fun _ => 0, ρ⟩ (fun r => ∀ c : Dev nD,
      r.2.mem ((c.tc : Thread nD τ).loc main_v4) = (fun _ => ((loss E W lab : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_result m E W lab c),
     ((h c).1 0).trans (((datsI m E W lab 0 c).arrAt_in 0 rfl _).trans ((A_eqI m E W lab c 0).trans (V_main_arg0 m c))),
     (((h c).2 main_arg1 (Pipeline.mem_restRefs_of main_arg1 (by decide) (by decide))).trans (W_main_arg1 m (datsI m E W lab) c)),
     ((h c).1 1).trans (((datsI m E W lab 0 c).arrAt_in 1 rfl _).trans ((A_eqI m E W lab c 1).trans (V_main_arg2 m c)))⟩)
    (run_mainI m ρ E W lab H)

end Cert.KernelIdeal.RunI

end
-- ==== Proof.PreFacts.lean ====
/-
  What the precondition says of the three inputs: every embedding and every weight is a real number (finite), and
  every label, read as a natural number, is below the number of classes (the signed comparisons `0 ≤ label` and
  `label < 50000` together).
-/
import proofs.«401782_j48017734369761_2_alg».proof.Proof.Gen.Pre_finite_inputs
import Idealize.ShloMosaic.PureOps.Ideal
import Idealize.ShloMosaic.Lib.ValueIdx
import Idealize.ShloMosaic.Lib.ReduceAll

noncomputable section

namespace Cert.PreFacts

open Idealize.ShloMosaic Cert.Pre_finite_inputs

variable [Cert.Pre_finite_inputs.Facts]

/-- The rank-0 shape has one index. -/
private instance : Subsingleton S_.Idx := ⟨fun a b => funext fun d => d.elim0⟩

/-- An extended real whose absolute value `max x (−x)` is below `+∞` (the word `0x7F800000`) is a real:
    at `⊥` and at `⊤` the absolute value is `⊤`. -/
private theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A 32-bit word that is `≥ 0` and `< 50000` as a signed number is below 50000 as a natural number. -/
private theorem toNat_lt_of_signed (w : BitVec 32) (h0 : IntOp.cmpi .sge w 0#32 = 1#1)
    (h1 : IntOp.cmpi .slt w 50000#32 = 1#1) : w.toNat < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  have hw := w.isLt
  rw [BitVec.toInt_eq_toNat_cond] at h0 h1
  split at h0 <;> omega

theorem of_pre (a0 : FVec Ideal S2048x512 .f32) (a1 : IVec S2048 32) (a2 : FVec Ideal S50000x512 .f32)
    (h : Cert.Pre_finite_inputs.fn (F := Ideal) a0 a1 a2 = fun _ => 1#1) :
    (∀ i, ∃ r : ℝ, a0 i = (r : EReal)) ∧ (∀ i, ∃ r : ℝ, a2 i = (r : EReal)) ∧ (∀ i, (a1 i).toNat < 50000) := by
  have e := congrFun h ValueIdx.ix0
  dsimp only [Cert.Pre_finite_inputs.fn, Cert.Pre_finite_inputs.fn_part1] at e
  simp only [andi] at e
  rw [IntOp.andi_eq_one, IntOp.andi_eq_one, IntOp.andi_eq_one] at e
  obtain ⟨⟨⟨h0, h2⟩, hge⟩, hlt⟩ := e
  refine ⟨fun i => ?_, fun i => ?_, fun i => ?_⟩
  · exact real_of_abs_lt_top (a0 i) (Host.reduce_andi_all _ _ _ _ _ h0 i)
  · exact real_of_abs_lt_top (a2 i) (Host.reduce_andi_all _ _ _ _ _ h2 i)
  · exact toNat_lt_of_signed (a1 i) (Host.reduce_andi_all _ _ _ _ _ hge i) (Host.reduce_andi_all _ _ _ _ _ hlt i)

end Cert.PreFacts

end
-- ==== Proof.RefIdx.lean ====
/-
  The reference's index-dependent operations, each read at an index over abstract operands.

  The scatter: with the index pairs (row b, label of b), every label in range, update j lands at (j, label of j); rows
  are distinct, so the element (b, c) receives the update of row b when c is b's label and nothing otherwise.
  The gather: with the start index of row b its label, in range (so the clamp is the identity), the result's row b
  is the operand at (b, label of b).
  The concatenation of two columns: column 0 is the first piece, column 1 the second.
  The row maximum from the bottom element over a nonempty row of reals is a real.
  The fold of "and" from 1 over words all 1 is 1.
  A word below 50000 read as a natural number is non-negative as a signed word: the "negative index plus extent"
  select returns it unchanged, its signed reading is that number, and it lies between 0 and 49999; likewise a row
  number below 2048.
-/
import proofs.«401782_j48017734369761_2_alg».proof.ReferenceIdeal
import proofs.«401782_j48017734369761_2_alg».proof.Proof.Spec
import proofs.«401782_j48017734369761_2_alg».proof.Proof.SpecConsts
import Idealize.ShloMosaic.Lib.ValueIdx
import Idealize.ShloMosaic.Lib.Pipeline.Value
import Idealize.ShloMosaic.Lib.ReduceAll
import Idealize.ShloMosaic.PureOps.Reduce
import Idealize.ShloMosaic.PureOps.Ideal.Laws

noncomputable section

open scoped BigOperators

namespace Cert.ReferenceIdeal.RefIdx

open Idealize.ShloMosaic Idealize.ShloMosaic.ValueIdx Cert.ReferenceIdeal Cert.Spec

variable [Cert.ReferenceIdeal.Facts]

/-! ## The scatter -/

abbrev dS := scatter_S2048x50000_S2048x2_S2048_n_01_01_1

theorem kept01 : S2048x50000.kept [0, 1] = [] := by decide

theorem sc_window (j : S2048.Idx) (a : Fin 2) : dS.window j a = 0 := by
  unfold ScatterDims.window
  rw [dif_neg (by show a ∉ S2048x50000.kept [0, 1]; rw [kept01]; exact List.not_mem_nil)]

theorem sc_siIdx (j : S2048.Idx) (c : Fin dS.scatterDimsToOperandDims.length) :
    dS.siIdx j c = ix2 (j 0) (⟨c.val, c.isLt⟩ : Fin 2) := by
  funext b
  match b with
  | ⟨0, _⟩ =>
    unfold ScatterDims.siIdx
    rw [dif_neg (by show ¬ (0 : Nat) = 1; decide)]
    unfold ScatterDims.siCoord
    apply Fin.ext
    simp only [Fin.val_cast]
    rfl
  | ⟨1, _⟩ =>
    unfold ScatterDims.siIdx
    rw [dif_pos (by show (1 : Nat) = 1; rfl)]
    rfl

theorem sc_start0 (j : S2048.Idx) (idx : IVec S2048x2 32) :
    dS.start j idx 0 = (idx (ix2 (j 0) (0 : Fin 2))).toInt := by
  unfold ScatterDims.start
  rw [dif_pos (by show (0 : Fin 2) ∈ [(0 : Fin 2), 1]; decide), sc_siIdx]
  rfl

theorem sc_start1 (j : S2048.Idx) (idx : IVec S2048x2 32) :
    dS.start j idx 1 = (idx (ix2 (j 0) (1 : Fin 2))).toInt := by
  unfold ScatterDims.start
  rw [dif_pos (by show (1 : Fin 2) ∈ [(0 : Fin 2), 1]; decide), sc_siIdx]
  rfl

theorem sc_result (j : S2048.Idx) (idx : IVec S2048x2 32) (r cc : Nat) (hr : r < 2048) (hc : cc < 50000)
    (h0 : (idx (ix2 (j 0) (0 : Fin 2))).toInt = r) (h1 : (idx (ix2 (j 0) (1 : Fin 2))).toInt = cc) :
    dS.resultIdx? j idx = some (ix2 (⟨r, hr⟩ : Fin 2048) (⟨cc, hc⟩ : Fin 50000)) := by
  unfold ScatterDims.resultIdx?
  have H : ∀ a : Fin 2, 0 ≤ dS.start j idx a + dS.window j a ∧ dS.start j idx a + dS.window j a < S2048x50000.size a := by
    intro a
    match a with
    | ⟨0, _⟩ =>
      rw [sc_window]
      have := sc_start0 j idx
      have e : dS.start j idx ⟨0, by decide⟩ = (r : Int) := by rw [← h0]; exact this
      rw [e]
      show (0 : Int) ≤ (r : Int) + ((0 : Nat) : Int) ∧ (r : Int) + ((0 : Nat) : Int) < ((2048 : Nat) : Int)
      omega
    | ⟨1, _⟩ =>
      rw [sc_window]
      have := sc_start1 j idx
      have e : dS.start j idx ⟨1, by decide⟩ = (cc : Int) := by rw [← h1]; exact this
      rw [e]
      show (0 : Int) ≤ (cc : Int) + ((0 : Nat) : Int) ∧ (cc : Int) + ((0 : Nat) : Int) < ((50000 : Nat) : Int)
      omega
  rw [dif_pos H]
  congr 1
  funext a
  match a with
  | ⟨0, _⟩ =>
    apply Fin.ext
    show (dS.start j idx 0 + ((dS.window j 0 : Nat) : Int)).toNat = r
    rw [sc_window, sc_start0, h0]; simp
  | ⟨1, _⟩ =>
    apply Fin.ext
    show (dS.start j idx 1 + ((dS.window j 1 : Nat) : Int)).toNat = cc
    rw [sc_window, sc_start1, h1]; simp

theorem scatter_apply (x : S2048x50000.Idx → EReal) (idx : IVec S2048x2 32) (upd : S2048.Idx → EReal)
    (lab : Fin 2048 → Nat) (hlab : ∀ b, lab b < 50000)
    (h0 : ∀ b : Fin 2048, (idx (ix2 b (0 : Fin 2))).toInt = b.val)
    (h1 : ∀ b : Fin 2048, (idx (ix2 b (1 : Fin 2))).toInt = lab b)
    (b : Fin 2048) (c : Fin 50000) :
    Ideal.hostScatterAdd dS x idx upd (ix2 b c) = x (ix2 b c) + (if c.val = lab b then upd (ix1 b) else 0) := by
  unfold Ideal.hostScatterAdd
  congr 1
  have hres : ∀ j : S2048.Idx, dS.resultIdx? j idx = some (ix2 (j 0) (⟨lab (j 0), hlab _⟩ : Fin 50000)) := fun j =>
    sc_result j idx (j 0).val (lab (j 0)) (j 0).isLt (hlab _) (h0 _) (h1 _)
  have hf : (Finset.univ.filter fun j : S2048.Idx => dS.resultIdx? j idx = some (ix2 b c))
      = if c.val = lab b then {ix1 b} else ∅ := by
    ext j
    rw [Finset.mem_filter, hres j]
    constructor
    · rintro ⟨-, h⟩
      have h' := Option.some.inj h
      have hb : j 0 = b := by have := congrFun h' (0 : Fin 2); exact this
      have hc' : (⟨lab (j 0), hlab _⟩ : Fin 50000) = c := by have := congrFun h' (1 : Fin 2); exact this
      have hcl : c.val = lab b := by rw [← hc', hb]
      rw [if_pos hcl, Finset.mem_singleton]
      subst hb
      exact eq_ix1 j
    · intro h
      refine ⟨Finset.mem_univ _, ?_⟩
      by_cases hcl : c.val = lab b
      · rw [if_pos hcl, Finset.mem_singleton] at h
        subst h
        congr 1
        show ix2 b (⟨lab b, hlab _⟩ : Fin 50000) = ix2 b c
        congr 1
        exact Fin.ext hcl.symm
      · rw [if_neg hcl] at h
        exact absurd h (Finset.notMem_empty _)
  rw [hf]
  by_cases hcl : c.val = lab b
  · rw [if_pos hcl, if_pos hcl, Finset.sum_singleton]
  · rw [if_neg hcl, if_neg hcl, Finset.sum_empty]

/-! ## The gather -/

abbrev dG := gather_S2048x50000_S2048x1x1_S2048x1_n_1_0_0_1_2_11

theorem keptG : S2048x50000.kept ([1] ++ [0]) = [] := by decide

theorem g_off (j : S2048x1.Idx) (a : Fin 2) : dG.offCoord j a = 0 :=
  dG.offCoord_eq_zero j a (by show a ∉ S2048x50000.kept ([1] ++ [0]); rw [keptG]; exact List.not_mem_nil)

theorem g_siCoord0 (j : S2048x1.Idx) (hb : (0 : Fin 3) ∈ dG.siKept) : (dG.siCoord j 0 hb).val = (j 0).val := by
  unfold GatherDims.siCoord
  simp only [Fin.val_cast]
  rfl

theorem g_siCoord1 (j : S2048x1.Idx) (hb : (1 : Fin 3) ∈ dG.siKept) : (dG.siCoord j 1 hb).val = (j 1).val := by
  unfold GatherDims.siCoord
  simp only [Fin.val_cast]
  rfl

theorem g_batch0 (j : S2048x1.Idx) : dG.batchCoord j 0 = (j 0).val := by
  unfold GatherDims.batchCoord
  rw [dif_pos (by show (0 : Fin 2) ∈ [(0 : Fin 2)]; decide)]
  exact g_siCoord0 j _

theorem g_batch1 (j : S2048x1.Idx) : dG.batchCoord j 1 = 0 :=
  dG.batchCoord_eq_zero j 1 (by show (1 : Fin 2) ∉ [(0 : Fin 2)]; decide)

theorem g_siIdx (j : S2048x1.Idx) (c : Fin dG.startIndexMap.length) :
    dG.siIdx j c = ix3 (j 0) (j 1) (⟨c.val, c.isLt⟩ : Fin 1) := by
  funext b
  match b with
  | ⟨0, _⟩ =>
    unfold GatherDims.siIdx
    rw [dif_neg (by show ¬ (0 : Nat) = 2; decide)]
    apply Fin.ext
    exact g_siCoord0 j _
  | ⟨1, _⟩ =>
    unfold GatherDims.siIdx
    rw [dif_neg (by show ¬ (1 : Nat) = 2; decide)]
    apply Fin.ext
    exact g_siCoord1 j _
  | ⟨2, _⟩ =>
    unfold GatherDims.siIdx
    rw [dif_pos (by show (2 : Nat) = 2; rfl)]
    rfl

theorem g_start0 (j : S2048x1.Idx) (idx : IVec S2048x1x1 32) : dG.start j idx 0 = 0 := by
  unfold GatherDims.start
  rw [dif_neg (by show (0 : Fin 2) ∉ [(1 : Fin 2)]; decide)]

theorem g_start1 (j : S2048x1.Idx) (idx : IVec S2048x1x1 32) :
    dG.start j idx 1 = min (idx (ix3 (j 0) (j 1) (0 : Fin 1))).toInt.toNat 49999 := by
  unfold GatherDims.start
  rw [dif_pos (by show (1 : Fin 2) ∈ [(1 : Fin 2)]; decide), g_siIdx]
  rfl

theorem gather_apply {α : Type} (x : S2048x50000.Idx → α) (idx : IVec S2048x1x1 32) (b : Fin 2048) (l : Nat) (hl : l < 50000)
    (h : (idx (ix3 b (0 : Fin 1) (0 : Fin 1))).toInt.toNat = l) :
    Host.gather dG x idx (ix2 b (0 : Fin 1)) = x (ix2 b (⟨l, hl⟩ : Fin 50000)) := by
  unfold Host.gather
  congr 1
  funext a
  match a with
  | ⟨0, _⟩ =>
    apply Fin.ext
    show dG.start (ix2 b (0 : Fin 1)) idx 0 + dG.batchCoord (ix2 b (0 : Fin 1)) 0 + dG.offCoord (ix2 b (0 : Fin 1)) 0 = b.val
    rw [g_start0, g_batch0, g_off]
    show 0 + b.val + 0 = b.val
    omega
  | ⟨1, _⟩ =>
    apply Fin.ext
    show dG.start (ix2 b (0 : Fin 1)) idx 1 + dG.batchCoord (ix2 b (0 : Fin 1)) 1 + dG.offCoord (ix2 b (0 : Fin 1)) 1 = l
    rw [g_start1, g_batch1, g_off]
    show min (idx (ix3 b (0 : Fin 1) (0 : Fin 1))).toInt.toNat 49999 + 0 + 0 = l
    rw [h]; omega

/-! ## Concatenation, the two folds, the index words -/

theorem concat_left {α : Type} (a b : S2048x1.Idx → α) (h : Shape.Concatenates [S2048x1, S2048x1] S2048x2 1) (r : Fin 2048) :
    concatenate S2048x2 1 [⟨S2048x1, a⟩, ⟨S2048x1, b⟩] h (ix2 r (0 : Fin 2)) = a (ix2 r (0 : Fin 1)) :=
  concatenate_pair_apply_left 1 a b h (ix2 r (0 : Fin 2)) rfl (ix2 r (0 : Fin 1))
    (fun bb => by match bb with | ⟨0, _⟩ => rfl | ⟨1, _⟩ => rfl)

theorem concat_right {α : Type} (a b : S2048x1.Idx → α) (h : Shape.Concatenates [S2048x1, S2048x1] S2048x2 1) (r : Fin 2048) :
    concatenate S2048x2 1 [⟨S2048x1, a⟩, ⟨S2048x1, b⟩] h (ix2 r (1 : Fin 2)) = b (ix2 r (0 : Fin 1)) :=
  concatenate_pair_apply_right 1 a b h (ix2 r (1 : Fin 2)) rfl rfl (ix2 r (0 : Fin 1))
    (fun bb hne => by match bb with | ⟨0, _⟩ => rfl | ⟨1, _⟩ => exact absurd rfl hne) rfl

theorem fold_max_real {ι : Type} (S : Finset ι) (hS : S.Nonempty) (g : ι → ℝ) :
    ∃ r : ℝ, S.fold max (⊥ : EReal) (fun i => ((g i : ℝ) : EReal)) = (r : EReal) := by
  induction hS using Finset.Nonempty.cons_induction with
  | singleton a => exact ⟨g a, by rw [Finset.fold_singleton]; exact max_eq_left bot_le⟩
  | cons a s ha hs ih =>
    obtain ⟨r, hr⟩ := ih
    exact ⟨max (g a) r, by rw [Finset.fold_cons, hr]; exact (EReal.coe_strictMono.monotone.map_max).symm⟩

theorem rowmax_real (x : S2048x50000.Idx → EReal) (init : S_.Idx → EReal)
    (hinit : init (Shape.Idx.first Facts₀.h_S_) = ⊥) (g : Fin 2048 → Fin 50000 → ℝ)
    (hx : ∀ b c, x (ix2 b c) = ((g b c : ℝ) : EReal)) (b : Fin 2048) :
    ∃ M : ℝ, Host.reduce (FloatOps.maximumf (F := Ideal) (φ := .f32)) x init Facts₀.reducesTo_S2048x50000_S2048_d1 Facts₀.h_S_ (ix1 b) = (M : EReal) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  have hR : S2048x50000.Reduces [1] S2048 := by decide
  rw [Host.reduce_eq_fold_single (FloatOps.maximumf (F := Ideal) (φ := .f32)) x init Facts₀.reducesTo_S2048x50000_S2048_d1 hR Facts₀.h_S_ (ix1 b), hinit]
  have hxl : (x ∘ hR.lift (ix1 b)) = fun k : Fin 50000 => ((g b k : ℝ) : EReal) := by
    funext k
    refine Eq.trans (congrArg x (funext fun a => ?_)) (hx b k)
    match a with
    | ⟨0, _⟩ => exact Fin.ext rfl
    | ⟨1, _⟩ => exact Fin.ext rfl
  rw [hxl]
  exact fold_max_real Finset.univ ⟨⟨0, by decide⟩, Finset.mem_univ _⟩ (g b)

theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    have e : IntOp.andi (1#1) (1#1) = 1#1 := by decide
    rw [e]
    exact foldl_andi_one f l (fun n hn => h n (List.mem_cons_of_mem _ hn))

theorem reduce_and_one (x : S2048x1x1.Idx → BitVec 1) (init : S_.Idx → BitVec 1)
    (hinit : init (Shape.Idx.first Facts₀.h_S_) = 1#1) (hx : ∀ i, x i = 1#1) (j : S2048x1.Idx) :
    Host.reduce IntOp.andi x init Facts₀.reducesTo_S2048x1x1_S2048x1_d2 Facts₀.h_S_ j = 1#1 := by
  rw [Host.reduce_eq_foldl, hinit]
  exact foldl_andi_one x _ (fun i _ => hx i)

/-- A label word: below 50000 as a natural number. Its signed reading is that number; the wrap-around
    select leaves it alone; it lies in the gather's bounds. -/
theorem lab_toInt (L : BitVec 32) (h : L.toNat < 50000) : L.toInt = (L.toNat : Int) := by
  rw [BitVec.toInt_eq_toNat_of_lt (by omega)]

theorem lab_norm (L : BitVec 32) (h : L.toNat < 50000) :
    Scalar.select (IntOp.cmpi .slt L 0#32) (IntOp.addi L 50000#32) L = L := by
  have : IntOp.cmpi .slt L 0#32 ≠ 1#1 := by
    rw [Ne, IntOp.cmpi_slt, lab_toInt L h]; simp
  rw [eq_zero_of_ne_one this, select_zero]

theorem row_norm (b : Nat) (h : b < 2048) :
    Scalar.select (IntOp.cmpi .slt (BitVec.ofNat 32 b) 0#32) (IntOp.addi (BitVec.ofNat 32 b) 2048#32) (BitVec.ofNat 32 b) = BitVec.ofNat 32 b := by
  have hn : (BitVec.ofNat 32 b).toNat = b := by simp; omega
  have : IntOp.cmpi .slt (BitVec.ofNat 32 b) 0#32 ≠ 1#1 := by
    rw [Ne, IntOp.cmpi_slt, BitVec.toInt_eq_toNat_of_lt (by omega), hn]; simp
  rw [eq_zero_of_ne_one this, select_zero]

theorem row_toInt (b : Nat) (h : b < 2048) : (BitVec.ofNat 32 b).toInt = (b : Int) := by
  have hn : (BitVec.ofNat 32 b).toNat = b := by simp; omega
  rw [BitVec.toInt_eq_toNat_of_lt (by omega), hn]

theorem lab_inb (L : BitVec 32) (h : L.toNat < 50000) :
    IntOp.andi (IntOp.cmpi .sge L 0#32) (IntOp.cmpi .sle L 49999#32) = 1#1 := by
  rw [IntOp.andi_eq_one, IntOp.cmpi_sge, IntOp.cmpi_sle, lab_toInt L h]
  constructor
  · simp
  · have : (49999#32 : BitVec 32).toInt = 49999 := by decide
    rw [this]; omega

end Cert.ReferenceIdeal.RefIdx

end
-- ==== Proof.RefValue.lean ====
/-
  The reference's result, at the extended reals, is the mean loss.

  With the three inputs real-valued and the labels in range, the reference's composed term — rows normalized, the
  inner products, the margin added (as its negation) at the label's column by the scatter, the scale, the
  log-softmax `x − max − log ∑ exp (x − max)`, the entry at the label taken by the gather, negated, summed and
  divided by 2048 — is `loss`.

  Stage by stage, at coordinates: the squared norm of row b is ∑ d, E b d · E b d; its square root bounded below by ε
  is `nrm (E b)`; the quotient is `en`; likewise `wn`; the contraction is `cosv`; the scatter adds −μ at the label's
  column only; the product with the scale is `logit`; the row maximum M is a real, and
  `x − M − log ∑ exp (x − M) = x − log ∑ exp x`; the gather reads that at the label; the negation is the row's loss
  (the sum over the columns equal to the label is the one term at the label); the sum over the rows divided by 2048
  is the mean.
-/
import proofs.«401782_j48017734369761_2_alg».proof.Proof.RefRead
import proofs.«401782_j48017734369761_2_alg».proof.Proof.RefIdx
import proofs.«401782_j48017734369761_2_alg».proof.Proof.Spec
import proofs.«401782_j48017734369761_2_alg».proof.Proof.SpecConsts
import Idealize.ShloMosaic.Lib.ValueIdx
import Idealize.ShloMosaic.Lib.ValueIdxRank1
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read Cert.ReferenceIdeal.RefIdx Cert.Spec

variable [Cert.ReferenceIdeal.Facts]

/-! ## The index maps of the layout operations, at coordinates -/

theorem i_v1 (b : Fin 2048) (k : Fin 512) : idx_main_v1 (ix1 b) k = ix2 b k := by
  funext a; match a with | ⟨0, _⟩ => rfl | ⟨1, _⟩ => rfl
theorem i_v2 (b : Fin 2048) (z : Fin 1) : idx_main_v2 (ix2 b z) = ix1 b := by
  funext a; match a with | ⟨0, _⟩ => rfl
theorem i_v6 (b : Fin 2048) (d : Fin 512) : idx_main_v6 (ix2 b d) = ix2 b (0 : Fin 1) := by
  funext a; match a with | ⟨0, _⟩ => rfl | ⟨1, _⟩ => rfl
theorem i_v9 (b : Fin 50000) (k : Fin 512) : idx_main_v9 (ix1 b) k = ix2 b k := by
  funext a; match a with | ⟨0, _⟩ => rfl | ⟨1, _⟩ => rfl
theorem i_v10 (b : Fin 50000) (z : Fin 1) : idx_main_v10 (ix2 b z) = ix1 b := by
  funext a; match a with | ⟨0, _⟩ => rfl
theorem i_v14 (b : Fin 50000) (d : Fin 512) : idx_main_v14 (ix2 b d) = ix2 b (0 : Fin 1) := by
  funext a; match a with | ⟨0, _⟩ => rfl | ⟨1, _⟩ => rfl
theorem i_l16 (b : Fin 2048) (c : Fin 50000) (k : Fin 512) : lidx_main_v16 (ix2 b c) k = ix2 b k := by
  funext a; match a with | ⟨0, _⟩ => rfl | ⟨1, _⟩ => rfl
theorem i_r16 (b : Fin 2048) (c : Fin 50000) (k : Fin 512) : ridx_main_v16 (ix2 b c) k = ix2 c k := by
  funext a; match a with | ⟨0, _⟩ => rfl | ⟨1, _⟩ => rfl
theorem i_v28 (b : Fin 2048) (z : Fin 1) : idx_main_v28 (ix2 b z) = ix1 b := by
  funext a; match a with | ⟨0, _⟩ => rfl
theorem i_v29 (b : Fin 2048) (z : Fin 1) : idx_main_v29 (ix2 b z) = ix1 b := by
  funext a; match a with | ⟨0, _⟩ => rfl
theorem i_v36 (b : Fin 2048) (z : Fin 1) : idx_main_v36 (ix2 b z) = ix1 b := by
  funext a; match a with | ⟨0, _⟩ => rfl
theorem i_c0v3 (b : Fin 2048) (z : Fin 1) : idx_main_call0_v3 (ix2 b z) = ix1 b := by
  funext a; match a with | ⟨0, _⟩ => rfl
theorem i_c0v4 (b : Fin 2048) (c : Fin 50000) : idx_main_call0_v4 (ix2 b c) = ix2 b (0 : Fin 1) := by
  funext a; match a with | ⟨0, _⟩ => rfl | ⟨1, _⟩ => rfl
theorem i_c0v7 (b : Fin 2048) (k : Fin 50000) : idx_main_call0_v7 (ix1 b) k = ix2 b k := by
  funext a; match a with | ⟨0, _⟩ => rfl | ⟨1, _⟩ => rfl
theorem i_c0v8 (b : Fin 2048) (z : Fin 1) : idx_main_call0_v8 (ix2 b z) = ix1 b := by
  funext a; match a with | ⟨0, _⟩ => rfl
theorem i_c0v10 (b : Fin 2048) (c : Fin 50000) : idx_main_call0_v10 (ix2 b c) = ix2 b (0 : Fin 1) := by
  funext a; match a with | ⟨0, _⟩ => rfl | ⟨1, _⟩ => rfl
theorem i_c1v5 (b : Fin 2048) (y z : Fin 1) : idx_main_call1_v5 (ix3 b y z) = ix2 b (0 : Fin 1) := by
  funext a
  match a with
  | ⟨0, _⟩ =>
    apply Fin.ext
    show ((b.val * 1 + y.val) * 1 + z.val) / 1 = b.val
    have := y.isLt; have := z.isLt; omega
  | ⟨1, _⟩ => rfl
theorem i_v38 (b : Fin 2048) : idx_main_v38 (ix1 b) = ix2 b (0 : Fin 1) := by
  funext a
  match a with
  | ⟨0, _⟩ =>
    apply Fin.ext
    show b.val / 1 = b.val
    omega
  | ⟨1, _⟩ => rfl

/-! ## The stages at coordinates, over real-valued inputs and in-range labels -/

section Stages

variable (x0 : (⟨S2048x512, .f32⟩ : BufTy).Contents (Elt Ideal)) (x1 : (⟨S2048, .i32⟩ : BufTy).Contents (Elt Ideal))
  (x2 : (⟨S50000x512, .f32⟩ : BufTy).Contents (Elt Ideal))
  (E : Fin 2048 → Fin 512 → ℝ) (W : Fin 50000 → Fin 512 → ℝ) (lab : Fin 2048 → Nat)
  (hE : ∀ (b : Fin 2048) (d : Fin 512), (x0 : S2048x512.Idx → EReal) (ix2 b d) = ((E b d : ℝ) : EReal))
  (hW : ∀ (k : Fin 50000) (d : Fin 512), (x2 : S50000x512.Idx → EReal) (ix2 k d) = ((W k d : ℝ) : EReal))
  (hL : ∀ b : Fin 2048, ((x1 : S2048.Idx → BitVec 32) (ix1 b)).toNat = lab b)
  (hlab : ∀ b, lab b < 50000)

include hE in
theorem r_v1 (b : Fin 2048) : val_main_v1 (F := Ideal) x0 (ix1 b) = ((∑ d, E b d * E b d : ℝ) : EReal) := by
  rw [val_main_v1_apply, val_main_cst_apply, Ideal.ofBits_def, zero_coe]
  simp only [val_main_v0_apply, i_v1, Ideal.mulf_def, hE, ← EReal.coe_mul]
  rw [Cert.Spec.coe_sum Finset.univ (fun k => E b k * E b k), ← EReal.coe_add, zero_add]

include hE in
theorem r_v5 (b : Fin 2048) (z : Fin 1) : val_main_v5 (F := Ideal) x0 (ix2 b z) = ((nrm (E b) : ℝ) : EReal) := by
  rw [val_main_v5_apply, val_main_v3_apply, val_main_v2_apply, i_v2, r_v1 x0 E hE, val_main_v4_apply, val_main_cst_0_apply,
    Ideal.maximumf_def, Ideal.hostUnary_sqrt_def, Ideal.ofBits_def, eps_coe, Ideal.sqrt_coe,
    if_neg (not_lt.2 (Finset.sum_nonneg fun d _ => mul_self_nonneg (E b d)))]
  exact (EReal.coe_strictMono.monotone.map_max).symm

include hE in
theorem r_v7 (b : Fin 2048) (d : Fin 512) : val_main_v7 (F := Ideal) x0 (ix2 b d) = ((en E b d : ℝ) : EReal) := by
  rw [val_main_v7_apply, val_main_v6_apply, i_v6, r_v5 x0 E hE, hE, Ideal.hostDivf_def, Ideal.div_coe (nrm_pos _).ne',
    ← EReal.coe_mul]
  congr 1
  unfold en
  exact (div_eq_mul_one_div _ _).symm

include hW in
theorem r_v9 (c : Fin 50000) : val_main_v9 (F := Ideal) x2 (ix1 c) = ((∑ d, W c d * W c d : ℝ) : EReal) := by
  rw [val_main_v9_apply, val_main_cst_1_apply, Ideal.ofBits_def, zero_coe]
  simp only [val_main_v8_apply, i_v9, Ideal.mulf_def, hW, ← EReal.coe_mul]
  rw [Cert.Spec.coe_sum Finset.univ (fun k => W c k * W c k), ← EReal.coe_add, zero_add]

include hW in
theorem r_v13 (c : Fin 50000) (z : Fin 1) : val_main_v13 (F := Ideal) x2 (ix2 c z) = ((nrm (W c) : ℝ) : EReal) := by
  rw [val_main_v13_apply, val_main_v11_apply, val_main_v10_apply, i_v10, r_v9 x2 W hW, val_main_v12_apply, val_main_cst_2_apply,
    Ideal.maximumf_def, Ideal.hostUnary_sqrt_def, Ideal.ofBits_def, eps_coe, Ideal.sqrt_coe,
    if_neg (not_lt.2 (Finset.sum_nonneg fun d _ => mul_self_nonneg (W c d)))]
  exact (EReal.coe_strictMono.monotone.map_max).symm

include hW in
theorem r_v15 (c : Fin 50000) (d : Fin 512) : val_main_v15 (F := Ideal) x2 (ix2 c d) = ((wn W c d : ℝ) : EReal) := by
  rw [val_main_v15_apply, val_main_v14_apply, i_v14, r_v13 x2 W hW, hW, Ideal.hostDivf_def, Ideal.div_coe (nrm_pos _).ne',
    ← EReal.coe_mul]
  congr 1
  unfold wn
  exact (div_eq_mul_one_div _ _).symm

include hE hW in
theorem r_v16 (b : Fin 2048) (c : Fin 50000) :
    val_main_v16 (F := Ideal) x0 x2 (ix2 b c) = ((cosv E W b c : ℝ) : EReal) := by
  rw [val_main_v16_apply]
  simp only [i_l16, i_r16, r_v7 x0 E hE, r_v15 x2 W hW, ← EReal.coe_mul]
  rw [Cert.Spec.coe_sum Finset.univ (fun k => en E b k * wn W c k)]
  rfl

include hL hlab in
theorem lab_lt (b : Fin 2048) : ((x1 : S2048.Idx → BitVec 32) (ix1 b)).toNat < 50000 := by
  rw [hL]; exact hlab b

theorem r_v22 (b : Fin 2048) : val_main_v22 (F := Ideal) (ix1 b) = BitVec.ofNat 32 b.val := by
  rw [val_main_v22_apply, val_main_v19_apply, val_main_v21_apply, val_main_v17_apply, val_main_v18_apply, val_main_c_apply,
    val_main_v20_apply, val_main_c_3_apply]
  exact row_norm b.val b.isLt

include hL hlab in
theorem r_v27 (b : Fin 2048) : val_main_v27 (F := Ideal) x1 (ix1 b) = x1 (ix1 b) := by
  rw [val_main_v27_apply, val_main_v24_apply, val_main_v26_apply, val_main_v23_apply, val_main_c_4_apply,
    val_main_v25_apply, val_main_c_5_apply]
  exact lab_norm _ (lab_lt x1 lab hL hlab b)

theorem r_v30_0 (b : Fin 2048) : val_main_v30 (F := Ideal) x1 (ix2 b (0 : Fin 2)) = BitVec.ofNat 32 b.val := by
  unfold val_main_v30
  rw [concat_left, val_main_v28_apply, i_v28, r_v22]

include hL hlab in
theorem r_v30_1 (b : Fin 2048) : val_main_v30 (F := Ideal) x1 (ix2 b (1 : Fin 2)) = x1 (ix1 b) := by
  unfold val_main_v30
  rw [concat_right, val_main_v29_apply, i_v29, r_v27 x1 lab hL hlab]

theorem r_v31 (j : S2048.Idx) : val_main_v31 (F := Ideal) j = ((-muR : ℝ) : EReal) := by
  rw [val_main_v31_apply, val_main_cst_6_apply, Ideal.ofBits_def, neg_mu_coe]

include hE hW hL hlab in
theorem r_v32 (b : Fin 2048) (c : Fin 50000) :
    val_main_v32 (F := Ideal) x0 x1 x2 (ix2 b c)
      = (((if c.val = lab b then cosv E W b c - muR else cosv E W b c) : ℝ) : EReal) := by
  unfold val_main_v32
  show Ideal.hostScatterAdd dS (val_main_v16 (F := Ideal) x0 x2) (val_main_v30 (F := Ideal) x1) (val_main_v31 (F := Ideal)) (ix2 b c) = _
  rw [scatter_apply _ _ _ lab hlab
    (fun b => by rw [r_v30_0]; exact row_toInt b.val b.isLt)
    (fun b => by rw [r_v30_1 x1 lab hL hlab, lab_toInt _ (lab_lt x1 lab hL hlab b), hL]) b c,
    r_v16 x0 x2 E W hE hW, r_v31]
  by_cases hc : c.val = lab b
  · rw [if_pos hc, if_pos hc, ← EReal.coe_add, sub_eq_add_neg]
  · rw [if_neg hc, if_neg hc, add_zero]

include hE hW hL hlab in
theorem r_v34 (b : Fin 2048) (c : Fin 50000) :
    val_main_v34 (F := Ideal) x0 x1 x2 (ix2 b c) = ((logit E W lab b c : ℝ) : EReal) := by
  rw [val_main_v34_apply, r_v32 x0 x1 x2 E W lab hE hW hL hlab, val_main_v33_apply, val_main_cst_7_apply, Ideal.ofBits_def,
    sc_coe, Ideal.mulf_def, ← EReal.coe_mul]
  rfl

include hE hW hL hlab in
theorem r_M (b : Fin 2048) : ∃ M : ℝ, val_main_call0_v2 (F := Ideal) x0 x1 x2 (ix1 b) = ((M : ℝ) : EReal) := by
  obtain ⟨M, hM⟩ := rowmax_real (val_main_v34 (F := Ideal) x0 x1 x2) (val_main_call0_cst (F := Ideal))
    (by rw [val_main_call0_cst_apply, Ideal.ofBits_def, ninf_bot]) (logit E W lab)
    (r_v34 x0 x1 x2 E W lab hE hW hL hlab) b
  refine ⟨M, ?_⟩
  rw [val_main_call0_v2_apply, val_main_call0_v1_apply, val_main_call0_cst_0_apply, Ideal.ofBits_def, ninf_bot,
    Ideal.maximumf_def]
  unfold val_main_call0_v0
  rw [hM]
  exact max_eq_right bot_le

include hE hW hL hlab in
theorem r_c0v5 (b : Fin 2048) (M : ℝ) (hM : val_main_call0_v2 (F := Ideal) x0 x1 x2 (ix1 b) = ((M : ℝ) : EReal)) (c : Fin 50000) :
    val_main_call0_v5 (F := Ideal) x0 x1 x2 (ix2 b c) = ((logit E W lab b c - M : ℝ) : EReal) := by
  rw [val_main_call0_v5_apply, r_v34 x0 x1 x2 E W lab hE hW hL hlab, val_main_call0_v4_apply, i_c0v4, val_main_call0_v3_apply,
    i_c0v3, hM, Ideal.subf_def, ← EReal.coe_sub]

include hE hW hL hlab in
theorem r_c0v7 (b : Fin 2048) (M : ℝ) (hM : val_main_call0_v2 (F := Ideal) x0 x1 x2 (ix1 b) = ((M : ℝ) : EReal)) :
    val_main_call0_v7 (F := Ideal) x0 x1 x2 (ix1 b) = ((∑ k, Real.exp (logit E W lab b k - M) : ℝ) : EReal) := by
  rw [val_main_call0_v7_apply, val_main_call0_cst_1_apply, Ideal.ofBits_def, zero_coe]
  simp only [val_main_call0_v6_apply, i_c0v7, r_c0v5 x0 x1 x2 E W lab hE hW hL hlab b M hM, Ideal.hostUnary_exp_def, Ideal.exp_coe]
  rw [Cert.Spec.coe_sum Finset.univ (fun k => Real.exp (logit E W lab b k - M)), ← EReal.coe_add, zero_add]

include hE hW hL hlab in
theorem r_v35 (b : Fin 2048) (c : Fin 50000) :
    val_main_v35 (F := Ideal) x0 x1 x2 (ix2 b c)
      = ((logit E W lab b c - Real.log (∑ k, Real.exp (logit E W lab b k)) : ℝ) : EReal) := by
  obtain ⟨M, hM⟩ := r_M x0 x1 x2 E W lab hE hW hL hlab b
  haveI : Nonempty (Fin 50000) := ⟨⟨0, by decide⟩⟩
  have hpos : 0 < ∑ k : Fin 50000, Real.exp (logit E W lab b k - M) :=
    Finset.sum_pos (fun k _ => Real.exp_pos _) Finset.univ_nonempty
  rw [val_main_v35_apply, r_c0v5 x0 x1 x2 E W lab hE hW hL hlab b M hM, val_main_call0_v10_apply, i_c0v10,
    val_main_call0_v9_apply, val_main_call0_v8_apply, i_c0v8, r_c0v7 x0 x1 x2 E W lab hE hW hL hlab b M hM,
    Ideal.hostUnary_log_def, Ideal.log_coe, if_neg (not_le.2 hpos), Ideal.subf_def, ← EReal.coe_sub]
  rw [EReal.coe_eq_coe_iff]
  have := lse_shift (logit E W lab b) M
  linarith

include hL hlab in
theorem r_c1v5 (b : Fin 2048) (y z : Fin 1) : val_main_call1_v5 (F := Ideal) x1 (ix3 b y z) = x1 (ix1 b) := by
  rw [val_main_call1_v5_apply, i_c1v5, val_main_call1_v4_apply, val_main_call1_v1_apply, val_main_call1_v3_apply,
    val_main_v36_apply, i_v36, val_main_call1_v0_apply, val_main_call1_c_apply, val_main_call1_v2_apply,
    val_main_call1_c_0_apply]
  exact lab_norm _ (lab_lt x1 lab hL hlab b)

include hL hlab in
theorem r_c1v11 (i : S2048x1x1.Idx) : val_main_call1_v11 (F := Ideal) x1 i = 1#1 := by
  obtain ⟨b, y, z, rfl⟩ : ∃ (b : Fin 2048) (y z : Fin 1), i = ix3 b y z := ⟨i 0, i 1, i 2, eq_ix3 i⟩
  rw [val_main_call1_v11_apply, val_main_call1_v7_apply, val_main_call1_v10_apply,
    r_c1v5 x1 lab hL hlab, val_main_call1_v6_apply, val_main_call1_c_2_apply, val_main_call1_v9_apply,
    val_main_call1_v8_apply, val_main_call1_c_1_apply]
  exact lab_inb _ (lab_lt x1 lab hL hlab _)

include hE hW hL hlab in
theorem r_v37 (b : Fin 2048) :
    val_main_v37 (F := Ideal) x0 x1 x2 (ix2 b (0 : Fin 1))
      = ((logit E W lab b ⟨lab b, hlab b⟩ - Real.log (∑ k, Real.exp (logit E W lab b k)) : ℝ) : EReal) := by
  rw [val_main_v37_apply]
  have h12 : val_main_call1_v12 (F := Ideal) x1 (ix2 b (0 : Fin 1)) = 1#1 := by
    unfold val_main_call1_v12
    exact reduce_and_one _ _ (by rw [val_main_call1_c_3_apply]) (r_c1v11 x1 lab hL hlab) _
  rw [h12, select_one]
  unfold val_main_call1_v13
  rw [gather_apply _ _ b (lab b) (hlab b)
    (by rw [r_c1v5 x1 lab hL hlab, lab_toInt _ (lab_lt x1 lab hL hlab b), hL]; rfl),
    r_v35 x0 x1 x2 E W lab hE hW hL hlab]

include hE hW hL hlab in
theorem r_v39 (b : Fin 2048) : val_main_v39 (F := Ideal) x0 x1 x2 (ix1 b) = ((nll E W lab b : ℝ) : EReal) := by
  rw [val_main_v39_apply, val_main_v38_apply, i_v38, r_v37 x0 x1 x2 E W lab hE hW hL hlab, Ideal.hostNegf_def, Ideal.negf_def,
    ← EReal.coe_neg]
  rw [EReal.coe_eq_coe_iff]
  unfold nll
  have hs : (∑ c : Fin 50000, (if c.val = lab b then logit E W lab b c else 0)) = logit E W lab b ⟨lab b, hlab b⟩ := by
    rw [Finset.sum_eq_single (⟨lab b, hlab b⟩ : Fin 50000)]
    · rw [if_pos rfl]
    · intro c _ hc
      rw [if_neg (fun h => hc (Fin.ext h))]
    · intro h; exact absurd (Finset.mem_univ _) h
  rw [hs]; ring

include hE hW hL hlab in
theorem r_v41 (i : S_.Idx) : val_main_v41 (F := Ideal) x0 x1 x2 i = ((loss E W lab : ℝ) : EReal) := by
  rw [val_main_v41_apply, val_main_v40_apply, val_main_cst_8_apply, val_main_cst_9_apply, Ideal.ofBits_def, Ideal.ofBits_def,
    zero_coe, c2048_coe, Ideal.hostDivf_def, Ideal.div_coe (by norm_num : (2048 : ℝ) ≠ 0)]
  rw [← Equiv.sum_comp (idxEquiv1 (n := 2048)).symm (val_main_v39 (F := Ideal) x0 x1 x2)]
  have : ∀ b : Fin 2048, val_main_v39 (F := Ideal) x0 x1 x2 ((idxEquiv1 (n := 2048)).symm b) = ((nll E W lab b : ℝ) : EReal) :=
    fun b => r_v39 x0 x1 x2 E W lab hE hW hL hlab b
  simp only [this]
  rw [Cert.Spec.coe_sum Finset.univ (fun b => nll E W lab b), ← EReal.coe_add, zero_add, ← EReal.coe_mul]
  rw [EReal.coe_eq_coe_iff]
  unfold loss
  exact (div_eq_mul_one_div _ _).symm

end Stages

theorem ref_value (a0 : (⟨S2048x512, .f32⟩ : BufTy).Contents (Elt Ideal)) (a1 : (⟨S2048, .i32⟩ : BufTy).Contents (Elt Ideal)) (a2 : (⟨S50000x512, .f32⟩ : BufTy).Contents (Elt Ideal))
    (E : Fin 2048 → Fin 512 → ℝ) (W : Fin 50000 → Fin 512 → ℝ) (lab : Fin 2048 → Nat)
    (hE : ∀ (b : Fin 2048) (d : Fin 512), (a0 : S2048x512.Idx → EReal) (ix2 b d) = ((E b d : ℝ) : EReal))
    (hW : ∀ (k : Fin 50000) (d : Fin 512), (a2 : S50000x512.Idx → EReal) (ix2 k d) = ((W k d : ℝ) : EReal))
    (hL : ∀ b : Fin 2048, ((a1 : S2048.Idx → BitVec 32) (ix1 b)).toNat = lab b)
    (hlab : ∀ b, lab b < 50000) :
    Cert.ReferenceIdeal.Read.val_main_v41 (F := Ideal) a0 a1 a2 = fun _ => ((loss E W lab : ℝ) : EReal) :=
  funext fun i => r_v41 a0 a1 a2 E W lab hE hW hL hlab i

end Cert.ReferenceIdeal.RefValue

end
-- ==== Proof.RefRunS1.lean ====
/-
  The reference program's first 45 operations read back, stretch by stretch.

  The program is a straight line of operations, each writing one buffer from buffers written before it; `after ops V` is
  the contents after the line from contents `V`. Cut into stretches of six to eleven operations, each stretch is read
  from ANY contents `W` that hold, at the few buffers the stretch or a later one still reads, the stage values
  `val_…` of the arguments `x0`, `x1`, `x2`: after the stretch the buffers still read later hold their stage values.
  The stretches in order give the contents after operation 44: the scaled logits `val_main_v34`, and the labels as
  launched.
-/
import proofs.«401782_j48017734369761_2_alg».proof.Proof.RefOps
import proofs.«401782_j48017734369761_2_alg».proof.Proof.RefRead

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- A line run in two parts: the second part from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The first `i + j` operations: the first `i`, then the next `j`. -/
theorem after_take_add (l : List (HloOp τ sig (Elt F))) (i j : Nat) (V : Valuation τ sig (Elt F)) (b : DevRef τ sig) :
    after (l.take (i + j)) V b = after ((l.drop i).take j) (after (l.take i) V) b := by
  rw [List.take_add, after_append]

/-- The whole line: the first `i` operations, then the rest. -/
theorem after_take_drop (l : List (HloOp τ sig (Elt F))) (i : Nat) (V : Valuation τ sig (Elt F)) (b : DevRef τ sig) :
    after l V b = after (l.drop i) (after (l.take i) V) b := by
  rw [← after_append, List.take_append_drop]

/-- Operations 0–9: the embeddings divided by their rows' norms. -/
theorem stretch1 (W : Valuation τ sig (Elt F)) (x0 : (⟨S2048x512, .f32⟩ : BufTy).Contents (Elt F))
    (x1 : (⟨S2048, .i32⟩ : BufTy).Contents (Elt F)) (x2 : (⟨S50000x512, .f32⟩ : BufTy).Contents (Elt F))
    (h0 : W (Proc.devRef .tc main_arg0) = x0) (h1 : W (Proc.devRef .tc main_arg1) = x1) (h2 : W (Proc.devRef .tc main_arg2) = x2) :
    after ((ops (F := F)).take 10) W (Proc.devRef .tc main_v7) = val_main_v7 x0
      ∧ after ((ops (F := F)).take 10) W (Proc.devRef .tc main_arg1) = x1
      ∧ after ((ops (F := F)).take 10) W (Proc.devRef .tc main_arg2) = x2 := by
  simp only [ops, List.take_succ_cons, List.take_zero]
  refine ⟨?_, ?_, ?_⟩
  · after_results_simp
    rw [h0]
    rfl
  · after_results_simp
    exact h1
  · after_results_simp
    exact h2

/-- Operations 10–20: the class weights divided by their rows' norms, and the cosines. -/
theorem stretch2 (W : Valuation τ sig (Elt F)) (x0 : (⟨S2048x512, .f32⟩ : BufTy).Contents (Elt F))
    (x1 : (⟨S2048, .i32⟩ : BufTy).Contents (Elt F)) (x2 : (⟨S50000x512, .f32⟩ : BufTy).Contents (Elt F))
    (h7 : W (Proc.devRef .tc main_v7) = val_main_v7 x0) (h1 : W (Proc.devRef .tc main_arg1) = x1) (h2 : W (Proc.devRef .tc main_arg2) = x2) :
    after (((ops (F := F)).drop 10).take 11) W (Proc.devRef .tc main_v16) = val_main_v16 x0 x2
      ∧ after (((ops (F := F)).drop 10).take 11) W (Proc.devRef .tc main_arg1) = x1 := by
  simp only [ops, List.drop_succ_cons, List.drop_zero, List.take_succ_cons, List.take_zero]
  refine ⟨?_, ?_⟩
  · after_results_simp
    rw [h7, h2]
    rfl
  · after_results_simp
    exact h1

/-- Operations 21–28: the row numbers, wrapped if negative. -/
theorem stretch3 (W : Valuation τ sig (Elt F)) (x0 : (⟨S2048x512, .f32⟩ : BufTy).Contents (Elt F))
    (x1 : (⟨S2048, .i32⟩ : BufTy).Contents (Elt F)) (x2 : (⟨S50000x512, .f32⟩ : BufTy).Contents (Elt F))
    (h16 : W (Proc.devRef .tc main_v16) = val_main_v16 x0 x2) (h1 : W (Proc.devRef .tc main_arg1) = x1) :
    after (((ops (F := F)).drop 21).take 8) W (Proc.devRef .tc main_v22) = val_main_v22 (F := F)
      ∧ after (((ops (F := F)).drop 21).take 8) W (Proc.devRef .tc main_v16) = val_main_v16 x0 x2
      ∧ after (((ops (F := F)).drop 21).take 8) W (Proc.devRef .tc main_arg1) = x1 := by
  simp only [ops, List.drop_succ_cons, List.drop_zero, List.take_succ_cons, List.take_zero]
  refine ⟨?_, ?_, ?_⟩
  · after_results_simp
    rfl
  · after_results_simp
    exact h16
  · after_results_simp
    exact h1

/-- Operations 29–38: the labels, wrapped if negative, paired with the row numbers. -/
theorem stretch4 (W : Valuation τ sig (Elt F)) (x0 : (⟨S2048x512, .f32⟩ : BufTy).Contents (Elt F))
    (x1 : (⟨S2048, .i32⟩ : BufTy).Contents (Elt F)) (x2 : (⟨S50000x512, .f32⟩ : BufTy).Contents (Elt F))
    (h22 : W (Proc.devRef .tc main_v22) = val_main_v22 (F := F))
    (h16 : W (Proc.devRef .tc main_v16) = val_main_v16 x0 x2) (h1 : W (Proc.devRef .tc main_arg1) = x1) :
    after (((ops (F := F)).drop 29).take 10) W (Proc.devRef .tc main_v30) = val_main_v30 x1
      ∧ after (((ops (F := F)).drop 29).take 10) W (Proc.devRef .tc main_v16) = val_main_v16 x0 x2
      ∧ after (((ops (F := F)).drop 29).take 10) W (Proc.devRef .tc main_arg1) = x1 := by
  simp only [ops, List.drop_succ_cons, List.drop_zero, List.take_succ_cons, List.take_zero]
  refine ⟨?_, ?_, ?_⟩
  · after_results
    rw [h22, h1]
    rfl
  · after_results_simp
    exact h16
  · after_results_simp
    exact h1

/-- Operations 39–44: the margin scattered onto the label columns, and the scale. -/
theorem stretch5 (W : Valuation τ sig (Elt F)) (x0 : (⟨S2048x512, .f32⟩ : BufTy).Contents (Elt F))
    (x1 : (⟨S2048, .i32⟩ : BufTy).Contents (Elt F)) (x2 : (⟨S50000x512, .f32⟩ : BufTy).Contents (Elt F))
    (h30 : W (Proc.devRef .tc main_v30) = val_main_v30 x1)
    (h16 : W (Proc.devRef .tc main_v16) = val_main_v16 x0 x2) (h1 : W (Proc.devRef .tc main_arg1) = x1) :
    after (((ops (F := F)).drop 39).take 6) W (Proc.devRef .tc main_v34) = val_main_v34 x0 x1 x2
      ∧ after (((ops (F := F)).drop 39).take 6) W (Proc.devRef .tc main_arg1) = x1 := by
  simp only [ops, List.drop_succ_cons, List.drop_zero, List.take_succ_cons, List.take_zero]
  refine ⟨?_, ?_⟩
  · after_results_simp
    rw [h16, h30]
    rfl
  · after_results_simp
    exact h1

/-- After operation 44, from the launch contents: the scaled logits, and the labels as launched. -/
theorem head45 (m : (ℓ : Loc nD τ sig) → Buf (Elt F) ℓ) (c : Dev nD) :
    after ((ops (F := F)).take 45) (launchContents m c) (Proc.devRef .tc main_v34)
        = val_main_v34 (m ((c.tc : Thread nD τ).loc main_arg0)) (m ((c.tc : Thread nD τ).loc main_arg1)) (m ((c.tc : Thread nD τ).loc main_arg2))
      ∧ after ((ops (F := F)).take 45) (launchContents m c) (Proc.devRef .tc main_arg1) = m ((c.tc : Thread nD τ).loc main_arg1) := by
  obtain ⟨a7, a1, a2⟩ := stretch1 (launchContents m c) (m ((c.tc : Thread nD τ).loc main_arg0)) (m ((c.tc : Thread nD τ).loc main_arg1))
    (m ((c.tc : Thread nD τ).loc main_arg2)) rfl rfl rfl
  obtain ⟨b16, b1⟩ := stretch2 _ _ _ _ a7 a1 a2
  rw [← after_take_add _ 10 11] at b16 b1
  obtain ⟨c22, c16, c1⟩ := stretch3 _ _ _ _ b16 b1
  rw [← after_take_add _ 21 8] at c22 c16 c1
  obtain ⟨d30, d16, d1⟩ := stretch4 _ _ _ _ c22 c16 c1
  rw [← after_take_add _ 29 10] at d30 d16 d1
  obtain ⟨e34, e1⟩ := stretch5 _ _ _ _ d30 d16 d1
  rw [← after_take_add _ 39 6] at e34 e1
  exact ⟨e34, e1⟩

end Cert.ReferenceIdeal.Value

end
-- ==== Proof.RefRunS2.lean ====
/-
  The reference program's last 44 operations read back: from the logits to the mean loss.

  With the logits' buffer holding the staged value `val_main_v34` and the label buffer its argument, the fold of
  operations 45 … 88 (the log-softmax, the gather of the label's entry, the negation and the mean) leaves the result
  buffer at the staged value `val_main_v41`. The operations are taken in five stretches; each stretch's results are
  read from the buffers it takes over, which the next stretch sees only as staged values.
-/
import proofs.«401782_j48017734369761_2_alg».proof.Proof.RefOps
import proofs.«401782_j48017734369761_2_alg».proof.Proof.RefRead

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- Contents moved to a buffer's own type and back are the contents. -/
private theorem ofBuf_toBuf {T : BufTy} (x : TRef sig T) (v : T.Contents (Elt F)) : x.ofBuf (x.toBuf v) = v := by
  obtain ⟨r, h, _, _⟩ := x
  subst h
  rfl

/-- Operations 45 … 52: the row maximum and the shifted logits. -/
private abbrev segA : List (HloOp τ sig (Elt F)) := ((ops (F := F)).drop 45).take 8
/-- Operations 53 … 59: the exponentials, their row sum, its logarithm, the log-softmax. -/
private abbrev segB : List (HloOp τ sig (Elt F)) := ((ops (F := F)).drop 53).take 7
/-- Operations 60 … 68: the label column, wrapped into range, as a gather index. -/
private abbrev segC : List (HloOp τ sig (Elt F)) := ((ops (F := F)).drop 60).take 9
/-- Operations 69 … 78: the gather's in-bounds mask. -/
private abbrev segD : List (HloOp τ sig (Elt F)) := ((ops (F := F)).drop 69).take 10
/-- Operations 79 … 88: the gather, the masked select, the negation and the mean. -/
private abbrev segE : List (HloOp τ sig (Elt F)) := ((ops (F := F)).drop 79).take 10

private theorem drop45_eq :
    (ops (F := F)).drop 45 = segA (F := F) ++ (segB (F := F) ++ (segC (F := F) ++ (segD (F := F) ++ segE (F := F)))) := rfl

section Stretches

variable (W : Valuation τ sig (Elt F))
  (x0 : (⟨S2048x512, .f32⟩ : BufTy).Contents (Elt F)) (x1 : (⟨S2048, .i32⟩ : BufTy).Contents (Elt F))
  (x2 : (⟨S50000x512, .f32⟩ : BufTy).Contents (Elt F))

private theorem segA_v5 (h34 : W (Proc.devRef .tc main_v34) = Read.val_main_v34 x0 x1 x2) :
    after segA W (Proc.devRef .tc main_call0_v5) = Read.val_main_call0_v5 x0 x1 x2 := by
  show after [_, _, _, _, _, _, _, _] W _ = _
  after_results_simp
  rw [h34]
  try simp only [ofBuf_toBuf]
  rfl

private theorem segA_arg1 : after segA W (Proc.devRef .tc main_arg1) = W (Proc.devRef .tc main_arg1) := by
  show after [_, _, _, _, _, _, _, _] W _ = _
  after_results_simp

private theorem segB_v35 (h5 : W (Proc.devRef .tc main_call0_v5) = Read.val_main_call0_v5 x0 x1 x2) :
    after segB W (Proc.devRef .tc main_v35) = Read.val_main_v35 x0 x1 x2 := by
  show after [_, _, _, _, _, _, _] W _ = _
  after_results_simp
  rw [h5]
  try simp only [ofBuf_toBuf]
  rfl

private theorem segB_arg1 : after segB W (Proc.devRef .tc main_arg1) = W (Proc.devRef .tc main_arg1) := by
  show after [_, _, _, _, _, _, _] W _ = _
  after_results_simp

private theorem segC_c5 (h1 : W (Proc.devRef .tc main_arg1) = x1) :
    after segC W (Proc.devRef .tc main_call1_v5) = Read.val_main_call1_v5 x1 := by
  show after [_, _, _, _, _, _, _, _, _] W _ = _
  after_results_simp
  rw [h1]
  try simp only [ofBuf_toBuf]
  rfl

private theorem segC_v35 : after segC W (Proc.devRef .tc main_v35) = W (Proc.devRef .tc main_v35) := by
  show after [_, _, _, _, _, _, _, _, _] W _ = _
  after_results_simp

private theorem segD_v12 (h5 : W (Proc.devRef .tc main_call1_v5) = Read.val_main_call1_v5 x1) :
    after segD W (Proc.devRef .tc main_call1_v12) = Read.val_main_call1_v12 x1 := by
  show after [_, _, _, _, _, _, _, _, _, _] W _ = _
  after_results_simp
  rw [h5]
  try simp only [ofBuf_toBuf]
  rfl

private theorem segD_c5 : after segD W (Proc.devRef .tc main_call1_v5) = W (Proc.devRef .tc main_call1_v5) := by
  show after [_, _, _, _, _, _, _, _, _, _] W _ = _
  after_results_simp

private theorem segD_v35 : after segD W (Proc.devRef .tc main_v35) = W (Proc.devRef .tc main_v35) := by
  show after [_, _, _, _, _, _, _, _, _, _] W _ = _
  after_results_simp

private theorem segE_v41 (h35 : W (Proc.devRef .tc main_v35) = Read.val_main_v35 x0 x1 x2)
    (h5 : W (Proc.devRef .tc main_call1_v5) = Read.val_main_call1_v5 x1)
    (h12 : W (Proc.devRef .tc main_call1_v12) = Read.val_main_call1_v12 x1) :
    after segE W (Proc.devRef .tc main_v41) = Read.val_main_v41 x0 x1 x2 := by
  show after [_, _, _, _, _, _, _, _, _, _] W _ = _
  after_results_simp
  rw [h35, h5, h12]
  try simp only [ofBuf_toBuf]
  rfl

end Stretches

/-- The tail of the reference program: from contents `W` that hold the staged logits and the labels, operations
    45 … 88 leave the result buffer at the staged mean loss. -/
theorem tail45 (W : Valuation τ sig (Elt F))
    (x0 : (⟨S2048x512, .f32⟩ : BufTy).Contents (Elt F)) (x1 : (⟨S2048, .i32⟩ : BufTy).Contents (Elt F))
    (x2 : (⟨S50000x512, .f32⟩ : BufTy).Contents (Elt F))
    (h34 : W (Proc.devRef .tc main_v34) = Read.val_main_v34 x0 x1 x2) (h1 : W (Proc.devRef .tc main_arg1) = x1) :
    after ((ops (F := F)).drop 45) W (Proc.devRef .tc main_v41) = Read.val_main_v41 x0 x1 x2 := by
  rw [drop45_eq, after_app, after_app, after_app, after_app]
  have a5 := segA_v5 W x0 x1 x2 h34
  have a1 := (segA_arg1 W).trans h1
  generalize after segA W = W1 at a5 a1 ⊢
  have b35 := segB_v35 W1 x0 x1 x2 a5
  have b1 := (segB_arg1 W1).trans a1
  generalize after segB W1 = W2 at b35 b1 ⊢
  have c5 := segC_c5 W2 x1 b1
  have c35 := (segC_v35 W2).trans b35
  generalize after segC W2 = W3 at c5 c35 ⊢
  have d12 := segD_v12 W3 x1 c5
  have d5 := (segD_c5 W3).trans c5
  have d35 := (segD_v35 W3).trans c35
  generalize after segD W3 = W4 at d12 d5 d35 ⊢
  exact segE_v41 W4 x0 x1 x2 d35 d5 d12

end Cert.ReferenceIdeal.Value

end
-- ==== Proof.RefRunS.lean ====
/-
  The reference program's run, read back through its stages.

  Every weakly fair execution of the reference's @main terminates, and every buffer ends at the contents its 89
  operations leave from the launch contents. Those contents are read in two parts: after the first 45 operations the
  scaled logits hold their stage value and the labels are as launched; from any contents with those two facts the
  remaining 44 operations leave the loss at its stage value `val_main_v41` of the three arguments. The arguments
  themselves are written by no operation.
-/
import proofs.«401782_j48017734369761_2_alg».proof.Proof.RefRunS1
import proofs.«401782_j48017734369761_2_alg».proof.Proof.RefRunS2

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- On every device, for any float values, from any memory with zero counters: every weakly fair execution of @main
    terminates with the result at the staged term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
          = Cert.ReferenceIdeal.Read.val_main_v41 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v41).trans ((after_take_drop _ 45 _ _).trans
        (tail45 _ _ _ _ (head45 m c).1 (head45 m c).2)),
      (h c main_arg0).trans (by after_results_simp <;> rfl),
      (h c main_arg1).trans (by after_results_simp <;> rfl),
      (h c main_arg2).trans (by after_results_simp <;> rfl)⟩)
    (run_raw m ρ)

end Cert.ReferenceIdeal.Value

end
-- ==== Proof.lean ====
/-
  The certificate's five claims for the margin-softmax loss kernel.

  The kernel computes, tile by tile over the 50000 classes, a running maximum, a running sum of exponentials and the
  label's logit for each of 2048 rows, and writes `m + log l − (label logit)` per row; the reference normalizes,
  takes all inner products, subtracts the margin at the label, scales, and takes the negated log-softmax at the
  label. Under the precondition — finite inputs and labels in `[0, 50000)` — both end at the same real number: the
  mean over the rows of `log ∑_c exp (logit b c) − logit b (label b)`, because `m + log ∑ exp (x − m)` does not depend
  on the shift `m` (the kernel's running maximum, with its large negative fill for the classes past the last, and the
  reference's row maximum are two such shifts).

  The frames: each program runs to the end without a fault and leaves its arguments unchanged; for the two kernel
  programs with nothing said of the computed values (the weight window's last block overhangs its array, and what the
  buffer holds past the array's end is not named). The idealization rewrote no operation, so `preserves` is `True`.
-/
import proofs.«401782_j48017734369761_2_alg».proof.Defs
import proofs.«401782_j48017734369761_2_alg».proof.Proof.Gen.Kernel
import proofs.«401782_j48017734369761_2_alg».proof.Proof.Gen.KernelIdeal
import proofs.«401782_j48017734369761_2_alg».proof.Proof.Gen.ReferenceIdeal
import proofs.«401782_j48017734369761_2_alg».proof.Proof.Gen.Pre_finite_inputs
import proofs.«401782_j48017734369761_2_alg».proof.Proof.KFrameK
import proofs.«401782_j48017734369761_2_alg».proof.Proof.KFrame
import proofs.«401782_j48017734369761_2_alg».proof.Proof.KRunI
import proofs.«401782_j48017734369761_2_alg».proof.Proof.PreFacts
import proofs.«401782_j48017734369761_2_alg».proof.Proof.RefValue
import proofs.«401782_j48017734369761_2_alg».proof.Proof.RefRunS

noncomputable section

namespace Cert.Proof

open Idealize.ShloMosaic Idealize.SL.Sem Idealize.ShloMosaic.ValueIdx

theorem frame_p : Cert.frame_Kernel := fun m ρ _ => Cert.Kernel.Body.frameF m ρ
theorem frame_pi : Cert.frame_KernelIdeal := fun m ρ _ => Cert.KernelIdeal.Body.frameF m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From the precondition: the embeddings and weights are the real numbers they denote, and each label read as a
    natural number is a class. -/
theorem hyp_of_pre (m : (ℓ : Loc Cert.KernelIdeal.nD Cert.KernelIdeal.τ Cert.KernelIdeal.sig) → Buf (Elt Ideal) ℓ)
    (h : Cert.Pre_KernelIdeal m) : ∃ E W lab, Cert.KernelIdeal.RunI.Hyp m E W lab := by
  have key : ∀ c0 : Dev Cert.KernelIdeal.nD, ∃ E W lab, Cert.KernelIdeal.RunI.Hyp m E W lab := fun c0 => by
    obtain ⟨hf0, hf2, hl⟩ := Cert.PreFacts.of_pre _ _ _ (h c0)
    refine ⟨fun b d => ((m ((c0.tc : Thread Cert.KernelIdeal.nD Cert.KernelIdeal.τ).loc Cert.KernelIdeal.main_arg0) : Cert.KernelIdeal.S2048x512.Idx → EReal) (ix2 b d)).toReal,
      fun k d => ((m ((c0.tc : Thread Cert.KernelIdeal.nD Cert.KernelIdeal.τ).loc Cert.KernelIdeal.main_arg2) : Cert.KernelIdeal.S50000x512.Idx → EReal) (ix2 k d)).toReal,
      fun b => ((m ((c0.tc : Thread Cert.KernelIdeal.nD Cert.KernelIdeal.τ).loc Cert.KernelIdeal.main_arg1) : Cert.KernelIdeal.S2048.Idx → BitVec 32) (ix1 b)).toNat,
      ⟨?_, ?_, ?_, ?_⟩⟩
    · intro c b d
      obtain rfl : c = c0 := Subsingleton.elim (α := Fin 1) _ _
      obtain ⟨r, hr⟩ := hf0 (ix2 b d)
      exact hr.trans (by rw [hr, EReal.toReal_coe])
    · intro c k d
      obtain rfl : c = c0 := Subsingleton.elim (α := Fin 1) _ _
      obtain ⟨r, hr⟩ := hf2 (ix2 k d)
      exact hr.trans (by rw [hr, EReal.toReal_coe])
    · intro c b
      obtain rfl : c = c0 := Subsingleton.elim (α := Fin 1) _ _
      rfl
    · intro b; exact hl (ix1 b)
  exact key (0 : Fin 1)

/-- Both idealized programs end at the mean loss of the (agreeing) inputs. -/
theorem algebraic : Cert.algebraic_KernelIdeal_ReferenceIdeal := by
  intro m ρ m' ρ' hpre hagree
  obtain ⟨E, W, lab, H⟩ := hyp_of_pre m hpre
  refine ⟨fun _ => fun _ => ((Cert.Spec.loss E W lab : ℝ) : EReal), Cert.KernelIdeal.RunI.value_run m ρ E W lab H, ?_⟩
  refine (θ_run Cert.ReferenceIdeal.defs _ _).mono (fun _ h c => ⟨(h c).1.trans ?_, (h c).2⟩)
    (Cert.ReferenceIdeal.Value.run (F := Ideal) m' ρ')
  exact Cert.ReferenceIdeal.RefValue.ref_value _ _ _ E W lab
    (fun b d => by rw [(hagree c).1]; exact H.hE c b d)
    (fun k d => by rw [(hagree c).2.2]; exact H.hW c k d)
    (fun b => by rw [(hagree c).2.1]; exact H.hL c b) H.hlab

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
